-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S64x100000 : Shape := ⟨2, ![64, 100000]⟩
abbrev S64x2x300000 : Shape := ⟨3, ![64, 2, 300000]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel

variable [Facts]

def fn {F : FTy → Type} [FloatOps F] (main_arg0 : FVec F S64x100000x3 .f32) (main_arg1 : IVec S64x100000 32) (main_arg2 : FVec F S64x100000x3 .f32) (main_arg3 : IVec S64x2x300000 32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  let main_v4 : FVec F S64x100000x3 .f32 := Host.absf main_arg2
  let main_cst_0 : FVec F S_ .f32 := constant S_ .f32 0x7F800000#32
  let main_v5 : FVec F S64x100000x3 .f32 := broadcastInDim S64x100000x3 ![] bcast_S_S64x100000x3 main_cst_0
  let main_v6 : IVec S64x100000x3 1 := cmpf .olt main_v4 main_v5
  let main_c_1 : IVec S_ 1 := constantI S_ 1 1#1
  let main_v7 : IVec S_ 1 := (fun x v => Host.reduce IntOp.andi x v reducesTo_S64x100000x3_S_d0_1_2 h_S_) main_v6 main_c_1
  let main_v8 : IVec S_ 1 := andi main_v3 main_v7
  main_v8
-- ==== Kernel.lean ====
abbrev S64x100000x3 : Shape := ⟨3, ![64, 100000, 3]⟩
abbrev S64x100000 : Shape := ⟨2, ![64, 100000]⟩
abbrev S64x2x300000 : Shape := ⟨3, ![64, 2, 300000]⟩
abbrev S64x1x300000 : Shape := ⟨3, ![64, 1, 300000]⟩
abbrev S64x300000 : Shape := ⟨2, ![64, 300000]⟩
abbrev S_ : Shape := ⟨0, ![]⟩
abbrev S64x300000x1 : Shape := ⟨3, ![64, 300000, 1]⟩
abbrev S1 : Shape := ⟨1, ![1]⟩
abbrev S1x1x1 : Shape := ⟨3, ![1, 1, 1]⟩
abbrev S3x64x100000 : Shape := ⟨3, ![3, 64, 100000]⟩
abbrev S1x64x300000 : Shape := ⟨3, ![1, 64, 300000]⟩
abbrev S3x64x300000 : Shape := ⟨3, ![3, 64, 300000]⟩
abbrev S3x64x300000x1 : Shape := ⟨4, ![3, 64, 300000, 1]⟩
abbrev S1x1x1x1 : Shape := ⟨4, ![1, 1, 1, 1]⟩
abbrev S3x64x301056 : Shape := ⟨3, ![3, 64, 301056]⟩
abbrev S64x301056 : Shape := ⟨2, ![64, 301056]⟩
abbrev S1x1 : Shape := ⟨2, ![1, 1]⟩
abbrev S3x64x2048 : Shape := ⟨3, ![3, 64, 2048]⟩
abbrev S64x2048 : Shape := ⟨2, ![64, 2048]⟩
abbrev S1x64x2048 : Shape := ⟨3, ![1, 64, 2048]⟩
abbrev S64 : Shape := ⟨1, ![64]⟩
abbrev S64x1 : Shape := ⟨2, ![64, 1]⟩

abbrev nBuf : Space → Nat
  | .hbm => 129
  | .vmem => 12
  | .smem => 0
  | _ => 0

abbrev hbmTy0_0 (i : Nat) : BufTy := match i % 128 with
  | 0 => ⟨S64x100000x3, .f32⟩
  | 1 => ⟨S64x100000, .i32⟩
  | 2 => ⟨S64x100000x3, .f32⟩
  | 3 => ⟨S64x2x300000, .i32⟩
  | 4 => ⟨S64x1x300000, .i32⟩
  | 5 => ⟨S64x300000, .i32⟩
  | 6 => ⟨S64x1x300000, .i32⟩
  | 7 => ⟨S64x300000, .i32⟩
  | 8 => ⟨S_, .i32⟩
  | 9 => ⟨S64x300000, .i32⟩
  | 10 => ⟨S64x300000, .i1⟩
  | 11 => ⟨S_, .i32⟩
  | 12 => ⟨S64x300000, .i32⟩
  | 13 => ⟨S64x300000, .i1⟩
  | 14 => ⟨S64x300000, .i1⟩
  | 15 => ⟨S64x300000, .f32⟩
  | 16 => ⟨S_, .i32⟩
  | 17 => ⟨S64x300000, .i32⟩
  | 18 => ⟨S64x300000, .i1⟩
  | 19 => ⟨S_, .i32⟩
  | 20 => ⟨S64x300000, .i32⟩
  | 21 => ⟨S64x300000, .i32⟩
  | 22 => ⟨S64x300000, .i32⟩
  | 23 => ⟨S64x300000x1, .i32⟩
  | 24 => ⟨S1, .i32⟩
  | 25 => ⟨S_, .i32⟩
  | 26 => ⟨S64x300000x1, .i32⟩
  | 27 => ⟨S64x300000x1, .i1⟩
  | 28 => ⟨S1x1x1, .i32⟩
  | 29 => ⟨S64x300000x1, .i32⟩
  | 30 => ⟨S64x300000x1, .i1⟩
  | 31 => ⟨S64x300000x1, .i1⟩
  | 32 => ⟨S_, .i1⟩
  | 33 => ⟨S64x300000, .i1⟩
  | 34 => ⟨S64x300000, .i32⟩
  | 35 => ⟨S_, .i32⟩
  | 36 => ⟨S64x300000, .i32⟩
  | 37 => ⟨S64x300000, .i32⟩
  | 38 => ⟨S3x64x100000, .f32⟩
  | 39 => ⟨S3x64x100000, .f32⟩
  | 40 => ⟨S1x64x300000, .i32⟩
  | 41 => ⟨S3x64x300000, .i32⟩
  | 42 => ⟨S1x64x300000, .i32⟩
  | 43 => ⟨S3x64x300000, .i32⟩
  | 44 => ⟨S1x64x300000, .i32⟩
  | 45 => ⟨S3x64x300000, .i32⟩
  | 46 => ⟨S_, .i32⟩
  | 47 => ⟨S3x64x300000, .i32⟩
  | 48 => ⟨S3x64x300000, .i1⟩
  | 49 => ⟨S_, .i32⟩
  | 50 => ⟨S3x64x300000, .i32⟩
  | 51 => ⟨S3x64x300000, .i32⟩
  | 52 => ⟨S3x64x300000, .i32⟩
  | 53 => ⟨S3x64x300000x1, .i32⟩
  | 54 => ⟨S1, .i32⟩
  | 55 => ⟨S_, .i32⟩
  | 56 => ⟨S3x64x300000x1, .i32⟩
  | 57 => ⟨S3x64x300000x1, .i1⟩
  | 58 => ⟨S1x1x1x1, .i32⟩
  | 59 => ⟨S3x64x300000x1, .i32⟩
  | 60 => ⟨S3x64x300000x1, .i1⟩
  | 61 => ⟨S3x64x300000x1, .i1⟩
  | 62 => ⟨S_, .i1⟩
  | 63 => ⟨S3x64x300000, .i1⟩
  | 64 => ⟨S3x64x300000, .f32⟩
  | 65 => ⟨S_, .f32⟩
  | 66 => ⟨S3x64x300000, .f32⟩
  | 67 => ⟨S3x64x300000, .f32⟩
  | 68 => ⟨S_, .i32⟩
  | 69 => ⟨S3x64x300000, .i32⟩
  | 70 => ⟨S3x64x300000, .i1⟩
  | 71 => ⟨S_, .i32⟩
  | 72 => ⟨S3x64x300000, .i32⟩
  | 73 => ⟨S3x64x300000, .i32⟩
  | 74 => ⟨S3x64x300000, .i32⟩
  | 75 => ⟨S3x64x300000x1, .i32⟩
  | 76 => ⟨S1, .i32⟩
  | 77 => ⟨S_, .i32⟩
  | 78 => ⟨S3x64x300000x1, .i32⟩
  | 79 => ⟨S3x64x300000x1, .i1⟩
  | 80 => ⟨S1x1x1x1, .i32⟩
  | 81 => ⟨S3x64x300000x1, .i32⟩
  | 82 => ⟨S3x64x300000x1, .i1⟩
  | 83 => ⟨S3x64x300000x1, .i1⟩
  | 84 => ⟨S_, .i1⟩
  | 85 => ⟨S3x64x300000, .i1⟩
  | 86 => ⟨S3x64x300000, .f32⟩
  | 87 => ⟨S_, .f32⟩
  | 88 => ⟨S3x64x300000, .f32⟩
  | 89 => ⟨S3x64x300000, .f32⟩
  | 90 => ⟨S_, .i32⟩
  | 91 => ⟨S3x64x300000, .i32⟩
  | 92 => ⟨S3x64x300000, .i1⟩
  | 93 => ⟨S_, .i32⟩
  | 94 => ⟨S3x64x300000, .i32⟩
  | 95 => ⟨S3x64x300000, .i32⟩
  | 96 => ⟨S3x64x300000, .i32⟩
  | 97 => ⟨S3x64x300000x1, .i32⟩
  | 98 => ⟨S1, .i32⟩
  | 99 => ⟨S_, .i32⟩
  | 100 => ⟨S3x64x300000x1, .i32⟩
  | 101 => ⟨S3x64x300000x1, .i1⟩
  | 102 => ⟨S1x1x1x1, .i32⟩
  | 103 => ⟨S3x64x300000x1, .i32⟩
  | 104 => ⟨S3x64x300000x1, .i1⟩
  | 105 => ⟨S3x64x300000x1, .i1⟩
  | 106 => ⟨S_, .i1⟩
  | 107 => ⟨S3x64x300000, .i1⟩
  | 108 => ⟨S3x64x300000, .f32⟩
  | 109 => ⟨S_, .f32⟩
  | 110 => ⟨S3x64x300000, .f32⟩
  | 111 => ⟨S3x64x300000, .f32⟩
  | 112 => ⟨S_, .i32⟩
  | 113 => ⟨S_, .f32⟩
  | 114 => ⟨S3x64x301056, .f32⟩
  | 115 => ⟨S_, .i32⟩
  | 116 => ⟨S_, .f32⟩
  | 117 => ⟨S3x64x301056, .f32⟩
  | 118 => ⟨S_, .i32⟩
  | 119 => ⟨S_, .f32⟩
  | 120 => ⟨S3x64x301056, .f32⟩
  | 121 => ⟨S_, .i32⟩
  | 122 => ⟨S_, .f32⟩
  | 123 => ⟨S64x301056, .f32⟩
  | 124 => ⟨S1x1, .f32⟩
  | 125 => ⟨S1x1, .f32⟩
  | 126 => ⟨S_, .f32⟩
  | 127 => ⟨S_, .f32⟩
  | _ => ⟨S64x100000x3, .f32⟩

abbrev hbmTy0_1 (i : Nat) : BufTy := match i % 128 with
  | 0 => ⟨S_, .f32⟩
  | _ => ⟨S64x100000x3, .f32⟩

abbrev hbmTy (i : Nat) : BufTy := match i / 128 with
  | 0 => hbmTy0_0 i
  | 1 => hbmTy0_1 i
  | _ => ⟨S64x100000x3, .f32⟩

abbrev bufTy : (tb : Table) → Fin (tcTables nBuf tb) → BufTy
  | .hbm, ⟨i, _⟩ => hbmTy i
  | .local _ .vmem, ⟨0, _⟩ => ⟨S3x64x2048, .f32⟩
  | .local _ .vmem, ⟨1, _⟩ => ⟨S3x64x2048, .f32⟩
  | .local _ .vmem, ⟨2, _⟩ => ⟨S3x64x2048, .f32⟩
  | .local _ .vmem, ⟨3, _⟩ => ⟨S3x64x2048, .f32⟩
  | .local _ .vmem, ⟨4, _⟩ => ⟨S3x64x2048, .f32⟩
  | .local _ .vmem, ⟨5, _⟩ => ⟨S3x64x2048, .f32⟩
  | .local _ .vmem, ⟨6, _⟩ => ⟨S64x2048, .f32⟩
  | .local _ .vmem, ⟨7, _⟩ => ⟨S64x2048, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_c_4 : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v19 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v20 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v21 : Ref sig .tc := ⟨.hbm, 111, rfl⟩
abbrev main_c_1 : Ref sig .tc := ⟨.hbm, 112, rfl⟩
abbrev main_call4_v0 : Ref sig .tc := ⟨.hbm, 113, rfl⟩
abbrev main_v22 : Ref sig .tc := ⟨.hbm, 114, rfl⟩
abbrev main_c_2 : Ref sig .tc := ⟨.hbm, 115, rfl⟩
abbrev main_call5_v0 : Ref sig .tc := ⟨.hbm, 116, rfl⟩
abbrev main_v23 : Ref sig .tc := ⟨.hbm, 117, rfl⟩
abbrev main_c_3 : Ref sig .tc := ⟨.hbm, 118, rfl⟩
abbrev main_call6_v0 : Ref sig .tc := ⟨.hbm, 119, rfl⟩
abbrev main_v24 : Ref sig .tc := ⟨.hbm, 120, rfl⟩
abbrev main_c_4 : Ref sig .tc := ⟨.hbm, 121, rfl⟩
abbrev main_call7_v0 : Ref sig .tc := ⟨.hbm, 122, rfl⟩
abbrev main_v25 : Ref sig .tc := ⟨.hbm, 123, rfl⟩
abbrev main_v26_0 : Ref sig .tc := ⟨.hbm, 124, rfl⟩
abbrev main_v26_1 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![147], ![false]⟩

def k0_cond2 (i : grid0.Coords) : BitVec 1 :=
  let arg0 : BitVec 32 := BitVec.ofNat 32 (i 0).val
  let c146_i32 : BitVec 32 := 146#32
  let v69 : BitVec 1 := Scalar.cmpi .eq arg0 c146_i32
  let v70 : BitVec 32 := Scalar.extui v69
  let c0_i32_40 : BitVec 32 := 0#32
  let v71 : BitVec 1 := Scalar.cmpi .ne v70 c0_i32_40
  v71

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  slices_S64x2x300000_S64x1x300000_0_0_0 : S64x2x300000.Slices ![0, 0, 0] S64x1x300000
  shapeCasts_S64x1x300000_S64x300000 : S64x1x300000.ShapeCasts S64x300000
  slices_S64x2x300000_S64x1x300000_0_1_0 : S64x2x300000.Slices ![0, 1, 0] S64x1x300000
  bcast_S_S64x300000 : S_.BroadcastsInDim S64x300000 (![] : Fin 0 → Fin S64x300000.rank)
  shapeCasts_S64x300000_S64x300000x1 : S64x300000.ShapeCasts S64x300000x1
  bcast_S_S64x300000x1 : S_.BroadcastsInDim S64x300000x1 (![] : Fin 0 → Fin S64x300000x1.rank)
  bcast_S1_S1x1x1_2 : S1.BroadcastsInDim S1x1x1 (![2] : Fin 1 → Fin S1x1x1.rank)
  bcast_S1x1x1_S64x300000x1_0_1_2 : S1x1x1.BroadcastsInDim S64x300000x1 (![0, 1, 2] : Fin 3 → Fin S64x300000x1.rank)
  reducesTo_S64x300000x1_S64x300000_d2 : S64x300000x1.ReducesTo [2] S64x300000
  h_S_ : 0 < S_.numel
  transposes_S64x100000x3_S3x64x100000_2_0_1 : S64x100000x3.Transposes [2, 0, 1] S3x64x100000
  bcast_S64x300000_S1x64x300000_1_2 : S64x300000.BroadcastsInDim S1x64x300000 (![1, 2] : Fin 2 → Fin S1x64x300000.rank)
  bcast_S1x64x300000_S3x64x300000_0_1_2 : S1x64x300000.BroadcastsInDim S3x64x300000 (![0, 1, 2] : Fin 3 → Fin S3x64x300000.rank)
  bcast_S_S3x64x300000 : S_.BroadcastsInDim S3x64x300000 (![] : Fin 0 → Fin S3x64x300000.rank)
  shapeCasts_S3x64x300000_S3x64x300000x1 : S3x64x300000.ShapeCasts S3x64x300000x1
  bcast_S_S3x64x300000x1 : S_.BroadcastsInDim S3x64x300000x1 (![] : Fin 0 → Fin S3x64x300000x1.rank)
  bcast_S1_S1x1x1x1_3 : S1.BroadcastsInDim S1x1x1x1 (![3] : Fin 1 → Fin S1x1x1x1.rank)
  bcast_S1x1x1x1_S3x64x300000x1_0_1_2_3 : S1x1x1x1.BroadcastsInDim S3x64x300000x1 (![0, 1, 2, 3] : Fin 4 → Fin S3x64x300000x1.rank)
  reducesTo_S3x64x300000x1_S3x64x300000_d3 : S3x64x300000x1.ReducesTo [3] S3x64x300000
  pads_S3x64x300000_S3x64x301056_000_000_010560 : S3x64x300000.Pads (![0, 0, 0] : Fin 3 → Nat) ![0, 0, 1056] ![0, 0, 0] S3x64x301056
  pads_S64x300000_S64x301056_000_010560 : S64x300000.Pads (![0, 0] : Fin 2 → Nat) ![0, 1056] ![0, 0] S64x301056
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x64x2048_S1x64x2048_0_0_0 : ∀ a, (![0, 0, 0] : Fin 3 → Nat) a + S1x64x2048.size a ≤ S3x64x2048.size a
  h_S1x64x2048 : 0 < S1x64x2048.numel
  shapeCasts_S1x64x2048_S64x2048 : S1x64x2048.ShapeCasts S64x2048
  inb_S3x64x2048_S1x64x2048_1_0_0 : ∀ a, (![1, 0, 0] : Fin 3 → Nat) a + S1x64x2048.size a ≤ S3x64x2048.size a
  inb_S3x64x2048_S1x64x2048_2_0_0 : ∀ a, (![2, 0, 0] : Fin 3 → Nat) a + S1x64x2048.size a ≤ S3x64x2048.size a
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S64x2048_S64 : S64x2048.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  gather_S64x100000_S64x300000x1_S64x300000_n_1_0_0_1_2_11_wf : GatherDims.WF S64x100000 S64x300000x1 S64x300000 [] [1] [0] [1] [0] 2 ![1, 1]
  gather_S3x64x100000_S3x64x300000x1_S3x64x300000_n_2_01_01_2_3_111_wf : GatherDims.WF S3x64x100000 S3x64x300000x1 S3x64x300000 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x2048.size a ≤ S3x64x301056.size a
  hwx0_0 : ∀ i : grid0.Coords, EltTy.bits .f32 = 32 ∨ (Rect.block (s := S3x64x301056) S3x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x64x2048.size a ≤ S3x64x301056.size a
  hwx0_1 : ∀ i : grid0.Coords, EltTy.bits .f32 = 32 ∨ (Rect.block (s := S3x64x301056) S3x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x64x2048.size a ≤ S3x64x301056.size a
  hwx0_2 : ∀ i : grid0.Coords, EltTy.bits .f32 = 32 ∨ (Rect.block (s := S3x64x301056) S3x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x301056.size a
  hwx0_3 : ∀ i : grid0.Coords, EltTy.bits .f32 = 32 ∨ (Rect.block (s := S64x301056) S64x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S64x100000_S64x300000x1_S64x300000_n_1_0_0_1_2_11 : GatherDims S64x100000 S64x300000x1 S64x300000 where
  offsetDims := []
  collapsedSliceDims := [1]
  operandBatchingDims := [0]
  startIndicesBatchingDims := [0]
  startIndexMap := [1]
  indexVectorDim := 2
  sliceSizes := ![1, 1]
  wf := gather_S64x100000_S64x300000x1_S64x300000_n_1_0_0_1_2_11_wf
def gather_S3x64x100000_S3x64x300000x1_S3x64x300000_n_2_01_01_2_3_111 : GatherDims S3x64x100000 S3x64x300000x1 S3x64x300000 where
  offsetDims := []
  collapsedSliceDims := [2]
  operandBatchingDims := [0, 1]
  startIndicesBatchingDims := [0, 1]
  startIndexMap := [2]
  indexVectorDim := 3
  sliceSizes := ![1, 1, 1]
  wf := gather_S3x64x100000_S3x64x300000x1_S3x64x300000_n_2_01_01_2_3_111_wf

abbrev win0_0 : Pipeline.Window sig grid0 :=
  Pipeline.Window.ofSpec (Memref.whole main_v22) S3x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S3x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S3x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x100000x3 : Shape := ⟨3, ![64, 100000, 3]⟩
abbrev S64x100000 : Shape := ⟨2, ![64, 100000]⟩
abbrev S64x2x300000 : Shape := ⟨3, ![64, 2, 300000]⟩
abbrev S64x1x300000 : Shape := ⟨3, ![64, 1, 300000]⟩
abbrev S64x300000 : Shape := ⟨2, ![64, 300000]⟩
abbrev S_ : Shape := ⟨0, ![]⟩
abbrev S64x100000x1 : Shape := ⟨3, ![64, 100000, 1]⟩
abbrev S1 : Shape := ⟨1, ![1]⟩
abbrev S1x1x1 : Shape := ⟨3, ![1, 1, 1]⟩
abbrev S64x300000x1 : Shape := ⟨3, ![64, 300000, 1]⟩
abbrev S64x300000x3 : Shape := ⟨3, ![64, 300000, 3]⟩

abbrev nBuf : Space → Nat
  | .hbm => 139
  | .vmem => 0
  | .smem => 0
  | _ => 0

abbrev hbmTy0_0 (i : Nat) : BufTy := match i % 128 with
  | 0 => ⟨S64x100000x3, .f32⟩
  | 1 => ⟨S64x100000, .i32⟩
  | 2 => ⟨S64x100000x3, .f32⟩
  | 3 => ⟨S64x2x300000, .i32⟩
  | 4 => ⟨S64x1x300000, .i32⟩
  | 5 => ⟨S64x300000, .i32⟩
  | 6 => ⟨S64x1x300000, .i32⟩
  | 7 => ⟨S64x300000, .i32⟩
  | 8 => ⟨S_, .i32⟩
  | 9 => ⟨S64x300000, .i32⟩
  | 10 => ⟨S64x300000, .i1⟩
  | 11 => ⟨S_, .i32⟩
  | 12 => ⟨S64x300000, .i32⟩
  | 13 => ⟨S64x300000, .i1⟩
  | 14 => ⟨S64x300000, .i1⟩
  | 15 => ⟨S64x100000x1, .i32⟩
  | 16 => ⟨S_, .i32⟩
  | 17 => ⟨S64x100000x1, .i32⟩
  | 18 => ⟨S64x100000x1, .i1⟩
  | 19 => ⟨S_, .i32⟩
  | 20 => ⟨S64x100000x1, .i32⟩
  | 21 => ⟨S64x100000x1, .i32⟩
  | 22 => ⟨S64x100000x1, .i32⟩
  | 23 => ⟨S1, .i32⟩
  | 24 => ⟨S_, .i32⟩
  | 25 => ⟨S64x100000x1, .i32⟩
  | 26 => ⟨S64x100000x1, .i1⟩
  | 27 => ⟨S1x1x1, .i32⟩
  | 28 => ⟨S64x100000x1, .i32⟩
  | 29 => ⟨S64x100000x1, .i1⟩
  | 30 => ⟨S64x100000x1, .i1⟩
  | 31 => ⟨S_, .i1⟩
  | 32 => ⟨S64x100000, .i1⟩
  | 33 => ⟨S64x100000x3, .f32⟩
  | 34 => ⟨S64x100000x3, .i1⟩
  | 35 => ⟨S_, .f32⟩
  | 36 => ⟨S64x100000x3, .f32⟩
  | 37 => ⟨S64x100000x3, .f32⟩
  | 38 => ⟨S64x300000x1, .i32⟩
  | 39 => ⟨S_, .i32⟩
  | 40 => ⟨S64x300000x1, .i32⟩
  | 41 => ⟨S64x300000x1, .i1⟩
  | 42 => ⟨S_, .i32⟩
  | 43 => ⟨S64x300000x1, .i32⟩
  | 44 => ⟨S64x300000x1, .i32⟩
  | 45 => ⟨S64x300000x1, .i32⟩
  | 46 => ⟨S1, .i32⟩
  | 47 => ⟨S_, .i32⟩
  | 48 => ⟨S64x300000x1, .i32⟩
  | 49 => ⟨S64x300000x1, .i1⟩
  | 50 => ⟨S1x1x1, .i32⟩
  | 51 => ⟨S64x300000x1, .i32⟩
  | 52 => ⟨S64x300000x1, .i1⟩
  | 53 => ⟨S64x300000x1, .i1⟩
  | 54 => ⟨S_, .i1⟩
  | 55 => ⟨S64x300000, .i1⟩
  | 56 => ⟨S64x300000x3, .f32⟩
  | 57 => ⟨S64x300000x3, .i1⟩
  | 58 => ⟨S_, .f32⟩
  | 59 => ⟨S64x300000x3, .f32⟩
  | 60 => ⟨S64x300000x3, .f32⟩
  | 61 => ⟨S64x300000x3, .f32⟩
  | 62 => ⟨S_, .f32⟩
  | 63 => ⟨S64x300000, .f32⟩
  | 64 => ⟨S64x300000x1, .f32⟩
  | 65 => ⟨S64x300000x1, .f32⟩
  | 66 => ⟨S_, .f32⟩
  | 67 => ⟨S64x300000x1, .f32⟩
  | 68 => ⟨S64x300000x1, .f32⟩
  | 69 => ⟨S64x300000x3, .f32⟩
  | 70 => ⟨S64x300000x3, .f32⟩
  | 71 => ⟨S64x300000x1, .i32⟩
  | 72 => ⟨S_, .i32⟩
  | 73 => ⟨S64x300000x1, .i32⟩
  | 74 => ⟨S64x300000x1, .i1⟩
  | 75 => ⟨S_, .i32⟩
  | 76 => ⟨S64x300000x1, .i32⟩
  | 77 => ⟨S64x300000x1, .i32⟩
  | 78 => ⟨S64x300000x1, .i32⟩
  | 79 => ⟨S1, .i32⟩
  | 80 => ⟨S_, .i32⟩
  | 81 => ⟨S64x300000x1, .i32⟩
  | 82 => ⟨S64x300000x1, .i1⟩
  | 83 => ⟨S1x1x1, .i32⟩
  | 84 => ⟨S64x300000x1, .i32⟩
  | 85 => ⟨S64x300000x1, .i1⟩
  | 86 => ⟨S64x300000x1, .i1⟩
  | 87 => ⟨S_, .i1⟩
  | 88 => ⟨S64x300000, .i1⟩
  | 89 => ⟨S64x300000x3, .f32⟩
  | 90 => ⟨S64x300000x3, .i1⟩
  | 91 => ⟨S_, .f32⟩
  | 92 => ⟨S64x300000x3, .f32⟩
  | 93 => ⟨S64x300000x3, .f32⟩
  | 94 => ⟨S64x300000x1, .i32⟩
  | 95 => ⟨S_, .i32⟩
  | 96 => ⟨S64x300000x1, .i32⟩
  | 97 => ⟨S64x300000x1, .i1⟩
  | 98 => ⟨S_, .i32⟩
  | 99 => ⟨S64x300000x1, .i32⟩
  | 100 => ⟨S64x300000x1, .i32⟩
  | 101 => ⟨S64x300000x1, .i32⟩
  | 102 => ⟨S1, .i32⟩
  | 103 => ⟨S_, .i32⟩
  | 104 => ⟨S64x300000x1, .i32⟩
  | 105 => ⟨S64x300000x1, .i1⟩
  | 106 => ⟨S1x1x1, .i32⟩
  | 107 => ⟨S64x300000x1, .i32⟩
  | 108 => ⟨S64x300000x1, .i1⟩
  | 109 => ⟨S64x300000x1, .i1⟩
  | 110 => ⟨S_, .i1⟩
  | 111 => ⟨S64x300000, .i1⟩
  | 112 => ⟨S64x300000x3, .f32⟩
  | 113 => ⟨S64x300000x3, .i1⟩
  | 114 => ⟨S_, .f32⟩
  | 115 => ⟨S64x300000x3, .f32⟩
  | 116 => ⟨S64x300000x3, .f32⟩
  | 117 => ⟨S64x300000x3, .f32⟩
  | 118 => ⟨S64x300000x3, .f32⟩
  | 119 => ⟨S_, .f32⟩
  | 120 => ⟨S64x300000, .f32⟩
  | 121 => ⟨S64x300000x1, .f32⟩
  | 122 => ⟨S64x300000x1, .f32⟩
  | 123 => ⟨S_, .f32⟩
  | 124 => ⟨S64x300000x1, .f32⟩
  | 125 => ⟨S64x300000x1, .f32⟩
  | 126 => ⟨S64x300000x3, .f32⟩
  | 127 => ⟨S64x300000x3, .f32⟩
  | _ => ⟨S64x100000x3, .f32⟩

abbrev hbmTy0_1 (i : Nat) : BufTy := match i % 128 with
  | 0 => ⟨S64x300000x3, .f32⟩
  | 1 => ⟨S_, .f32⟩
  | 2 => ⟨S64x300000, .f32⟩
  | 3 => ⟨S64x300000, .f32⟩
  | 4 => ⟨S64x300000, .f32⟩
  | 5 => ⟨S64x300000, .f32⟩
  | 6 => ⟨S_, .f32⟩
  | 7 => ⟨S_, .f32⟩
  | 8 => ⟨S_, .f32⟩
  | 9 => ⟨S_, .f32⟩
  | 10 => ⟨S_, .f32⟩
  | _ => ⟨S64x100000x3, .f32⟩

abbrev hbmTy (i : Nat) : BufTy := match i / 128 with
  | 0 => hbmTy0_0 i
  | 1 => hbmTy0_1 i
  | _ => ⟨S64x100000x3, .f32⟩

abbrev bufTy : (tb : Table) → Fin (tcTables nBuf tb) → BufTy
  | .hbm, ⟨i, _⟩ => hbmTy i
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_c_2 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_3 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v12 : Ref sig .tc := ⟨.hbm, 60, rfl⟩
abbrev main_v13 : Ref sig .tc := ⟨.hbm, 61, rfl⟩
abbrev main_cst : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst_1 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_c_2 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_c_3 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v22 : Ref sig .tc := ⟨.hbm, 93, rfl⟩
abbrev main_v23 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_c_1 : Ref sig .tc := ⟨.hbm, 102, rfl⟩
abbrev main_call3_c_2 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_c_3 : Ref sig .tc := ⟨.hbm, 110, rfl⟩
abbrev main_call3_v11 : Ref sig .tc := ⟨.hbm, 111, rfl⟩
abbrev main_call3_v12 : Ref sig .tc := ⟨.hbm, 112, rfl⟩
abbrev main_call3_v13 : Ref sig .tc := ⟨.hbm, 113, rfl⟩
abbrev main_call3_cst : Ref sig .tc := ⟨.hbm, 114, rfl⟩
abbrev main_call3_v14 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_cst_2 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_cst_3 : Ref sig .tc := ⟨.hbm, 123, rfl⟩
abbrev main_v30 : Ref sig .tc := ⟨.hbm, 124, rfl⟩
abbrev main_v31 : Ref sig .tc := ⟨.hbm, 125, rfl⟩
abbrev main_v32 : Ref sig .tc := ⟨.hbm, 126, rfl⟩
abbrev main_v33 : Ref sig .tc := ⟨.hbm, 127, rfl⟩
abbrev main_v34 : Ref sig .tc := ⟨.hbm, 128, rfl⟩
abbrev main_cst_4 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_cst_5 : Ref sig .tc := ⟨.hbm, 134, rfl⟩
abbrev main_v39 : Ref sig .tc := ⟨.hbm, 135, rfl⟩
abbrev main_cst_6 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]

class Facts₀ : Prop where
  slices_S64x2x300000_S64x1x300000_0_0_0 : S64x2x300000.Slices ![0, 0, 0] S64x1x300000
  shapeCasts_S64x1x300000_S64x300000 : S64x1x300000.ShapeCasts S64x300000
  slices_S64x2x300000_S64x1x300000_0_1_0 : S64x2x300000.Slices ![0, 1, 0] S64x1x300000
  bcast_S_S64x300000 : S_.BroadcastsInDim S64x300000 (![] : Fin 0 → Fin S64x300000.rank)
  bcast_S64x100000_S64x100000x1_0_1 : S64x100000.BroadcastsInDim S64x100000x1 (![0, 1] : Fin 2 → Fin S64x100000x1.rank)
  bcast_S_S64x100000x1 : S_.BroadcastsInDim S64x100000x1 (![] : Fin 0 → Fin S64x100000x1.rank)
  bcast_S1_S1x1x1_2 : S1.BroadcastsInDim S1x1x1 (![2] : Fin 1 → Fin S1x1x1.rank)
  bcast_S1x1x1_S64x100000x1_0_1_2 : S1x1x1.BroadcastsInDim S64x100000x1 (![0, 1, 2] : Fin 3 → Fin S64x100000x1.rank)
  reducesTo_S64x100000x1_S64x100000_d2 : S64x100000x1.ReducesTo [2] S64x100000
  h_S_ : 0 < S_.numel
  bcast_S64x100000_S64x100000x3_0_1 : S64x100000.BroadcastsInDim S64x100000x3 (![0, 1] : Fin 2 → Fin S64x100000x3.rank)
  bcast_S_S64x100000x3 : S_.BroadcastsInDim S64x100000x3 (![] : Fin 0 → Fin S64x100000x3.rank)
  bcast_S64x300000_S64x300000x1_0_1 : S64x300000.BroadcastsInDim S64x300000x1 (![0, 1] : Fin 2 → Fin S64x300000x1.rank)
  bcast_S_S64x300000x1 : S_.BroadcastsInDim S64x300000x1 (![] : Fin 0 → Fin S64x300000x1.rank)
  bcast_S1x1x1_S64x300000x1_0_1_2 : S1x1x1.BroadcastsInDim S64x300000x1 (![0, 1, 2] : Fin 3 → Fin S64x300000x1.rank)
  reducesTo_S64x300000x1_S64x300000_d2 : S64x300000x1.ReducesTo [2] S64x300000
  bcast_S64x300000_S64x300000x3_0_1 : S64x300000.BroadcastsInDim S64x300000x3 (![0, 1] : Fin 2 → Fin S64x300000x3.rank)
  bcast_S_S64x300000x3 : S_.BroadcastsInDim S64x300000x3 (![] : Fin 0 → Fin S64x300000x3.rank)
  reducesTo_S64x300000x3_S64x300000_d2 : S64x300000x3.ReducesTo [2] S64x300000
  bcast_S64x300000x1_S64x300000x3_0_1_2 : S64x300000x1.BroadcastsInDim S64x300000x3 (![0, 1, 2] : Fin 3 → Fin S64x300000x3.rank)
  reducesTo_S64x300000_S_d0_1 : S64x300000.ReducesTo [0, 1] S_
  gather_S64x100000x3_S64x100000x1_S64x100000x3_2_1_0_0_1_2_113_wf : GatherDims.WF S64x100000x3 S64x100000x1 S64x100000x3 [2] [1] [0] [1] [0] 2 ![1, 1, 3]
  gather_S64x100000x3_S64x300000x1_S64x300000x3_2_1_0_0_1_2_113_wf : GatherDims.WF S64x100000x3 S64x300000x1 S64x300000x3 [2] [1] [0] [1] [0] 2 ![1, 1, 3]

variable [Facts₀]

def gather_S64x100000x3_S64x100000x1_S64x100000x3_2_1_0_0_1_2_113 : GatherDims S64x100000x3 S64x100000x1 S64x100000x3 where
  offsetDims := [2]
  collapsedSliceDims := [1]
  operandBatchingDims := [0]
  startIndicesBatchingDims := [0]
  startIndexMap := [1]
  indexVectorDim := 2
  sliceSizes := ![1, 1, 3]
  wf := gather_S64x100000x3_S64x100000x1_S64x100000x3_2_1_0_0_1_2_113_wf
def gather_S64x100000x3_S64x300000x1_S64x300000x3_2_1_0_0_1_2_113 : GatherDims S64x100000x3 S64x300000x1 S64x300000x3 where
  offsetDims := [2]
  collapsedSliceDims := [1]
  operandBatchingDims := [0]
  startIndicesBatchingDims := [0]
  startIndexMap := [1]
  indexVectorDim := 2
  sliceSizes := ![1, 1, 3]
  wf := gather_S64x100000x3_S64x300000x1_S64x300000x3_2_1_0_0_1_2_113_wf

class Facts : Prop extends Facts₀ where

variable [Facts]
-- ==== Proof.RefGather.lean ====
/-
  The reads the reference's operation-by-operation reader leaves open: a gather along axis 1 of a [64, 100000, 3]
  array with the batch axis 0 and the coordinate axis 2 carried whole (entry (b, n, d) of the result is the operand's
  entry (b, k, d) with k the start index at (b, n, 0), read signed and clamped into the axis), at index arrays of
  100000 and of 300000 rows; and the AND over an axis of length one, from the initial bit 1, which is the bit itself.
-/
import proofs.«105622_j89438398971910_1_alg».proof.ReferenceIdeal
import proofs.«105622_j89438398971910_1_alg».proof.Proof.Gen.ReferenceIdeal
import Idealize.ShloMosaic.Lib.ValueIdx
import Idealize.ShloMosaic.Lib.Pipeline.Value
import Idealize.ShloMosaic.PureOps.Reduce

noncomputable section

open scoped BigOperators

namespace Cert.ReferenceIdeal.RefValue

open Cert.ReferenceIdeal Cert.ReferenceIdeal.Facts₀ Cert.ReferenceIdeal.Facts Idealize.ShloMosaic Idealize.ShloMosaic.ValueIdx

/-- The gather at 100000 rows of indices, read at an index. -/
theorem gatherN_apply {α : Type} (X : S64x100000x3.Idx → α) (I : IVec S64x100000x1 32) (b : Fin 64) (n : Fin 100000) (d : Fin 3) :
    Host.gather gather_S64x100000x3_S64x100000x1_S64x100000x3_2_1_0_0_1_2_113 X I (ix3 b n d)
      = X (ix3 b ⟨min (I (ix3 b n (0 : Fin 1))).toInt.toNat 99999, by omega⟩ d) := by
  have hb0 : (0 : Fin S64x100000x3.rank) ∈ GatherDims.operandBatchingDims gather_S64x100000x3_S64x100000x1_S64x100000x3_2_1_0_0_1_2_113 := by decide
  have hnb1 : (1 : Fin S64x100000x3.rank) ∉ GatherDims.operandBatchingDims gather_S64x100000x3_S64x100000x1_S64x100000x3_2_1_0_0_1_2_113 := by decide
  have hnb2 : (2 : Fin S64x100000x3.rank) ∉ GatherDims.operandBatchingDims gather_S64x100000x3_S64x100000x1_S64x100000x3_2_1_0_0_1_2_113 := by decide
  have hc1 : (1 : Fin S64x100000x3.rank) ∈ GatherDims.collapsedSliceDims gather_S64x100000x3_S64x100000x1_S64x100000x3_2_1_0_0_1_2_113 := by decide
  have hnc2 : (2 : Fin S64x100000x3.rank) ∉ GatherDims.collapsedSliceDims gather_S64x100000x3_S64x100000x1_S64x100000x3_2_1_0_0_1_2_113 := by decide
  have hm1 : (1 : Fin S64x100000x3.rank) ∈ GatherDims.startIndexMap gather_S64x100000x3_S64x100000x1_S64x100000x3_2_1_0_0_1_2_113 := by decide
  have hnm2 : (2 : Fin S64x100000x3.rank) ∉ GatherDims.startIndexMap gather_S64x100000x3_S64x100000x1_S64x100000x3_2_1_0_0_1_2_113 := by decide
  have hk2 : (2 : Fin S64x100000x3.rank) ∈ GatherDims.sKept gather_S64x100000x3_S64x100000x1_S64x100000x3_2_1_0_0_1_2_113 := (GatherDims.mem_sKept _ _).mpr ⟨hnc2, hnb2⟩
  unfold Host.gather
  congr 1
  funext a
  refine Fin.ext ?_
  match a with
  | ⟨0, h0⟩ =>
    -- the batch axis: no start, no offset; the batching coordinate is the result's batch coordinate
    show GatherDims.start gather_S64x100000x3_S64x100000x1_S64x100000x3_2_1_0_0_1_2_113 (ix3 b n d) I 0 + GatherDims.batchCoord gather_S64x100000x3_S64x100000x1_S64x100000x3_2_1_0_0_1_2_113 (ix3 b n d) 0
      + GatherDims.offCoord gather_S64x100000x3_S64x100000x1_S64x100000x3_2_1_0_0_1_2_113 (ix3 b n d) 0 = b.val
    rw [GatherDims.start_batching _ _ _ _ hb0,
      GatherDims.offCoord_eq_zero _ _ _ (fun h => ((GatherDims.mem_sKept _ _).mp h).2 hb0)]
    simp only [Nat.add_zero, Nat.zero_add]
    unfold GatherDims.batchCoord
    rw [dif_pos hb0]
    rfl
  | ⟨1, h1⟩ =>
    -- the gathered axis: collapsed, and the one axis of the start index map
    show GatherDims.start gather_S64x100000x3_S64x100000x1_S64x100000x3_2_1_0_0_1_2_113 (ix3 b n d) I 1 + GatherDims.batchCoord gather_S64x100000x3_S64x100000x1_S64x100000x3_2_1_0_0_1_2_113 (ix3 b n d) 1
      + GatherDims.offCoord gather_S64x100000x3_S64x100000x1_S64x100000x3_2_1_0_0_1_2_113 (ix3 b n d) 1 = min (I (ix3 b n (0 : Fin 1))).toInt.toNat 99999
    rw [GatherDims.batchCoord_eq_zero _ _ _ hnb1,
      GatherDims.offCoord_eq_zero _ _ _ (fun h => ((GatherDims.mem_sKept _ _).mp h).1 hc1)]
    simp only [Nat.add_zero]
    unfold GatherDims.start
    rw [dif_pos hm1]
    have hsi : GatherDims.siIdx gather_S64x100000x3_S64x100000x1_S64x100000x3_2_1_0_0_1_2_113 (ix3 b n d) ⟨List.idxOf (1 : Fin S64x100000x3.rank) (GatherDims.startIndexMap gather_S64x100000x3_S64x100000x1_S64x100000x3_2_1_0_0_1_2_113),
        List.idxOf_lt_length_iff.2 hm1⟩ = ix3 b n (0 : Fin 1) := by
      funext c; refine Fin.ext ?_
      match c with
      | ⟨0, _⟩ => rfl
      | ⟨1, _⟩ => rfl
      | ⟨2, _⟩ => rfl
    rw [hsi]
    rfl
  | ⟨2, h2⟩ =>
    -- the coordinate axis: an offset axis, carried whole
    show GatherDims.start gather_S64x100000x3_S64x100000x1_S64x100000x3_2_1_0_0_1_2_113 (ix3 b n d) I 2 + GatherDims.batchCoord gather_S64x100000x3_S64x100000x1_S64x100000x3_2_1_0_0_1_2_113 (ix3 b n d) 2
      + GatherDims.offCoord gather_S64x100000x3_S64x100000x1_S64x100000x3_2_1_0_0_1_2_113 (ix3 b n d) 2 = d.val
    rw [GatherDims.batchCoord_eq_zero _ _ _ hnb2]
    unfold GatherDims.start
    rw [dif_neg hnm2]
    simp only [Nat.add_zero, Nat.zero_add]
    unfold GatherDims.offCoord
    rw [dif_pos hk2]
    rfl

/-- The gather at 300000 rows of indices, read at an index. -/
theorem gatherE_apply {α : Type} (X : S64x100000x3.Idx → α) (I : IVec S64x300000x1 32) (b : Fin 64) (e : Fin 300000) (d : Fin 3) :
    Host.gather gather_S64x100000x3_S64x300000x1_S64x300000x3_2_1_0_0_1_2_113 X I (ix3 b e d)
      = X (ix3 b ⟨min (I (ix3 b e (0 : Fin 1))).toInt.toNat 99999, by omega⟩ d) := by
  have hb0 : (0 : Fin S64x100000x3.rank) ∈ GatherDims.operandBatchingDims gather_S64x100000x3_S64x300000x1_S64x300000x3_2_1_0_0_1_2_113 := by decide
  have hnb1 : (1 : Fin S64x100000x3.rank) ∉ GatherDims.operandBatchingDims gather_S64x100000x3_S64x300000x1_S64x300000x3_2_1_0_0_1_2_113 := by decide
  have hnb2 : (2 : Fin S64x100000x3.rank) ∉ GatherDims.operandBatchingDims gather_S64x100000x3_S64x300000x1_S64x300000x3_2_1_0_0_1_2_113 := by decide
  have hc1 : (1 : Fin S64x100000x3.rank) ∈ GatherDims.collapsedSliceDims gather_S64x100000x3_S64x300000x1_S64x300000x3_2_1_0_0_1_2_113 := by decide
  have hnc2 : (2 : Fin S64x100000x3.rank) ∉ GatherDims.collapsedSliceDims gather_S64x100000x3_S64x300000x1_S64x300000x3_2_1_0_0_1_2_113 := by decide
  have hm1 : (1 : Fin S64x100000x3.rank) ∈ GatherDims.startIndexMap gather_S64x100000x3_S64x300000x1_S64x300000x3_2_1_0_0_1_2_113 := by decide
  have hnm2 : (2 : Fin S64x100000x3.rank) ∉ GatherDims.startIndexMap gather_S64x100000x3_S64x300000x1_S64x300000x3_2_1_0_0_1_2_113 := by decide
  have hk2 : (2 : Fin S64x100000x3.rank) ∈ GatherDims.sKept gather_S64x100000x3_S64x300000x1_S64x300000x3_2_1_0_0_1_2_113 := (GatherDims.mem_sKept _ _).mpr ⟨hnc2, hnb2⟩
  unfold Host.gather
  congr 1
  funext a
  refine Fin.ext ?_
  match a with
  | ⟨0, h0⟩ =>
    -- the batch axis: no start, no offset; the batching coordinate is the result's batch coordinate
    show GatherDims.start gather_S64x100000x3_S64x300000x1_S64x300000x3_2_1_0_0_1_2_113 (ix3 b e d) I 0 + GatherDims.batchCoord gather_S64x100000x3_S64x300000x1_S64x300000x3_2_1_0_0_1_2_113 (ix3 b e d) 0
      + GatherDims.offCoord gather_S64x100000x3_S64x300000x1_S64x300000x3_2_1_0_0_1_2_113 (ix3 b e d) 0 = b.val
    rw [GatherDims.start_batching _ _ _ _ hb0,
      GatherDims.offCoord_eq_zero _ _ _ (fun h => ((GatherDims.mem_sKept _ _).mp h).2 hb0)]
    simp only [Nat.add_zero, Nat.zero_add]
    unfold GatherDims.batchCoord
    rw [dif_pos hb0]
    rfl
  | ⟨1, h1⟩ =>
    -- the gathered axis: collapsed, and the one axis of the start index map
    show GatherDims.start gather_S64x100000x3_S64x300000x1_S64x300000x3_2_1_0_0_1_2_113 (ix3 b e d) I 1 + GatherDims.batchCoord gather_S64x100000x3_S64x300000x1_S64x300000x3_2_1_0_0_1_2_113 (ix3 b e d) 1
      + GatherDims.offCoord gather_S64x100000x3_S64x300000x1_S64x300000x3_2_1_0_0_1_2_113 (ix3 b e d) 1 = min (I (ix3 b e (0 : Fin 1))).toInt.toNat 99999
    rw [GatherDims.batchCoord_eq_zero _ _ _ hnb1,
      GatherDims.offCoord_eq_zero _ _ _ (fun h => ((GatherDims.mem_sKept _ _).mp h).1 hc1)]
    simp only [Nat.add_zero]
    unfold GatherDims.start
    rw [dif_pos hm1]
    have hsi : GatherDims.siIdx gather_S64x100000x3_S64x300000x1_S64x300000x3_2_1_0_0_1_2_113 (ix3 b e d) ⟨List.idxOf (1 : Fin S64x100000x3.rank) (GatherDims.startIndexMap gather_S64x100000x3_S64x300000x1_S64x300000x3_2_1_0_0_1_2_113),
        List.idxOf_lt_length_iff.2 hm1⟩ = ix3 b e (0 : Fin 1) := by
      funext c; refine Fin.ext ?_
      match c with
      | ⟨0, _⟩ => rfl
      | ⟨1, _⟩ => rfl
      | ⟨2, _⟩ => rfl
    rw [hsi]
    rfl
  | ⟨2, h2⟩ =>
    -- the coordinate axis: an offset axis, carried whole
    show GatherDims.start gather_S64x100000x3_S64x300000x1_S64x300000x3_2_1_0_0_1_2_113 (ix3 b e d) I 2 + GatherDims.batchCoord gather_S64x100000x3_S64x300000x1_S64x300000x3_2_1_0_0_1_2_113 (ix3 b e d) 2
      + GatherDims.offCoord gather_S64x100000x3_S64x300000x1_S64x300000x3_2_1_0_0_1_2_113 (ix3 b e d) 2 = d.val
    rw [GatherDims.batchCoord_eq_zero _ _ _ hnb2]
    unfold GatherDims.start
    rw [dif_neg hnm2]
    simp only [Nat.add_zero, Nat.zero_add]
    unfold GatherDims.offCoord
    rw [dif_pos hk2]
    rfl

/-- A fold over the one-element range is one step from the initial value. -/
theorem fold_fin1 {β : Type} (op : β → β → β) [Std.Commutative op] [Std.Associative op] (init : β) (f : Fin 1 → β) :
    (Finset.univ : Finset (Fin 1)).fold op init f = op (f 0) init := by
  rw [Finset.univ_unique, Finset.fold_singleton]
  rfl

/-- The bit 1 is neutral for AND on one-bit words. -/
theorem andi_one (y : BitVec 1) : IntOp.andi y 1#1 = y := by
  rcases BitVec.eq_zero_or_eq_one y with h | h <;> subst h <;> decide

/-- The AND over the last axis, of length one, of a [64, 100000, 1] array of bits, from the bit 1. -/
theorem andN_apply (x : IVec S64x100000x1 1) (b : Fin 64) (n : Fin 100000) :
    Host.reduce IntOp.andi x (constantI S_ 1 1#1) reducesTo_S64x100000x1_S64x100000_d2 h_S_ (ix2 b n)
      = x (ix3 b n (0 : Fin 1)) := by
  have h : S64x100000x1.Reduces [2] S64x100000 := by decide
  -- the reduced index with the one coordinate of the dropped axis put back
  have hl : h.lift (ix2 b n) (0 : Fin 1) = ix3 b n (0 : Fin 1) :=
    funext fun c => Fin.ext (by match c with | ⟨0, _⟩ => rfl | ⟨1, _⟩ => rfl | ⟨2, _⟩ => rfl)
  refine (Host.reduce_eq_fold_single IntOp.andi x _ reducesTo_S64x100000x1_S64x100000_d2 h h_S_ (ix2 b n)).trans ?_
  refine (fold_fin1 IntOp.andi _ (fun k : Fin 1 => x (h.lift (ix2 b n) k))).trans ?_
  show IntOp.andi (x (h.lift (ix2 b n) (0 : Fin 1))) 1#1 = _
  rw [hl]
  exact andi_one _

/-- The same at 300000 rows. -/
theorem andE_apply (x : IVec S64x300000x1 1) (b : Fin 64) (e : Fin 300000) :
    Host.reduce IntOp.andi x (constantI S_ 1 1#1) reducesTo_S64x300000x1_S64x300000_d2 h_S_ (ix2 b e)
      = x (ix3 b e (0 : Fin 1)) := by
  have h : S64x300000x1.Reduces [2] S64x300000 := by decide
  -- the reduced index with the one coordinate of the dropped axis put back
  have hl : h.lift (ix2 b e) (0 : Fin 1) = ix3 b e (0 : Fin 1) :=
    funext fun c => Fin.ext (by match c with | ⟨0, _⟩ => rfl | ⟨1, _⟩ => rfl | ⟨2, _⟩ => rfl)
  refine (Host.reduce_eq_fold_single IntOp.andi x _ reducesTo_S64x300000x1_S64x300000_d2 h h_S_ (ix2 b e)).trans ?_
  refine (fold_fin1 IntOp.andi _ (fun k : Fin 1 => x (h.lift (ix2 b e) k))).trans ?_
  show IntOp.andi (x (h.lift (ix2 b e) (0 : Fin 1))) 1#1 = _
  rw [hl]
  exact andi_one _

end Cert.ReferenceIdeal.RefValue

end
-- ==== Proof.Spec.lean ====
/-
  The shared specification: what both programs compute, as functions of the four argument arrays, on the
  extended reals and with no program in sight.

  Arguments: `P` the predicted points and `G` the ground-truth normals, both [64, 100000, 3]; `K` the index of the
  nearest ground-truth point, [64, 100000]; `L` the edge list, [64, 2, 300000] (row 0 the sources, row 1 the targets).

  An index is first normalised (a negative one counts from the end of the axis of length 100000) and then tested
  against the axis; a read through an index that fails the test yields the fill word (a quiet NaN's pattern, which
  on the extended reals is just some fixed value: it is carried as the word, never evaluated).  The read itself is
  at the index clamped into the axis, which is what a gather does with any start index.

  Per edge `(b, e)`: `a = P[b, src] − P[b, dst]` (three coordinates), `g = G[b, K[b, src]]` through the combined
  index, the mask `[src ≠ 0 ∨ dst ≠ 0]`, and the term `((a·g) / (‖a‖ε · ‖g‖ε))² · mask` with `‖v‖ε = max (√(v·v)) ε`.
  The result is the sum of the terms over all edges divided by the sum of the masks.
-/
import Idealize.ShloMosaic.PureOps.Ideal
import Idealize.ShloMosaic.Lib.ValueIdx

noncomputable section

open scoped BigOperators

namespace Cert.NormalLoss

open Idealize.ShloMosaic Idealize.ShloMosaic.ValueIdx

/-- A [64, 100000, 3] array of extended reals. -/
abbrev Pts : Type := (⟨3, ![64, 100000, 3]⟩ : Shape).Idx → EReal
/-- A [64, 100000] array of 32-bit words. -/
abbrev Near : Type := (⟨2, ![64, 100000]⟩ : Shape).Idx → BitVec 32
/-- A [64, 2, 300000] array of 32-bit words. -/
abbrev Edges : Type := (⟨3, ![64, 2, 300000]⟩ : Shape).Idx → BitVec 32

/-- Index normalisation: a negative index counts from the end of the axis. -/
def wrap (i : BitVec 32) : BitVec 32 := Scalar.select (IntOp.cmpi .slt i 0#32) (IntOp.addi i 100000#32) i

/-- The range test on the normalised index: `0 ≤ i' ≤ 99999`, as a bit. -/
def inb (i : BitVec 32) : BitVec 1 :=
  IntOp.andi (IntOp.cmpi .sge (wrap i) 0#32) (IntOp.cmpi .sle (wrap i) 99999#32)

/-- The row a gather reads for the (normalised) index: the index as a signed number, clamped into the axis. -/
def row (i : BitVec 32) : Fin 100000 := ⟨min (wrap i).toInt.toNat 99999, by omega⟩

/-- The fill word of an out-of-range float read. -/
def fillF : EReal := Ideal.ofBits .f32 0x7FC00000#32
/-- The fill word of an out-of-range integer read: the least 32-bit integer. -/
def fillI : BitVec 32 := 2147483648#32

/-- One coordinate of row `i` of batch `b` of a point array, or the fill when `i` is out of range. -/
def takePt (X : Pts) (i : BitVec 32) (b : Fin 64) (d : Fin 3) : EReal :=
  Scalar.select (inb i) (X (ix3 b (row i) d)) fillF

/-- An edge's source index … -/
def src (L : Edges) (b : Fin 64) (e : Fin 300000) : BitVec 32 := L (ix3 b (0 : Fin 2) e)
/-- … and its target index. -/
def dst (L : Edges) (b : Fin 64) (e : Fin 300000) : BitVec 32 := L (ix3 b (1 : Fin 2) e)

/-- The combined index: the nearest ground-truth point of the edge's source, or the integer fill. -/
def comb (K : Near) (L : Edges) (b : Fin 64) (e : Fin 300000) : BitVec 32 :=
  Scalar.select (inb (src L b e)) (K (ix2 b (row (src L b e)))) fillI

/-- The edge mask as a number: 1 unless both endpoints are vertex 0. -/
def maskW (L : Edges) (b : Fin 64) (e : Fin 300000) : EReal :=
  FloatOps.uitofp (F := Ideal) .f32 (IntOp.ori (IntOp.cmpi .ne (src L b e) 0#32) (IntOp.cmpi .ne (dst L b e) 0#32))

/-- The guard `ε` of the two norms, as its word. -/
def eps : EReal := Ideal.ofBits .f32 0x2B8CBCCC#32

/-- The guarded norm `max (√(v·v)) ε` of a 3-vector. -/
def gnorm (v0 v1 v2 : EReal) : EReal := max (Ideal.sqrt (v0 * v0 + v1 * v1 + v2 * v2)) eps

/-- The masked squared cosine of the angle between `a` and `g`, the cosine taken as ONE quotient. -/
def term (a0 a1 a2 g0 g1 g2 mk : EReal) : EReal :=
  (Ideal.div (a0 * g0 + a1 * g1 + a2 * g2) (gnorm a0 a1 a2 * gnorm g0 g1 g2)
    * Ideal.div (a0 * g0 + a1 * g1 + a2 * g2) (gnorm a0 a1 a2 * gnorm g0 g1 g2)) * mk

/-- Coordinate `d` of the source point of edge `(b, e)` … -/
def pSrc (P : Pts) (L : Edges) (b : Fin 64) (e : Fin 300000) (d : Fin 3) : EReal := takePt P (src L b e) b d
/-- … of its target point … -/
def pDst (P : Pts) (L : Edges) (b : Fin 64) (e : Fin 300000) (d : Fin 3) : EReal := takePt P (dst L b e) b d
/-- … and of the ground-truth normal at the source, through the combined index. -/
def gNrm (G : Pts) (K : Near) (L : Edges) (b : Fin 64) (e : Fin 300000) (d : Fin 3) : EReal :=
  takePt G (comb K L b e) b d

/-- The term of edge `(b, e)`. -/
def edgeTerm (P G : Pts) (K : Near) (L : Edges) (b : Fin 64) (e : Fin 300000) : EReal :=
  term (pSrc P L b e 0 - pDst P L b e 0) (pSrc P L b e 1 - pDst P L b e 1) (pSrc P L b e 2 - pDst P L b e 2)
    (gNrm G K L b e 0) (gNrm G K L b e 1) (gNrm G K L b e 2) (maskW L b e)

/-- The sum of all edges' terms … -/
def lossSum (P G : Pts) (K : Near) (L : Edges) : EReal := ∑ b : Fin 64, ∑ e : Fin 300000, edgeTerm P G K L b e
/-- … the number of unmasked edges … -/
def cntSum (L : Edges) : EReal := ∑ b : Fin 64, ∑ e : Fin 300000, maskW L b e
/-- … and THE RESULT: their quotient. -/
def result (P G : Pts) (K : Near) (L : Edges) : EReal := Ideal.div (lossSum P G K L) (cntSum L)

/-! ## The arrays the kernel region is handed: the per-edge arrays, coordinate axis first, padded with the
    pad word along the edge axis from 300000 to 301056 = 147 · 2048 -/

/-- The pad word: the integer 0 converted. -/
def padW : EReal := FloatOps.sitofp (F := Ideal) .f32 (0#32 : BitVec 32)

/-- A [3, 64, 300000] family padded to [3, 64, 301056]. -/
def pad3 (f : Fin 3 → Fin 64 → Fin 300000 → EReal) : (⟨3, ![3, 64, 301056]⟩ : Shape).Idx → EReal :=
  fun j => if h : (j 2).val < 300000 then f (j 0) (j 1) ⟨(j 2).val, h⟩ else padW
/-- A [64, 300000] family padded to [64, 301056]. -/
def pad2 (f : Fin 64 → Fin 300000 → EReal) : (⟨2, ![64, 301056]⟩ : Shape).Idx → EReal :=
  fun j => if h : (j 1).val < 300000 then f (j 0) ⟨(j 1).val, h⟩ else padW

/-- Window 0: the source points. -/
def winSrc (P : Pts) (L : Edges) := pad3 fun d b e => pSrc P L b e d
/-- Window 1: the target points. -/
def winDst (P : Pts) (L : Edges) := pad3 fun d b e => pDst P L b e d
/-- Window 2: the ground-truth normals. -/
def winNrm (G : Pts) (K : Near) (L : Edges) := pad3 fun d b e => gNrm G K L b e d
/-- Window 3: the mask. -/
def winMsk (L : Edges) := pad2 fun b e => maskW L b e

/-! ## What the region computes from ANY four such arrays -/

/-- The term at row `r`, column `q` of four arrays of the region's shapes. -/
def cellTerm (A0 A1 A2 : (⟨3, ![3, 64, 301056]⟩ : Shape).Idx → EReal) (A3 : (⟨2, ![64, 301056]⟩ : Shape).Idx → EReal)
    (r : Fin 64) (q : Fin 301056) : EReal :=
  term (A0 (ix3 (0 : Fin 3) r q) - A1 (ix3 (0 : Fin 3) r q)) (A0 (ix3 (1 : Fin 3) r q) - A1 (ix3 (1 : Fin 3) r q))
    (A0 (ix3 (2 : Fin 3) r q) - A1 (ix3 (2 : Fin 3) r q))
    (A2 (ix3 (0 : Fin 3) r q)) (A2 (ix3 (1 : Fin 3) r q)) (A2 (ix3 (2 : Fin 3) r q)) (A3 (ix2 r q))

/-- Column `l` of tile `t`: `2048 · t + l`. -/
def col (t : Fin 147) (l : Fin 2048) : Fin 301056 := ⟨2048 * t.val + l.val, by have := t.isLt; have := l.isLt; omega⟩

/-- The sum of the terms over the tiles, then the rows, then the columns of a tile … -/
def tiledLoss (A0 A1 A2 : (⟨3, ![3, 64, 301056]⟩ : Shape).Idx → EReal) (A3 : (⟨2, ![64, 301056]⟩ : Shape).Idx → EReal) : EReal :=
  ∑ t : Fin 147, ∑ r : Fin 64, ∑ l : Fin 2048, cellTerm A0 A1 A2 A3 r (col t l)
/-- … and of the mask entries in the same order. -/
def tiledCnt (A3 : (⟨2, ![64, 301056]⟩ : Shape).Idx → EReal) : EReal :=
  ∑ t : Fin 147, ∑ r : Fin 64, ∑ l : Fin 2048, A3 (ix2 r (col t l))

end Cert.NormalLoss

end
-- ==== Proof.RefGathered.lean ====
/-
  The reference's four per-edge arrays, read at an index.  Its ground-truth normal of an edge is a gather of a
  gather (first the normal of every predicted point through the nearest-point index, then that array at the edge's
  source); both gathers fill out-of-range reads, so this is the same number as one read through the combined index:
  if the source index is in range the two coincide by unfolding, and if it is not the reference yields the fill
  directly while the combined index is the least integer, which stays negative after normalisation and so is out of
  range as well.
-/
import proofs.«105622_j89438398971910_1_alg».proof.Proof.RefRead
import proofs.«105622_j89438398971910_1_alg».proof.Proof.RefGather
import proofs.«105622_j89438398971910_1_alg».proof.Proof.Spec
import Idealize.ShloMosaic.Lib.ValueIdx
import Idealize.ShloMosaic.Lib.Pipeline.Value

noncomputable section

open scoped BigOperators

namespace Cert.ReferenceIdeal.RefValue

open Cert.ReferenceIdeal Cert.ReferenceIdeal.Facts₀ Cert.ReferenceIdeal.Facts Cert.ReferenceIdeal.ReadP Cert.NormalLoss
open Idealize.ShloMosaic Idealize.ShloMosaic.ValueIdx

/-! ## The index arrays: the edge list's two rows, and their column views -/

/-- Row 0 of the edge list viewed as [64, 300000]: entry (b, e) is the list's entry (b, 0, e). -/
theorem v1_at (x3 : (⟨S64x2x300000, .i32⟩ : BufTy).Contents (Elt Ideal)) (b : Fin 64) (e : Fin 300000) :
    val_main_v1 (F := Ideal) x3 (ix2 b e) = src x3 b e := by
  have hi : idx_main_v0 (idx_main_v1 (ix2 b e)) = ix3 b (0 : Fin 2) e := by
    have hb := b.isLt
    have he := e.isLt
    funext a; refine Fin.ext ?_
    match a with
    | ⟨0, _⟩ => show (b.val * 300000 + e.val) / 300000 = b.val; omega
    | ⟨1, _⟩ => rfl
    | ⟨2, _⟩ => show (b.val * 300000 + e.val) % 300000 = e.val; omega
  rw [val_main_v1_apply, val_main_v0_apply, hi]
  rfl

/-- Row 1 likewise: entry (b, e) is the list's entry (b, 1, e). -/
theorem v3_at (x3 : (⟨S64x2x300000, .i32⟩ : BufTy).Contents (Elt Ideal)) (b : Fin 64) (e : Fin 300000) :
    val_main_v3 (F := Ideal) x3 (ix2 b e) = dst x3 b e := by
  have hi : idx_main_v2 (idx_main_v3 (ix2 b e)) = ix3 b (1 : Fin 2) e := by
    have hb := b.isLt
    have he := e.isLt
    funext a; refine Fin.ext ?_
    match a with
    | ⟨0, _⟩ => show (b.val * 300000 + e.val) / 300000 = b.val; omega
    | ⟨1, _⟩ => rfl
    | ⟨2, _⟩ => show (b.val * 300000 + e.val) % 300000 = e.val; omega
  rw [val_main_v3_apply, val_main_v2_apply, hi]
  rfl

/-- The sources as a [64, 300000, 1] column. -/
theorem v21_at (x3 : (⟨S64x2x300000, .i32⟩ : BufTy).Contents (Elt Ideal)) (b : Fin 64) (e : Fin 300000) (u : Fin 1) :
    val_main_v21 (F := Ideal) x3 (ix3 b e u) = src x3 b e := by
  have hi : idx_main_v21 (ix3 b e u) = ix2 b e :=
    funext fun a => Fin.ext (by match a with | ⟨0, _⟩ => rfl | ⟨1, _⟩ => rfl)
  rw [val_main_v21_apply, hi, v1_at]

/-! ## One read of a point array through an index word -/

/-- The row read for an index word whose normalisation is given. -/
theorem row_of_wrap (w s : BitVec 32) (h : w = wrap s) (p : min w.toInt.toNat 99999 < 100000) :
    (⟨min w.toInt.toNat 99999, p⟩ : Fin 100000) = row s := by
  subst h; rfl

/-! ## The source point of an edge -/

/-- The normalised source index. -/
theorem call2_v4_at (x3 : (⟨S64x2x300000, .i32⟩ : BufTy).Contents (Elt Ideal)) (b : Fin 64) (e : Fin 300000) :
    val_main_call2_v4 (F := Ideal) x3 (ix3 b e (0 : Fin 1)) = wrap (src x3 b e) := by
  rw [val_main_call2_v4_apply, val_main_call2_v1_apply, val_main_call2_v3_apply, val_main_call2_v0_apply,
    val_main_call2_v2_apply, val_main_call2_c_apply, val_main_call2_c_0_apply, v21_at]
  rfl

/-- Its range test. -/
theorem call2_flag (x3 : (⟨S64x2x300000, .i32⟩ : BufTy).Contents (Elt Ideal)) (b : Fin 64) (e : Fin 300000) (d : Fin 3) :
    val_main_call2_v13 (F := Ideal) x3 (ix3 b e d) = inb (src x3 b e) := by
  have hi : idx_main_call2_v13 (ix3 b e d) = ix2 b e :=
    funext fun a => Fin.ext (by match a with | ⟨0, _⟩ => rfl | ⟨1, _⟩ => rfl)
  rw [val_main_call2_v13_apply, hi]
  unfold val_main_call2_v11
  refine (andE_apply (val_main_call2_v10 (F := Ideal) x3) b e).trans ?_
  rw [val_main_call2_v10_apply, val_main_call2_v6_apply, val_main_call2_v9_apply, val_main_call2_v5_apply,
    val_main_call2_v8_apply, val_main_call2_v7_apply, val_main_call2_c_2_apply, val_main_call2_c_1_apply, call2_v4_at]
  rfl

/-- The row it reads. -/
theorem call2_gather (x0 : (⟨S64x100000x3, .f32⟩ : BufTy).Contents (Elt Ideal)) (x3 : (⟨S64x2x300000, .i32⟩ : BufTy).Contents (Elt Ideal)) (b : Fin 64) (e : Fin 300000) (d : Fin 3) :
    val_main_call2_v12 (F := Ideal) x0 x3 (ix3 b e d) = x0 (ix3 b (row (src x3 b e)) d) := by
  unfold val_main_call2_v12
  refine (gatherE_apply x0 (val_main_call2_v4 (F := Ideal) x3) b e d).trans ?_
  exact congrArg (fun k => x0 (ix3 b k d)) (row_of_wrap _ _ (call2_v4_at x3 b e) _)

/-- The fill. -/
theorem call2_fill (i : S64x300000x3.Idx) : val_main_call2_v14 (F := Ideal) i = fillF := by
  rw [val_main_call2_v14_apply, val_main_call2_cst_apply]
  rfl

/-! ## The target point of an edge -/

/-- The targets as a [64, 300000, 1] column. -/
theorem v23_at (x3 : (⟨S64x2x300000, .i32⟩ : BufTy).Contents (Elt Ideal)) (b : Fin 64) (e : Fin 300000) (u : Fin 1) :
    val_main_v23 (F := Ideal) x3 (ix3 b e u) = dst x3 b e := by
  have hi : idx_main_v23 (ix3 b e u) = ix2 b e :=
    funext fun a => Fin.ext (by match a with | ⟨0, _⟩ => rfl | ⟨1, _⟩ => rfl)
  rw [val_main_v23_apply, hi, v3_at]

/-- The normalised target index. -/
theorem call3_v4_at (x3 : (⟨S64x2x300000, .i32⟩ : BufTy).Contents (Elt Ideal)) (b : Fin 64) (e : Fin 300000) :
    val_main_call3_v4 (F := Ideal) x3 (ix3 b e (0 : Fin 1)) = wrap (dst x3 b e) := by
  rw [val_main_call3_v4_apply, val_main_call3_v1_apply, val_main_call3_v3_apply, val_main_call3_v0_apply,
    val_main_call3_v2_apply, val_main_call3_c_apply, val_main_call3_c_0_apply, v23_at]
  rfl

/-- Its range test. -/
theorem call3_flag (x3 : (⟨S64x2x300000, .i32⟩ : BufTy).Contents (Elt Ideal)) (b : Fin 64) (e : Fin 300000) (d : Fin 3) :
    val_main_call3_v13 (F := Ideal) x3 (ix3 b e d) = inb (dst x3 b e) := by
  have hi : idx_main_call3_v13 (ix3 b e d) = ix2 b e :=
    funext fun a => Fin.ext (by match a with | ⟨0, _⟩ => rfl | ⟨1, _⟩ => rfl)
  rw [val_main_call3_v13_apply, hi]
  unfold val_main_call3_v11
  refine (andE_apply (val_main_call3_v10 (F := Ideal) x3) b e).trans ?_
  rw [val_main_call3_v10_apply, val_main_call3_v6_apply, val_main_call3_v9_apply, val_main_call3_v5_apply,
    val_main_call3_v8_apply, val_main_call3_v7_apply, val_main_call3_c_2_apply, val_main_call3_c_1_apply, call3_v4_at]
  rfl

/-- The row it reads. -/
theorem call3_gather (x0 : (⟨S64x100000x3, .f32⟩ : BufTy).Contents (Elt Ideal)) (x3 : (⟨S64x2x300000, .i32⟩ : BufTy).Contents (Elt Ideal)) (b : Fin 64) (e : Fin 300000) (d : Fin 3) :
    val_main_call3_v12 (F := Ideal) x0 x3 (ix3 b e d) = x0 (ix3 b (row (dst x3 b e)) d) := by
  unfold val_main_call3_v12
  refine (gatherE_apply x0 (val_main_call3_v4 (F := Ideal) x3) b e d).trans ?_
  exact congrArg (fun k => x0 (ix3 b k d)) (row_of_wrap _ _ (call3_v4_at x3 b e) _)

/-- The fill. -/
theorem call3_fill (i : S64x300000x3.Idx) : val_main_call3_v14 (F := Ideal) i = fillF := by
  rw [val_main_call3_v14_apply, val_main_call3_cst_apply]
  rfl

/-! ## The normal of every predicted point: the first gather, through the nearest-point index -/

/-- The nearest-point indices as a [64, 100000, 1] column. -/
theorem v9_at (x1 : (⟨S64x100000, .i32⟩ : BufTy).Contents (Elt Ideal)) (b : Fin 64) (n : Fin 100000) (u : Fin 1) :
    val_main_v9 (F := Ideal) x1 (ix3 b n u) = x1 (ix2 b n) := by
  have hi : idx_main_v9 (ix3 b n u) = ix2 b n :=
    funext fun a => Fin.ext (by match a with | ⟨0, _⟩ => rfl | ⟨1, _⟩ => rfl)
  rw [val_main_v9_apply, hi]

/-- The normalised nearest-point index. -/
theorem call0_v4_at (x1 : (⟨S64x100000, .i32⟩ : BufTy).Contents (Elt Ideal)) (b : Fin 64) (n : Fin 100000) :
    val_main_call0_v4 (F := Ideal) x1 (ix3 b n (0 : Fin 1)) = wrap (x1 (ix2 b n)) := by
  rw [val_main_call0_v4_apply, val_main_call0_v1_apply, val_main_call0_v3_apply, val_main_call0_v0_apply,
    val_main_call0_v2_apply, val_main_call0_c_apply, val_main_call0_c_0_apply, v9_at]
  rfl

/-- Its range test. -/
theorem call0_flag (x1 : (⟨S64x100000, .i32⟩ : BufTy).Contents (Elt Ideal)) (b : Fin 64) (n : Fin 100000) (d : Fin 3) :
    val_main_call0_v13 (F := Ideal) x1 (ix3 b n d) = inb (x1 (ix2 b n)) := by
  have hi : idx_main_call0_v13 (ix3 b n d) = ix2 b n :=
    funext fun a => Fin.ext (by match a with | ⟨0, _⟩ => rfl | ⟨1, _⟩ => rfl)
  rw [val_main_call0_v13_apply, hi]
  unfold val_main_call0_v11
  refine (andN_apply (val_main_call0_v10 (F := Ideal) x1) b n).trans ?_
  rw [val_main_call0_v10_apply, val_main_call0_v6_apply, val_main_call0_v9_apply, val_main_call0_v5_apply,
    val_main_call0_v8_apply, val_main_call0_v7_apply, val_main_call0_c_2_apply, val_main_call0_c_1_apply, call0_v4_at]
  rfl

/-- The row it reads. -/
theorem call0_gather (x1 : (⟨S64x100000, .i32⟩ : BufTy).Contents (Elt Ideal)) (x2 : (⟨S64x100000x3, .f32⟩ : BufTy).Contents (Elt Ideal)) (b : Fin 64) (n : Fin 100000) (d : Fin 3) :
    val_main_call0_v12 (F := Ideal) x1 x2 (ix3 b n d) = x2 (ix3 b (row (x1 (ix2 b n))) d) := by
  unfold val_main_call0_v12
  refine (gatherN_apply x2 (val_main_call0_v4 (F := Ideal) x1) b n d).trans ?_
  exact congrArg (fun k => x2 (ix3 b k d)) (row_of_wrap _ _ (call0_v4_at x1 b n) _)

/-- The fill. -/
theorem call0_fill (i : S64x100000x3.Idx) : val_main_call0_v14 (F := Ideal) i = fillF := by
  rw [val_main_call0_v14_apply, val_main_call0_cst_apply]
  rfl

/-- The normal of predicted point (b, n): the normals read through that point's nearest-point index. -/
theorem v10_at (x1 : (⟨S64x100000, .i32⟩ : BufTy).Contents (Elt Ideal)) (x2 : (⟨S64x100000x3, .f32⟩ : BufTy).Contents (Elt Ideal)) (b : Fin 64) (n : Fin 100000) (d : Fin 3) :
    val_main_v10 (F := Ideal) x1 x2 (ix3 b n d) = takePt x2 (x1 (ix2 b n)) b d := by
  rw [val_main_v10_apply, call0_flag, call0_gather, call0_fill]
  rfl

/-! ## The normal at an edge's source: the second gather, of the first one's result -/

/-- The sources as a [64, 300000, 1] column, once more. -/
theorem v11_at (x3 : (⟨S64x2x300000, .i32⟩ : BufTy).Contents (Elt Ideal)) (b : Fin 64) (e : Fin 300000) (u : Fin 1) :
    val_main_v11 (F := Ideal) x3 (ix3 b e u) = src x3 b e := by
  have hi : idx_main_v11 (ix3 b e u) = ix2 b e :=
    funext fun a => Fin.ext (by match a with | ⟨0, _⟩ => rfl | ⟨1, _⟩ => rfl)
  rw [val_main_v11_apply, hi, v1_at]

/-- The normalised source index. -/
theorem call1_v4_at (x3 : (⟨S64x2x300000, .i32⟩ : BufTy).Contents (Elt Ideal)) (b : Fin 64) (e : Fin 300000) :
    val_main_call1_v4 (F := Ideal) x3 (ix3 b e (0 : Fin 1)) = wrap (src x3 b e) := by
  rw [val_main_call1_v4_apply, val_main_call1_v1_apply, val_main_call1_v3_apply, val_main_call1_v0_apply,
    val_main_call1_v2_apply, val_main_call1_c_apply, val_main_call1_c_0_apply, v11_at]
  rfl

/-- Its range test. -/
theorem call1_flag (x3 : (⟨S64x2x300000, .i32⟩ : BufTy).Contents (Elt Ideal)) (b : Fin 64) (e : Fin 300000) (d : Fin 3) :
    val_main_call1_v13 (F := Ideal) x3 (ix3 b e d) = inb (src x3 b e) := by
  have hi : idx_main_call1_v13 (ix3 b e d) = ix2 b e :=
    funext fun a => Fin.ext (by match a with | ⟨0, _⟩ => rfl | ⟨1, _⟩ => rfl)
  rw [val_main_call1_v13_apply, hi]
  unfold val_main_call1_v11
  refine (andE_apply (val_main_call1_v10 (F := Ideal) x3) b e).trans ?_
  rw [val_main_call1_v10_apply, val_main_call1_v6_apply, val_main_call1_v9_apply, val_main_call1_v5_apply,
    val_main_call1_v8_apply, val_main_call1_v7_apply, val_main_call1_c_2_apply, val_main_call1_c_1_apply, call1_v4_at]
  rfl

/-- The row it reads, of the first gather's result. -/
theorem call1_gather (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) (d : Fin 3) :
    val_main_call1_v12 (F := Ideal) x1 x2 x3 (ix3 b e d) = takePt x2 (x1 (ix2 b (row (src x3 b e)))) b d := by
  unfold val_main_call1_v12
  refine (gatherE_apply (val_main_v10 (F := Ideal) x1 x2) (val_main_call1_v4 (F := Ideal) x3) b e d).trans ?_
  refine (congrArg (fun k => val_main_v10 (F := Ideal) x1 x2 (ix3 b k d)) (row_of_wrap _ _ (call1_v4_at x3 b e) _)).trans ?_
  exact v10_at x1 x2 b (row (src x3 b e)) d

/-- The fill. -/
theorem call1_fill (i : S64x300000x3.Idx) : val_main_call1_v14 (F := Ideal) i = fillF := by
  rw [val_main_call1_v14_apply, val_main_call1_cst_apply]
  rfl

/-- The least 32-bit integer stays negative after normalisation, so it fails the range test. -/
theorem inb_fillI : inb fillI = 0#1 := by decide

/-- The ground-truth normal at an edge's source: the reference's gather of a gather is the read through the combined index. -/
theorem v12_apply (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal))
    (b : Fin 64) (e : Fin 300000) (d : Fin 3) :
    val_main_v12 (F := Ideal) x1 x2 x3 (ix3 b e d) = gNrm x2 x1 x3 b e d := by
  rw [val_main_v12_apply, call1_flag, call1_gather, call1_fill]
  unfold gNrm comb
  rcases BitVec.eq_zero_or_eq_one (inb (src x3 b e)) with h | h
  · -- the source index is out of range: the reference yields the fill, and the combined index is the least integer
    rw [h, select_zero, select_zero]
    unfold takePt
    rw [inb_fillI, select_zero]
  · -- the source index is in range: both sides read the normals through the nearest-point index of the source's row
    rw [h, select_one, select_one]

/-- The source point of an edge. -/
theorem v22_apply (x0 : (⟨S64x100000x3, .f32⟩ : BufTy).Contents (Elt Ideal)) (x3 : (⟨S64x2x300000, .i32⟩ : BufTy).Contents (Elt Ideal)) (b : Fin 64) (e : Fin 300000) (d : Fin 3) :
    val_main_v22 (F := Ideal) x0 x3 (ix3 b e d) = pSrc x0 x3 b e d := by
  rw [val_main_v22_apply, call2_flag, call2_gather, call2_fill]
  rfl

/-- The target point of an edge. -/
theorem v24_apply (x0 : (⟨S64x100000x3, .f32⟩ : BufTy).Contents (Elt Ideal)) (x3 : (⟨S64x2x300000, .i32⟩ : BufTy).Contents (Elt Ideal)) (b : Fin 64) (e : Fin 300000) (d : Fin 3) :
    val_main_v24 (F := Ideal) x0 x3 (ix3 b e d) = pDst x0 x3 b e d := by
  rw [val_main_v24_apply, call3_flag, call3_gather, call3_fill]
  rfl

/-- The mask of an edge, as a number. -/
theorem v37_apply (x3 : (⟨S64x2x300000, .i32⟩ : BufTy).Contents (Elt Ideal)) (b : Fin 64) (e : Fin 300000) :
    val_main_v37 (F := Ideal) x3 (ix2 b e) = maskW x3 b e := by
  rw [val_main_v37_apply, val_main_v8_apply, val_main_v5_apply, val_main_v7_apply, val_main_v4_apply, val_main_v6_apply,
    val_main_c_apply, val_main_c_0_apply, v1_at, v3_at]
  rfl

end Cert.ReferenceIdeal.RefValue

end
-- ==== Proof.RefSums.lean ====
/-
  The reference's last three stages — the sum of the masked squared cosines over all (batch, edge) pairs, the sum
  of the mask, their quotient — are the specification's result, GIVEN that its per-edge array is the specification's
  term at every edge.  Each total is its zero initial value plus the sum over the rank-2 index set, which is the double
  sum over batches and edges.
-/
import proofs.«105622_j89438398971910_1_alg».proof.Proof.RefRead
import proofs.«105622_j89438398971910_1_alg».proof.Proof.RefGathered
import proofs.«105622_j89438398971910_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Facts₀ Cert.ReferenceIdeal.Facts Cert.ReferenceIdeal.ReadP Cert.NormalLoss
open Idealize.ShloMosaic Idealize.ShloMosaic.ValueIdx

/-- The total of a [64, 300000] array from the zero word: the zero contributes nothing and the sum over the rank-2 index
    set is the double sum over batches and edges, taken entry by entry. -/
theorem total_of_entries (y : S64x300000.Idx → EReal) (f : Fin 64 → Fin 300000 → EReal)
    (h : ∀ (b : Fin 64) (e : Fin 300000), y (ix2 b e) = f b e) :
    Ideal.ofBits .f32 0x00000000#32 + ∑ j : S64x300000.Idx, y j = ∑ b : Fin 64, ∑ e : Fin 300000, f b e := by
  rw [Ideal.ofBits_zero_f32, zero_add]
  refine (sum_idx2 (n0 := 64) (n1 := 300000) y).trans ?_
  exact Finset.sum_congr rfl fun b _ => Finset.sum_congr rfl fun e _ => h b e

/-- From the per-edge equation to the result. -/
theorem v41_of_edges (x0 : (⟨S64x100000x3, .f32⟩ : BufTy).Contents (Elt Ideal)) (x1 : (⟨S64x100000, .i32⟩ : BufTy).Contents (Elt Ideal)) (x2 : (⟨S64x100000x3, .f32⟩ : BufTy).Contents (Elt Ideal))
    (x3 : (⟨S64x2x300000, .i32⟩ : BufTy).Contents (Elt Ideal))
    (hedge : ∀ (b : Fin 64) (e : Fin 300000), val_main_v38 (F := Ideal) x0 x1 x2 x3 (ix2 b e) = edgeTerm x0 x2 x1 x3 b e) :
    val_main_v41 (F := Ideal) x0 x1 x2 x3 = fun _ => result x0 x2 x1 x3 := by
  funext i
  rw [val_main_v41_apply, val_main_v39_apply, val_main_v40_apply, val_main_cst_5_apply, val_main_cst_6_apply,
    Ideal.hostDivf_def, Ideal.ofBits_def]
  unfold result lossSum cntSum
  exact congrArg₂ Ideal.div (total_of_entries _ _ hedge) (total_of_entries _ _ (v37_apply x3))

end Cert.ReferenceIdeal.RefValue

end
-- ==== Proof.EdgeAlgebra.lean ====
/-
  The per-edge law, on the extended reals and with no program in sight.

  For one edge the two programs hold the same six numbers: the edge direction `a = (a₀, a₁, a₂)` and the
  ground-truth normal `b = (b₀, b₁, b₂)`.  With `x = max (√(a·a)) ε` and `y = max (√(b·b)) ε` one of them forms the
  cosine as ONE quotient, `(a·b) / (x · y)`, the other normalises each vector first and then takes the dot
  product, `Σ (aᵢ / x) · (bᵢ / y)`.  Both are the same extended real for EVERY choice of the six entries,
  infinite ones included: `x` and `y` are positive, so `x⁻¹` and `y⁻¹` are finite and non-negative (an
  infinite norm has inverse `0`), `(x · y)⁻¹ = x⁻¹ · y⁻¹`, and multiplying a sum of extended reals by a
  finite non-negative factor distributes over the sum.
-/
import Idealize.ShloMosaic.PureOps.Ideal
import Mathlib.Data.EReal.Inv

noncomputable section

namespace Cert.EdgeLoss

open Idealize.ShloMosaic

/-- A quotient by a positive extended real is the product with the inverse. -/
theorem div_of_pos {x : EReal} (hx : 0 < x) (u : EReal) : Ideal.div u x = u * x⁻¹ := by
  rw [Ideal.div, if_neg hx.ne']

/-- The inverse of a positive extended real is a finite non-negative number: not `⊤`, and at least `0`. -/
theorem inv_finite_nonneg {x : EReal} (hx : 0 < x) : 0 ≤ x⁻¹ ∧ x⁻¹ ≠ ⊤ :=
  ⟨EReal.inv_nonneg_of_nonneg hx.le, (EReal.inv_lt_top x).ne⟩

/-- The product of two finite non-negative extended reals is not `⊤`. -/
theorem mul_ne_top_of_finite {p q : EReal} (hp : 0 ≤ p ∧ p ≠ ⊤) (hq : 0 ≤ q ∧ q ≠ ⊤) : p * q ≠ ⊤ := by
  obtain ⟨hp0, hpt⟩ := hp
  obtain ⟨hq0, hqt⟩ := hq
  lift p to ℝ using ⟨hpt, (lt_of_lt_of_le EReal.bot_lt_zero hp0).ne'⟩
  lift q to ℝ using ⟨hqt, (lt_of_lt_of_le EReal.bot_lt_zero hq0).ne'⟩
  rw [← EReal.coe_mul]
  exact EReal.coe_ne_top _

/-- THE LAW.  One quotient of the dot product by the product of the two guarded norms is the dot product of
    the two vectors each divided by its own guarded norm. -/
theorem quotient_eq_dot_of_quotients {x y : EReal} (hx : 0 < x) (hy : 0 < y) (a0 a1 a2 b0 b1 b2 : EReal) :
    Ideal.div (a0 * b0 + a1 * b1 + a2 * b2) (x * y)
      = Ideal.div a0 x * Ideal.div b0 y + Ideal.div a1 x * Ideal.div b1 y + Ideal.div a2 x * Ideal.div b2 y := by
  rw [div_of_pos (EReal.mul_pos hx hy), div_of_pos hx, div_of_pos hx, div_of_pos hx,
    div_of_pos hy, div_of_pos hy, div_of_pos hy, EReal.mul_inv]
  have hc0 : 0 ≤ x⁻¹ * y⁻¹ := mul_nonneg (inv_finite_nonneg hx).1 (inv_finite_nonneg hy).1
  have hct : x⁻¹ * y⁻¹ ≠ ⊤ := mul_ne_top_of_finite (inv_finite_nonneg hx) (inv_finite_nonneg hy)
  rw [EReal.right_distrib_of_nonneg_of_ne_top hc0 hct, EReal.right_distrib_of_nonneg_of_ne_top hc0 hct,
    mul_mul_mul_comm a0 b0, mul_mul_mul_comm a1 b1, mul_mul_mul_comm a2 b2]

/-- The guard: the larger of anything and a positive real is positive. -/
theorem guard_pos {ε : ℝ} (hε : 0 < ε) (n : EReal) : 0 < max n (ε : EReal) :=
  lt_of_lt_of_le (by exact_mod_cast hε) (le_max_right _ _)

end Cert.EdgeLoss

end
-- ==== Proof.RefResult.lean ====
/-
  The reference's result is the specification's.  Per edge it normalises the edge direction and the normal each by
  its own guarded norm and then takes their dot product, squares it and masks it; by the per-edge law that is the
  specification's term, the cosine taken as one quotient.  Its two total sums run over all (batch, edge) pairs.
-/
import proofs.«105622_j89438398971910_1_alg».proof.Proof.RefRead
import proofs.«105622_j89438398971910_1_alg».proof.Proof.RefGathered
import proofs.«105622_j89438398971910_1_alg».proof.Proof.RefSums
import proofs.«105622_j89438398971910_1_alg».proof.Proof.Spec
import proofs.«105622_j89438398971910_1_alg».proof.Proof.EdgeAlgebra
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Facts₀ Cert.ReferenceIdeal.Facts Cert.ReferenceIdeal.ReadP Cert.NormalLoss
open Idealize.ShloMosaic Idealize.ShloMosaic.ValueIdx

/-! ## The guard is positive -/

/-- The guard word denotes a positive real. -/
theorem eps_pos : 0 < eps := by
  unfold eps
  simp [Ideal.ofBits, Ideal.ieee, -EReal.coe_mul]

/-- So a guarded norm is positive. -/
theorem gnorm_pos (v0 v1 v2 : EReal) : 0 < gnorm v0 v1 v2 := lt_of_lt_of_le eps_pos (le_max_right _ _)

/-! ## Index bookkeeping: the operand indices of the layout stages at an edge -/

theorem idx_v27 (b : Fin 64) (e : Fin 300000) (k : Fin 3) : idx_main_v27 (ix2 b e) k = ix3 b e k := by
  funext a; match a with | ⟨0, _⟩ => rfl | ⟨1, _⟩ => rfl | ⟨2, _⟩ => rfl
theorem idx_v14 (b : Fin 64) (e : Fin 300000) (k : Fin 3) : idx_main_v14 (ix2 b e) k = ix3 b e k := by
  funext a; match a with | ⟨0, _⟩ => rfl | ⟨1, _⟩ => rfl | ⟨2, _⟩ => rfl
theorem idx_v35 (b : Fin 64) (e : Fin 300000) (k : Fin 3) : idx_main_v35 (ix2 b e) k = ix3 b e k := by
  funext a; match a with | ⟨0, _⟩ => rfl | ⟨1, _⟩ => rfl | ⟨2, _⟩ => rfl
theorem idx_v28 (b : Fin 64) (e : Fin 300000) (d : Fin 3) : idx_main_v28 (idx_main_v32 (ix3 b e d)) = ix2 b e := by
  funext a; match a with | ⟨0, _⟩ => rfl | ⟨1, _⟩ => rfl
theorem idx_v15 (b : Fin 64) (e : Fin 300000) (d : Fin 3) : idx_main_v15 (idx_main_v19 (ix3 b e d)) = ix2 b e := by
  funext a; match a with | ⟨0, _⟩ => rfl | ⟨1, _⟩ => rfl

/-! ## The stages at an edge -/

/-- The guarded norm as the reference spells it: the larger of the root of the squared length and the guard word. -/
theorem gnorm_spelt (s0 s1 s2 : EReal) :
    FloatOps.maximumf (F := Ideal) (φ := .f32) (FloatOps.hostUnary .sqrt (s0 * s0 + s1 * s1 + s2 * s2))
      (FloatOps.ofBits .f32 0x2B8CBCCC#32) = gnorm s0 s1 s2 := rfl

/-- The edge direction. -/
theorem v25_at (x0 : (⟨S64x100000x3, .f32⟩ : BufTy).Contents (Elt Ideal)) (x3 : (⟨S64x2x300000, .i32⟩ : BufTy).Contents (Elt Ideal)) (b : Fin 64) (e : Fin 300000) (d : Fin 3) :
    val_main_v25 (F := Ideal) x0 x3 (ix3 b e d) = pSrc x0 x3 b e d - pDst x0 x3 b e d := by
  rw [val_main_v25_apply, v22_apply, v24_apply]
  exact Ideal.subf_def _ _

/-- Its square, coordinate by coordinate. -/
theorem v26_at (x0 : (⟨S64x100000x3, .f32⟩ : BufTy).Contents (Elt Ideal)) (x3 : (⟨S64x2x300000, .i32⟩ : BufTy).Contents (Elt Ideal)) (b : Fin 64) (e : Fin 300000) (d : Fin 3) :
    val_main_v26 (F := Ideal) x0 x3 (ix3 b e d) = (pSrc x0 x3 b e d - pDst x0 x3 b e d) * (pSrc x0 x3 b e d - pDst x0 x3 b e d) := by
  rw [val_main_v26_apply, v25_at]
  exact Ideal.mulf_def _ _

/-- Its squared length. -/
theorem v27_at (x0 : (⟨S64x100000x3, .f32⟩ : BufTy).Contents (Elt Ideal)) (x3 : (⟨S64x2x300000, .i32⟩ : BufTy).Contents (Elt Ideal)) (b : Fin 64) (e : Fin 300000) :
    val_main_v27 (F := Ideal) x0 x3 (ix2 b e)
      = (pSrc x0 x3 b e 0 - pDst x0 x3 b e 0) * (pSrc x0 x3 b e 0 - pDst x0 x3 b e 0)
        + (pSrc x0 x3 b e 1 - pDst x0 x3 b e 1) * (pSrc x0 x3 b e 1 - pDst x0 x3 b e 1)
        + (pSrc x0 x3 b e 2 - pDst x0 x3 b e 2) * (pSrc x0 x3 b e 2 - pDst x0 x3 b e 2) := by
  rw [val_main_v27_apply, val_main_cst_2_apply, Ideal.ofBits_def, Ideal.ofBits_zero_f32, zero_add, Fin.sum_univ_three,
    idx_v27, idx_v27, idx_v27, v26_at, v26_at, v26_at]

/-- Its guarded norm, broadcast along the coordinate axis. -/
theorem v32_at (x0 : (⟨S64x100000x3, .f32⟩ : BufTy).Contents (Elt Ideal)) (x3 : (⟨S64x2x300000, .i32⟩ : BufTy).Contents (Elt Ideal)) (b : Fin 64) (e : Fin 300000) (d : Fin 3) :
    val_main_v32 (F := Ideal) x0 x3 (ix3 b e d)
      = gnorm (pSrc x0 x3 b e 0 - pDst x0 x3 b e 0) (pSrc x0 x3 b e 1 - pDst x0 x3 b e 1)
          (pSrc x0 x3 b e 2 - pDst x0 x3 b e 2) := by
  rw [val_main_v32_apply, val_main_v31_apply, val_main_v29_apply, val_main_v28_apply, idx_v28, v27_at,
    val_main_v30_apply, val_main_cst_3_apply]
  exact gnorm_spelt _ _ _

/-- The normalised edge direction. -/
theorem v33_at (x0 : (⟨S64x100000x3, .f32⟩ : BufTy).Contents (Elt Ideal)) (x3 : (⟨S64x2x300000, .i32⟩ : BufTy).Contents (Elt Ideal)) (b : Fin 64) (e : Fin 300000) (d : Fin 3) :
    val_main_v33 (F := Ideal) x0 x3 (ix3 b e d)
      = Ideal.div (pSrc x0 x3 b e d - pDst x0 x3 b e d)
          (gnorm (pSrc x0 x3 b e 0 - pDst x0 x3 b e 0) (pSrc x0 x3 b e 1 - pDst x0 x3 b e 1)
          (pSrc x0 x3 b e 2 - pDst x0 x3 b e 2)) := by
  rw [val_main_v33_apply, v25_at, v32_at]
  exact Ideal.hostDivf_def _ _

/-- The square of the normal, coordinate by coordinate. -/
theorem v13_at (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) (d : Fin 3) :
    val_main_v13 (F := Ideal) x1 x2 x3 (ix3 b e d) = (gNrm x2 x1 x3 b e d) * (gNrm x2 x1 x3 b e d) := by
  rw [val_main_v13_apply, v12_apply]
  exact Ideal.mulf_def _ _

/-- The normal's squared length. -/
theorem v14_at (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) :
    val_main_v14 (F := Ideal) x1 x2 x3 (ix2 b e)
      = (gNrm x2 x1 x3 b e 0) * (gNrm x2 x1 x3 b e 0) + (gNrm x2 x1 x3 b e 1) * (gNrm x2 x1 x3 b e 1) + (gNrm x2 x1 x3 b e 2) * (gNrm x2 x1 x3 b e 2) := by
  rw [val_main_v14_apply, val_main_cst_apply, Ideal.ofBits_def, Ideal.ofBits_zero_f32, zero_add, Fin.sum_univ_three,
    idx_v14, idx_v14, idx_v14, v13_at, v13_at, v13_at]

/-- The normal's guarded norm, broadcast along the coordinate axis. -/
theorem v19_at (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) (d : Fin 3) :
    val_main_v19 (F := Ideal) x1 x2 x3 (ix3 b e d) = gnorm (gNrm x2 x1 x3 b e 0) (gNrm x2 x1 x3 b e 1) (gNrm x2 x1 x3 b e 2) := by
  rw [val_main_v19_apply, val_main_v18_apply, val_main_v16_apply, val_main_v15_apply, idx_v15, v14_at,
    val_main_v17_apply, val_main_cst_1_apply]
  exact gnorm_spelt _ _ _

/-- The normalised normal. -/
theorem v20_at (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) (d : Fin 3) :
    val_main_v20 (F := Ideal) x1 x2 x3 (ix3 b e d) = Ideal.div (gNrm x2 x1 x3 b e d) (gnorm (gNrm x2 x1 x3 b e 0) (gNrm x2 x1 x3 b e 1) (gNrm x2 x1 x3 b e 2)) := by
  rw [val_main_v20_apply, v12_apply, v19_at]
  exact Ideal.hostDivf_def _ _

/-- One coordinate's product of the two normalised vectors. -/
theorem v34_at (x0 : (⟨S64x100000x3, .f32⟩ : BufTy).Contents (Elt Ideal)) (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) (d : Fin 3) :
    val_main_v34 (F := Ideal) x0 x1 x2 x3 (ix3 b e d)
      = Ideal.div (pSrc x0 x3 b e d - pDst x0 x3 b e d)
            (gnorm (pSrc x0 x3 b e 0 - pDst x0 x3 b e 0) (pSrc x0 x3 b e 1 - pDst x0 x3 b e 1)
          (pSrc x0 x3 b e 2 - pDst x0 x3 b e 2))
          * Ideal.div (gNrm x2 x1 x3 b e d) (gnorm (gNrm x2 x1 x3 b e 0) (gNrm x2 x1 x3 b e 1) (gNrm x2 x1 x3 b e 2)) := by
  rw [val_main_v34_apply, v33_at, v20_at]
  exact Ideal.mulf_def _ _

/-- The cosine: the dot product of the normalised vectors is the one quotient, by the per-edge law. -/
theorem v35_at (x0 : (⟨S64x100000x3, .f32⟩ : BufTy).Contents (Elt Ideal)) (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) :
    val_main_v35 (F := Ideal) x0 x1 x2 x3 (ix2 b e)
      = Ideal.div ((pSrc x0 x3 b e 0 - pDst x0 x3 b e 0) * (gNrm x2 x1 x3 b e 0) + (pSrc x0 x3 b e 1 - pDst x0 x3 b e 1) * (gNrm x2 x1 x3 b e 1)
            + (pSrc x0 x3 b e 2 - pDst x0 x3 b e 2) * (gNrm x2 x1 x3 b e 2))
          (gnorm (pSrc x0 x3 b e 0 - pDst x0 x3 b e 0) (pSrc x0 x3 b e 1 - pDst x0 x3 b e 1)
          (pSrc x0 x3 b e 2 - pDst x0 x3 b e 2)
            * gnorm (gNrm x2 x1 x3 b e 0) (gNrm x2 x1 x3 b e 1) (gNrm x2 x1 x3 b e 2)) := by
  rw [val_main_v35_apply, val_main_cst_4_apply, Ideal.ofBits_def, Ideal.ofBits_zero_f32, zero_add, Fin.sum_univ_three,
    idx_v35, idx_v35, idx_v35, v34_at, v34_at, v34_at]
  exact (Cert.EdgeLoss.quotient_eq_dot_of_quotients (gnorm_pos _ _ _) (gnorm_pos _ _ _) _ _ _ _ _ _).symm

/-- The masked squared cosine of an edge is the specification's term. -/
theorem edge_eq (x0 : (⟨S64x100000x3, .f32⟩ : BufTy).Contents (Elt Ideal)) (x1 : (⟨S64x100000, .i32⟩ : BufTy).Contents (Elt Ideal)) (x2 : (⟨S64x100000x3, .f32⟩ : BufTy).Contents (Elt Ideal)) (x3 : (⟨S64x2x300000, .i32⟩ : BufTy).Contents (Elt Ideal)) (b : Fin 64) (e : Fin 300000) :
    val_main_v38 (F := Ideal) x0 x1 x2 x3 (ix2 b e) = edgeTerm x0 x2 x1 x3 b e := by
  rw [val_main_v38_apply, val_main_v36_apply, v35_at, v37_apply, Ideal.mulf_def, Ideal.mulf_def]
  rfl

/-- The reference's last stage is the specification's result, at its one index. -/
theorem ref_result (x0 : (⟨S64x100000x3, .f32⟩ : BufTy).Contents (Elt Ideal)) (x1 : (⟨S64x100000, .i32⟩ : BufTy).Contents (Elt Ideal)) (x2 : (⟨S64x100000x3, .f32⟩ : BufTy).Contents (Elt Ideal))
    (x3 : (⟨S64x2x300000, .i32⟩ : BufTy).Contents (Elt Ideal)) :
    val_main_v41 (F := Ideal) x0 x1 x2 x3 = fun _ => result x0 x2 x1 x3 := by
  exact v41_of_edges x0 x1 x2 x3 (fun b e => edge_eq x0 x1 x2 x3 b e)

end Cert.ReferenceIdeal.RefValue

end
-- ==== Proof.Bridge.lean ====
/-
  The tiled sums over the padded arrays are the plain sums over the edges: a column `2048·t + l` below 300000 is an
  edge and its term is the edge's term; a column from 300000 on is padding, where all nine entries and the mask are
  the pad word 0, so the term is `(0 / (ε·ε))² · 0 = 0` and the mask entry is 0; and (tile, column-in-tile) ↦ column
  is a bijection of 147 × 2048 onto 301056.
-/
import proofs.«105622_j89438398971910_1_alg».proof.Proof.Spec
import Idealize.ShloMosaic.Lib.ValueIdx
import Mathlib.Algebra.BigOperators.Fin
import Mathlib.Data.Fintype.BigOperators

noncomputable section

open scoped BigOperators

namespace Cert.NormalLoss

open Idealize.ShloMosaic Idealize.ShloMosaic.ValueIdx

/-! ## The pad word is the extended real 0 -/

/-- The integer 0, converted exactly, is 0. -/
theorem padW_eq_zero : padW = 0 := by
  show (((0#32 : BitVec 32).toInt : ℝ) : EReal) = 0
  rw [BitVec.toInt_zero, Int.cast_zero, EReal.coe_zero]

/-! ## Reading the padded arrays -/

/-- Below 300000 a padded rank-3 array is the family it pads … -/
theorem pad3_of_lt (f : Fin 3 → Fin 64 → Fin 300000 → EReal) (d : Fin 3) (r : Fin 64) (q : Fin 301056)
    (h : q.val < 300000) : pad3 f (ix3 d r q) = f d r ⟨q.val, h⟩ := by
  unfold pad3
  exact dif_pos h

/-- … and from 300000 on it is 0. -/
theorem pad3_of_ge (f : Fin 3 → Fin 64 → Fin 300000 → EReal) (d : Fin 3) (r : Fin 64) (q : Fin 301056)
    (h : ¬ q.val < 300000) : pad3 f (ix3 d r q) = 0 := by
  unfold pad3
  exact (dif_neg h).trans padW_eq_zero

/-- Below 300000 a padded rank-2 array is the family it pads … -/
theorem pad2_of_lt (f : Fin 64 → Fin 300000 → EReal) (r : Fin 64) (q : Fin 301056)
    (h : q.val < 300000) : pad2 f (ix2 r q) = f r ⟨q.val, h⟩ := by
  unfold pad2
  exact dif_pos h

/-- … and from 300000 on it is 0. -/
theorem pad2_of_ge (f : Fin 64 → Fin 300000 → EReal) (r : Fin 64) (q : Fin 301056)
    (h : ¬ q.val < 300000) : pad2 f (ix2 r q) = 0 := by
  unfold pad2
  exact (dif_neg h).trans padW_eq_zero

/-! ## The term of a column -/

/-- A column below 300000 is an edge, and its term is the edge's term. -/
theorem cellTerm_of_lt (P G : Pts) (K : Near) (L : Edges) (r : Fin 64) (q : Fin 301056) (h : q.val < 300000) :
    cellTerm (winSrc P L) (winDst P L) (winNrm G K L) (winMsk L) r q = edgeTerm P G K L r ⟨q.val, h⟩ := by
  unfold cellTerm winSrc winDst winNrm winMsk edgeTerm
  simp only [pad3_of_lt _ _ _ _ h, pad2_of_lt _ _ _ h]

/-- A column from 300000 on is padding: its mask entry is 0 and so is its term. -/
theorem cellTerm_of_ge (P G : Pts) (K : Near) (L : Edges) (r : Fin 64) (q : Fin 301056) (h : ¬ q.val < 300000) :
    cellTerm (winSrc P L) (winDst P L) (winNrm G K L) (winMsk L) r q = 0 := by
  unfold cellTerm winMsk term
  rw [pad2_of_ge _ _ _ h, mul_zero]

/-! ## Re-indexing: (tile, column in tile) ↦ column is a bijection onto the 301056 columns -/

/-- The tile and the column in the tile of a column, against `col`. -/
def tileEquiv : Fin 147 × Fin 2048 ≃ Fin 301056 where
  toFun p := col p.1 p.2
  invFun q := (⟨q.val / 2048, by have := q.isLt; omega⟩, ⟨q.val % 2048, by omega⟩)
  left_inv := by
    rintro ⟨t, l⟩
    have ht := t.isLt
    have hl := l.isLt
    refine Prod.ext (Fin.ext ?_) (Fin.ext ?_)
    · show (2048 * t.val + l.val) / 2048 = t.val
      omega
    · show (2048 * t.val + l.val) % 2048 = l.val
      omega
  right_inv := by
    intro q
    refine Fin.ext ?_
    show 2048 * (q.val / 2048) + q.val % 2048 = q.val
    omega

/-- A sum over tiles, rows and columns of a tile is the sum over rows and all columns. -/
theorem sum_tiles (f : Fin 64 → Fin 301056 → EReal) :
    ∑ t : Fin 147, ∑ r : Fin 64, ∑ l : Fin 2048, f r (col t l) = ∑ r : Fin 64, ∑ q : Fin 301056, f r q := by
  rw [Finset.sum_comm]
  refine Finset.sum_congr rfl fun r _ => ?_
  rw [← Fintype.sum_prod_type' (fun t l => f r (col t l))]
  exact Fintype.sum_equiv tileEquiv _ _ fun p => rfl

/-! ## Dropping the padding -/

/-- A sum over the 301056 columns of a function that vanishes from 300000 on is the sum over the 300000 edges. -/
theorem sum_cols (g : Fin 301056 → EReal) (hg : ∀ q : Fin 301056, ¬ q.val < 300000 → g q = 0) :
    ∑ q : Fin 301056, g q = ∑ e : Fin 300000, g ⟨e.val, by have := e.isLt; omega⟩ := by
  have key := Fin.sum_univ_add (a := 300000) (b := 1056) (fun q : Fin (300000 + 1056) => g q)
  refine key.trans ?_
  have hz : ∑ i : Fin 1056, g (Fin.natAdd 300000 i) = 0 :=
    Finset.sum_eq_zero fun i _ => hg _ (by show ¬ 300000 + i.val < 300000; omega)
  rw [hz, add_zero]
  rfl

/-! ## The two sums -/

/-- The tiled sum of the terms of the four padded arrays is the sum of the edges' terms. -/
theorem tiledLoss_windows (P G : Pts) (K : Near) (L : Edges) :
    tiledLoss (winSrc P L) (winDst P L) (winNrm G K L) (winMsk L) = lossSum P G K L := by
  unfold tiledLoss lossSum
  rw [sum_tiles (fun r q => cellTerm (winSrc P L) (winDst P L) (winNrm G K L) (winMsk L) r q)]
  refine Finset.sum_congr rfl fun r _ => ?_
  rw [sum_cols _ (fun q h => cellTerm_of_ge P G K L r q h)]
  exact Finset.sum_congr rfl fun e _ => cellTerm_of_lt P G K L r ⟨e.val, by have := e.isLt; omega⟩ e.isLt

/-- The tiled sum of the padded mask is the number of unmasked edges. -/
theorem tiledCnt_windows (L : Edges) : tiledCnt (winMsk L) = cntSum L := by
  unfold tiledCnt cntSum winMsk
  rw [sum_tiles (fun r q => pad2 (fun b e => maskW L b e) (ix2 r q))]
  refine Finset.sum_congr rfl fun r _ => ?_
  rw [sum_cols _ (fun q h => pad2_of_ge _ r q h)]
  exact Finset.sum_congr rfl fun e _ => pad2_of_lt _ r ⟨e.val, by have := e.isLt; omega⟩ e.isLt

end Cert.NormalLoss

end
-- ==== Proof.KernelTile.lean ====
/-
  One tile of the region, as pure arithmetic: what the two accumulator updates hold, given the nine planes the body
  loads from its three 3-plane blocks, the mask block and the accumulator's previous contents.

  Every operation of the body is exact on the extended reals, so a payload read at an index is the arithmetic
  expression of the loaded values at that index.  The only operations that move indices are the views
  [1, 64, 2048] → [64, 2048], [64] → [64, 1] and [1] → [1, 1] (each keeps the row-major position) and the two sums:
  first over the 2048 lanes of each of the 64 rows, then over the 64 rows of the resulting column; both start from
  the zero word, which contributes nothing.  The block of per-cell terms is therefore added up row by row, column by
  column, onto the accumulator's single entry.
-/
import proofs.«105622_j89438398971910_1_alg».proof.Proof.Gen.KernelIdeal.Skeleton
import proofs.«105622_j89438398971910_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.NormalLoss Idealize.ShloMosaic Idealize.ShloMosaic.ValueIdx

/-! ## Indices and views -/

/-- A [1, 1] array has one index. -/
theorem idx11 (j : (⟨2, ![1, 1]⟩ : Shape).Idx) : j = ix2 (0 : Fin 1) (0 : Fin 1) := by
  have h0 := idx2_lt0 j
  have h1 := idx2_lt1 j
  funext a
  match a with
  | ⟨0, _⟩ => exact Fin.ext (by show (j 0).val = 0; omega)
  | ⟨1, _⟩ => exact Fin.ext (by show (j 1).val = 0; omega)

/-- A [1, 64, 2048] plane viewed as [64, 2048]: entry (r, l) is the plane's entry (0, r, l). -/
theorem plane_apply (x : Vec Ideal S1x64x2048 .f32) (h : S1x64x2048.ShapeCasts S64x2048) (r : Fin 64) (l : Fin 2048) :
    shapeCast S64x2048 x h (ix2 r l) = x (ix3 (0 : Fin 1) r l) :=
  shapeCast_1ab_ab_apply x h r l

/-- A [64] vector viewed as a [64, 1] column: entry (r, 0) is the vector's entry r. -/
theorem column_apply (v : FVec Ideal S64 .f32) (h : S64.ShapeCasts S64x1) (r : Fin 64) (u : Fin 1) :
    shapeCast S64x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A [1] vector viewed as [1, 1]. -/
theorem unit_apply (v : FVec Ideal S1 .f32) (h : S1.ShapeCasts S1x1) (a b : Fin 1) :
    shapeCast S1x1 v h (ix2 a b) = v (ix1 (0 : Fin 1)) :=
  shapeCast_apply v h _ _ (by
    have ha : a.val = 0 := by omega
    have hb : b.val = 0 := by omega
    rw [Shape.rowMajor_val_one, Shape.rowMajor_val_two]
    show 0 = a.val * 1 + b.val
    rw [ha, hb])

/-! ## The two sums -/

/-- The sum over the lanes of a [64, 2048] block, at row r: the zero word contributes nothing and the reduced index
    with lane l put back is (r, l). -/
theorem laneSum_apply (v : FVec Ideal S64x2048 .f32) (h : S64x2048.Reduces [1] S64) (hφ : FKind.Formats .f32)
    (hacc : (0x00000000#32 : BitVec 32) = FKind.add.neutral .f32 hφ) (r : Fin 64) :
    multiReduction .add [1] S64 v 0x00000000#32 h hφ hacc (ix1 r) = ∑ l : Fin 2048, v (ix2 r l) := by
  refine (Ideal.multiReduction_add_single v 0x00000000#32 h hφ hacc (ix1 r)).trans ?_
  refine Finset.sum_congr rfl fun l _ => ?_
  exact congrArg v (funext fun a => Fin.ext (by match a with | ⟨0, _⟩ => rfl | ⟨1, _⟩ => rfl))

/-- The sum over the rows of a [64, 1] column. -/
theorem rowSum_apply (v : FVec Ideal S64x1 .f32) (h : S64x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 64, v (ix2 r u) := by
  refine (Ideal.multiReduction_add_single v 0x00000000#32 h hφ hacc (ix1 u)).trans ?_
  refine Finset.sum_congr rfl fun r _ => ?_
  exact congrArg v (funext fun a => Fin.ext (by match a with | ⟨0, _⟩ => rfl | ⟨1, _⟩ => rfl))

/-- The accumulator update as a whole: a [64, 2048] block summed over its lanes, the column of row sums summed over
    the rows, and the total added to the accumulator's entry. -/
theorem total_apply (W : FVec Ideal S64x2048 .f32) (acc : FVec Ideal S1x1 .f32)
    (h1 : S64x2048.Reduces [1] S64) (hφ1 : FKind.Formats .f32) (hacc1 : (0x00000000#32 : BitVec 32) = FKind.add.neutral .f32 hφ1)
    (h2 : S64.ShapeCasts S64x1)
    (h3 : S64x1.Reduces [0] S1) (hφ3 : FKind.Formats .f32) (hacc3 : (0x00000000#32 : BitVec 32) = FKind.add.neutral .f32 hφ3)
    (h4 : S1.ShapeCasts S1x1) (h5 : S1x1.ShapeCasts S1x1) (j : S1x1.Idx) :
    shapeCast S1x1 (addf acc (shapeCast S1x1 (multiReduction .add [0] S1
        (shapeCast S64x1 (multiReduction .add [1] S64 W 0x00000000#32 h1 hφ1 hacc1) h2) 0x00000000#32 h3 hφ3 hacc3) h4)) h5 j
      = acc (ix2 (0 : Fin 1) (0 : Fin 1)) + ∑ r : Fin 64, ∑ l : Fin 2048, W (ix2 r l) := by
  rw [idx11 j, shapeCast_self, addf_apply, unit_apply, rowSum_apply]
  refine congrArg (acc (ix2 (0 : Fin 1) (0 : Fin 1)) + ·) (Finset.sum_congr rfl fun r _ => ?_)
  rw [column_apply, laneSum_apply]

/-! ## The body's blocks at a cell -/

/-- The square root of a block, at a cell. -/
theorem sqrt_apply {s : Shape} {φ : FTy} (v : FVec Ideal s φ) (i : s.Idx) :
    Idealize.ShloMosaic.sqrt v i = Ideal.sqrt (v i) := rfl

/-- The first coordinate of the difference vector, at a cell … -/
theorem pay3_apply (v3 v5 : Vec Ideal S1x64x2048 .f32) (r : Fin 64) (l : Fin 2048) :
    k0_pay3 (F := Ideal) v3 v5 (ix2 r l) = v3 (ix3 (0 : Fin 1) r l) - v5 (ix3 (0 : Fin 1) r l) := by
  unfold k0_pay3
  exact (subf_apply _ _ _).trans (by rw [plane_apply, plane_apply])

/-- … the second … -/
theorem pay4_apply (v8 v10 : Vec Ideal S1x64x2048 .f32) (r : Fin 64) (l : Fin 2048) :
    k0_pay4 (F := Ideal) v8 v10 (ix2 r l) = v8 (ix3 (0 : Fin 1) r l) - v10 (ix3 (0 : Fin 1) r l) := by
  unfold k0_pay4
  exact (subf_apply _ _ _).trans (by rw [plane_apply, plane_apply])

/-- … and the third. -/
theorem pay5_apply (v13 v15 : Vec Ideal S1x64x2048 .f32) (r : Fin 64) (l : Fin 2048) :
    k0_pay5 (F := Ideal) v13 v15 (ix2 r l) = v13 (ix3 (0 : Fin 1) r l) - v15 (ix3 (0 : Fin 1) r l) := by
  unfold k0_pay5
  exact (subf_apply _ _ _).trans (by rw [plane_apply, plane_apply])

/-- The three coordinates of the normal, at a cell, are the loaded planes' entries. -/
theorem pay6_apply (v18 : Vec Ideal S1x64x2048 .f32) (r : Fin 64) (l : Fin 2048) :
    k0_pay6 (F := Ideal) v18 (ix2 r l) = v18 (ix3 (0 : Fin 1) r l) := by
  unfold k0_pay6
  exact plane_apply _ _ _ _

theorem pay7_apply (v20 : Vec Ideal S1x64x2048 .f32) (r : Fin 64) (l : Fin 2048) :
    k0_pay7 (F := Ideal) v20 (ix2 r l) = v20 (ix3 (0 : Fin 1) r l) := by
  unfold k0_pay7
  exact plane_apply _ _ _ _

theorem pay8_apply (v22 : Vec Ideal S1x64x2048 .f32) (r : Fin 64) (l : Fin 2048) :
    k0_pay8 (F := Ideal) v22 (ix2 r l) = v22 (ix3 (0 : Fin 1) r l) := by
  unfold k0_pay8
  exact plane_apply _ _ _ _

/-- The squared length of the difference vector, at a cell. -/
theorem pay9_apply (v3 v5 v8 v10 v13 v15 : Vec Ideal S1x64x2048 .f32) (r : Fin 64) (l : Fin 2048) :
    k0_pay9 (F := Ideal) v3 v5 v8 v10 v13 v15 (ix2 r l)
      = (v3 (ix3 (0 : Fin 1) r l) - v5 (ix3 (0 : Fin 1) r l)) * (v3 (ix3 (0 : Fin 1) r l) - v5 (ix3 (0 : Fin 1) r l))
        + (v8 (ix3 (0 : Fin 1) r l) - v10 (ix3 (0 : Fin 1) r l)) * (v8 (ix3 (0 : Fin 1) r l) - v10 (ix3 (0 : Fin 1) r l))
        + (v13 (ix3 (0 : Fin 1) r l) - v15 (ix3 (0 : Fin 1) r l)) * (v13 (ix3 (0 : Fin 1) r l) - v15 (ix3 (0 : Fin 1) r l)) := by
  unfold k0_pay9
  simp only [addf_apply, mulf_apply, pay3_apply, pay4_apply, pay5_apply]

/-- The mask block is used as loaded. -/
theorem pay10_eq (v48 : Vec Ideal S64x2048 .f32) : k0_pay10 (F := Ideal) v48 = v48 := by
  unfold k0_pay10
  exact shapeCast_self _ _

/-! ## The two accumulator updates and the two resets -/

/-- The loss accumulator's new contents: its previous entry plus the sum over the tile's 64 rows and 2048 columns of
    the terms of the nine loaded planes and the mask block. -/
theorem pay11_value (v3 v5 v8 v10 v13 v15 v18 v20 v22 : Vec Ideal S1x64x2048 .f32) (v48 : Vec Ideal S64x2048 .f32)
    (v59 : Vec Ideal S1x1 .f32) :
    k0_pay11 (F := Ideal) (k0_pay3 v3 v5) (k0_pay4 v8 v10) (k0_pay5 v13 v15) (k0_pay6 v18) (k0_pay7 v20) (k0_pay8 v22)
        (k0_pay9 v3 v5 v8 v10 v13 v15) v48 v59
      = fun _ => v59 (ix2 (0 : Fin 1) (0 : Fin 1))
          + ∑ r : Fin 64, ∑ l : Fin 2048,
              term (v3 (ix3 (0 : Fin 1) r l) - v5 (ix3 (0 : Fin 1) r l)) (v8 (ix3 (0 : Fin 1) r l) - v10 (ix3 (0 : Fin 1) r l))
                (v13 (ix3 (0 : Fin 1) r l) - v15 (ix3 (0 : Fin 1) r l))
                (v18 (ix3 (0 : Fin 1) r l)) (v20 (ix3 (0 : Fin 1) r l)) (v22 (ix3 (0 : Fin 1) r l)) (v48 (ix2 r l)) := by
  funext j
  unfold k0_pay11
  refine (total_apply _ v59 _ _ _ _ _ _ _ _ _ j).trans ?_
  refine congrArg (v59 (ix2 (0 : Fin 1) (0 : Fin 1)) + ·) (Finset.sum_congr rfl fun r _ => Finset.sum_congr rfl fun l _ => ?_)
  simp only [mulf_apply, divf_apply, addf_apply, maximumf_apply, broadcast_apply, sqrt_apply, pay3_apply, pay4_apply,
    pay5_apply, pay6_apply, pay7_apply, pay8_apply, pay9_apply, pay10_eq]
  rfl

/-- The count accumulator's new contents: its previous entry plus the sum of the mask block. -/
theorem pay12_value (v48 : Vec Ideal S64x2048 .f32) (v64 : Vec Ideal S1x1 .f32) :
    k0_pay12 (F := Ideal) v48 v64
      = fun _ => v64 (ix2 (0 : Fin 1) (0 : Fin 1)) + ∑ r : Fin 64, ∑ l : Fin 2048, v48 (ix2 r l) := by
  funext j
  unfold k0_pay12
  refine (total_apply _ v64 _ _ _ _ _ _ _ _ _ j).trans ?_
  rw [pay10_eq]

/-- The reset value of either accumulator is zero everywhere. -/
theorem pay1_value : k0_pay1 (F := Ideal) = fun _ => (0 : EReal) := by
  unfold k0_pay1
  exact (shapeCast_self _ _).trans (funext fun _ => Ideal.ofBits_zero_f32)
theorem pay2_value : k0_pay2 (F := Ideal) = fun _ => (0 : EReal) := by
  unfold k0_pay2
  exact (shapeCast_self _ _).trans (funext fun _ => Ideal.ofBits_zero_f32)

end Cert.KernelIdeal.Tile

end
-- ==== Proof.KernelBody.lean ====
/-
  The region's two accumulators, point by point.  The first point zeroes them and adds its tile; every later
  point adds its tile to what the point before left; the last point also copies both into the two 1×1 outputs.
  So after the last of the 147 points output 4 holds the sum over all tiles, rows and columns of the terms of the
  four arrays the region was handed, and output 5 the sum of the mask array.

  The steps.  What each control case leaves in an accumulator (or, at the last point, in an output) is one covering
  store whose payload is the update of the point's four blocks and of the accumulator's previous contents; at the
  first point the previous contents are the zero just stored.  Over the extended reals the update is
  "previous entry + the tile's sum", the tile's sum being over the rows and columns of the blocks.  Block `t` of an
  array is its columns `2048·t … 2048·t + 2047`, so the tile's sum over the blocks of point `t` is the sum of the
  array's cells in tile `t`.  By induction on the point the accumulators after point `n` hold the sums of the tiles
  `0 … n`, and the outputs at the last point hold the sums of all 147.
-/
import proofs.«105622_j89438398971910_1_alg».proof.Proof.Gen.KernelIdeal.Frame
import proofs.«105622_j89438398971910_1_alg».proof.Proof.Spec
import proofs.«105622_j89438398971910_1_alg».proof.Proof.KernelTile
import Idealize.ShloMosaic.Lib.ValueIdx
import Idealize.ShloMosaic.Lib.Pipeline.Value

noncomputable section

open scoped BigOperators

namespace Cert.KernelIdeal.Body

open Cert.KernelIdeal Cert.KernelIdeal.Gen Cert.NormalLoss Idealize.ShloMosaic Idealize.ShloMosaic.ValueIdx Idealize.ShloMosaic.TcCoe Idealize.SL.Sem

variable (m : (ℓ : Loc nD τ sig) → Buf (Elt Ideal) ℓ)

/-! ## What each case leaves, as the update of the point's blocks -/

section Pieces
variable {F : FTy → Type} [FloatOps F]

/-- The zero offsets of a rank-2 rectangle, as the constant function. -/
theorem zero_off : (![0, 0] : Fin 2 → Nat) = fun _ => 0 := funext fun a => by fin_cases a <;> rfl

/-- Plane 0, 1, 2 of a three-plane block: the block read through the one-plane rectangle at that plane. -/
def pl0 (x : Vec F S3x64x2048 .f32) : Vec F S1x64x2048 .f32 :=
  View.ld x (Rect.unit (s := S3x64x2048) ![0, 0, 0] S1x64x2048.size inb_S3x64x2048_S1x64x2048_0_0_0)
def pl1 (x : Vec F S3x64x2048 .f32) : Vec F S1x64x2048 .f32 :=
  View.ld x (Rect.unit (s := S3x64x2048) ![1, 0, 0] S1x64x2048.size inb_S3x64x2048_S1x64x2048_1_0_0)
def pl2 (x : Vec F S3x64x2048 .f32) : Vec F S1x64x2048 .f32 :=
  View.ld x (Rect.unit (s := S3x64x2048) ![2, 0, 0] S1x64x2048.size inb_S3x64x2048_S1x64x2048_2_0_0)

/-- The loss accumulator's update: from the planes of the source, target and normal blocks `x0`, `x1`, `x2`, the
    mask block `x3` and the accumulator's previous contents `a`. -/
def upd11 (x0 x1 x2 : Vec F S3x64x2048 .f32) (x3 : Vec F S64x2048 .f32) (a : Vec F S1x1 .f32) : Vec F S1x1 .f32 :=
  k0_pay11 (k0_pay3 (pl0 x0) (pl0 x1)) (k0_pay4 (pl1 x0) (pl1 x1)) (k0_pay5 (pl2 x0) (pl2 x1))
    (k0_pay6 (pl0 x2)) (k0_pay7 (pl1 x2)) (k0_pay8 (pl2 x2))
    (k0_pay9 (pl0 x0) (pl0 x1) (pl1 x0) (pl1 x1) (pl2 x0) (pl2 x1)) x3 a

/-- The first point leaves in the loss accumulator the update of the zero it has just stored there (the reset, then the
    update read back over it: the later store covers). -/
theorem sA0 (c : Dev nD) (i : grid0.Coords)
    (arg1 : Memref sig .tc .vmem S3x64x2048 .f32) (harg1 : arg1.IsWhole) (arg2 : Memref sig .tc .vmem S3x64x2048 .f32) (harg2 : arg2.IsWhole)
    (arg3 : Memref sig .tc .vmem S3x64x2048 .f32) (harg3 : arg3.IsWhole) (arg4 : Memref sig .tc .vmem S64x2048 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc0 : cond0_0 i) (hc1 : ¬cond0_1 i) (x0 x1 x2 : Vec F S3x64x2048 .f32) (x3 : Vec F S64x2048 .f32) :
    sout0_A_0 c i arg1 harg1 arg2 harg2 arg3 harg3 arg4 harg4 arg5 harg5 arg6 harg6 arg7 harg7 arg8 harg8 hc0 hc1 x0 x1 x2 x3 = upd11 x0 x1 x2 x3 k0_pay1 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) zero_off]
  simp only [View.readAt_eq_ld, harg1.read_unread, harg2.read_unread, harg3.read_unread, harg4.read_unread,
    harg7.read_unread, harg8.read_unread, View.readCov_unit_zero (S := S1x1) _ zero_off,
    View.ld_unit_zero (S := S1x1) zero_off, View.ld_unit_zero (S := S64x2048) zero_off]
  rfl

/-- The first point leaves in the count accumulator the update of the zero it has just stored there. -/
theorem sA1 (c : Dev nD) (i : grid0.Coords)
    (arg1 : Memref sig .tc .vmem S3x64x2048 .f32) (harg1 : arg1.IsWhole) (arg2 : Memref sig .tc .vmem S3x64x2048 .f32) (harg2 : arg2.IsWhole)
    (arg3 : Memref sig .tc .vmem S3x64x2048 .f32) (harg3 : arg3.IsWhole) (arg4 : Memref sig .tc .vmem S64x2048 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc0 : cond0_0 i) (hc1 : ¬cond0_1 i) (x0 x1 x2 : Vec F S3x64x2048 .f32) (x3 : Vec F S64x2048 .f32) :
    sout0_A_1 c i arg1 harg1 arg2 harg2 arg3 harg3 arg4 harg4 arg5 harg5 arg6 harg6 arg7 harg7 arg8 harg8 hc0 hc1 x0 x1 x2 x3 = k0_pay12 x3 k0_pay2 := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) zero_off]
  simp only [View.readAt_eq_ld, harg1.read_unread, harg2.read_unread, harg3.read_unread, harg4.read_unread,
    harg7.read_unread, harg8.read_unread, View.readCov_unit_zero (S := S1x1) _ zero_off,
    View.ld_unit_zero (S := S1x1) zero_off, View.ld_unit_zero (S := S64x2048) zero_off]

/-- A middle point leaves in the loss accumulator the update of what the point before left there. -/
theorem sB0 (c : Dev nD) (i : grid0.Coords)
    (arg1 : Memref sig .tc .vmem S3x64x2048 .f32) (harg1 : arg1.IsWhole) (arg2 : Memref sig .tc .vmem S3x64x2048 .f32) (harg2 : arg2.IsWhole)
    (arg3 : Memref sig .tc .vmem S3x64x2048 .f32) (harg3 : arg3.IsWhole) (arg4 : Memref sig .tc .vmem S64x2048 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc0 : ¬cond0_0 i) (hc1 : ¬cond0_1 i) (x0 x1 x2 : Vec F S3x64x2048 .f32) (x3 : Vec F S64x2048 .f32) (xs0 xs1 : Vec F S1x1 .f32) :
    sout0_B_0 c i arg1 harg1 arg2 harg2 arg3 harg3 arg4 harg4 arg5 harg5 arg6 harg6 arg7 harg7 arg8 harg8 hc0 hc1 x0 x1 x2 x3 xs0 xs1 = upd11 x0 x1 x2 x3 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zero_off]
  simp only [View.readAt_eq_ld, harg1.read_unread, harg2.read_unread, harg3.read_unread, harg4.read_unread,
    harg7.read_unread, harg8.read_unread, View.readCov_unit_zero (S := S1x1) _ zero_off,
    View.ld_unit_zero (S := S1x1) zero_off, View.ld_unit_zero (S := S64x2048) zero_off]
  rfl

/-- A middle point leaves in the count accumulator the update of what the point before left there. -/
theorem sB1 (c : Dev nD) (i : grid0.Coords)
    (arg1 : Memref sig .tc .vmem S3x64x2048 .f32) (harg1 : arg1.IsWhole) (arg2 : Memref sig .tc .vmem S3x64x2048 .f32) (harg2 : arg2.IsWhole)
    (arg3 : Memref sig .tc .vmem S3x64x2048 .f32) (harg3 : arg3.IsWhole) (arg4 : Memref sig .tc .vmem S64x2048 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc0 : ¬cond0_0 i) (hc1 : ¬cond0_1 i) (x0 x1 x2 : Vec F S3x64x2048 .f32) (x3 : Vec F S64x2048 .f32) (xs0 xs1 : Vec F S1x1 .f32) :
    sout0_B_1 c i arg1 harg1 arg2 harg2 arg3 harg3 arg4 harg4 arg5 harg5 arg6 harg6 arg7 harg7 arg8 harg8 hc0 hc1 x0 x1 x2 x3 xs0 xs1 = k0_pay12 x3 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zero_off]
  simp only [View.readAt_eq_ld, harg1.read_unread, harg2.read_unread, harg3.read_unread, harg4.read_unread,
    harg7.read_unread, harg8.read_unread, View.readCov_unit_zero (S := S1x1) _ zero_off,
    View.ld_unit_zero (S := S1x1) zero_off, View.ld_unit_zero (S := S64x2048) zero_off]

/-- The last point leaves in output 4 a copy of the loss accumulator it has just updated. -/
theorem oC4 (c : Dev nD) (i : grid0.Coords)
    (arg1 : Memref sig .tc .vmem S3x64x2048 .f32) (harg1 : arg1.IsWhole) (arg2 : Memref sig .tc .vmem S3x64x2048 .f32) (harg2 : arg2.IsWhole)
    (arg3 : Memref sig .tc .vmem S3x64x2048 .f32) (harg3 : arg3.IsWhole) (arg4 : Memref sig .tc .vmem S64x2048 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc0 : ¬cond0_0 i) (hc1 : cond0_1 i) (x0 x1 x2 : Vec F S3x64x2048 .f32) (x3 : Vec F S64x2048 .f32) (xs0 xs1 : Vec F S1x1 .f32) :
    out0_C_4 c i arg1 harg1 arg2 harg2 arg3 harg3 arg4 harg4 arg5 harg5 arg6 harg6 arg7 harg7 arg8 harg8 hc0 hc1 x0 x1 x2 x3 xs0 xs1 = upd11 x0 x1 x2 x3 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zero_off]
  simp only [View.readAt_eq_ld, harg1.read_unread, harg2.read_unread, harg3.read_unread, harg4.read_unread,
    harg7.read_unread, harg8.read_unread, View.readCov_unit_zero (S := S1x1) _ zero_off,
    View.ld_unit_zero (S := S1x1) zero_off, View.ld_unit_zero (S := S64x2048) zero_off]
  rfl

/-- The last point leaves in output 5 a copy of the count accumulator it has just updated. -/
theorem oC5 (c : Dev nD) (i : grid0.Coords)
    (arg1 : Memref sig .tc .vmem S3x64x2048 .f32) (harg1 : arg1.IsWhole) (arg2 : Memref sig .tc .vmem S3x64x2048 .f32) (harg2 : arg2.IsWhole)
    (arg3 : Memref sig .tc .vmem S3x64x2048 .f32) (harg3 : arg3.IsWhole) (arg4 : Memref sig .tc .vmem S64x2048 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (hc0 : ¬cond0_0 i) (hc1 : cond0_1 i) (x0 x1 x2 : Vec F S3x64x2048 .f32) (x3 : Vec F S64x2048 .f32) (xs0 xs1 : Vec F S1x1 .f32) :
    out0_C_5 c i arg1 harg1 arg2 harg2 arg3 harg3 arg4 harg4 arg5 harg5 arg6 harg6 arg7 harg7 arg8 harg8 hc0 hc1 x0 x1 x2 x3 xs0 xs1 = k0_pay12 x3 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zero_off]
  simp only [View.readAt_eq_ld, harg1.read_unread, harg2.read_unread, harg3.read_unread, harg4.read_unread,
    harg7.read_unread, harg8.read_unread, View.readCov_unit_zero (S := S1x1) _ zero_off,
    View.ld_unit_zero (S := S1x1) zero_off, View.ld_unit_zero (S := S64x2048) zero_off]

/-- Plane `k` of a block at row `r`, column `l` is the block at `(k, r, l)`. -/
theorem pl0_apply (x : Vec F S3x64x2048 .f32) (r : Fin 64) (l : Fin 2048) :
    pl0 x (ix3 (0 : Fin 1) r l) = x (ix3 (0 : Fin 3) r l) := by
  show x _ = x _
  congr 1; funext a; apply Fin.ext
  match a with
  | ⟨0, _⟩ => rfl
  | ⟨1, _⟩ => show 0 + 1 * r.val = r.val; omega
  | ⟨2, _⟩ => show 0 + 1 * l.val = l.val; omega
theorem pl1_apply (x : Vec F S3x64x2048 .f32) (r : Fin 64) (l : Fin 2048) :
    pl1 x (ix3 (0 : Fin 1) r l) = x (ix3 (1 : Fin 3) r l) := by
  show x _ = x _
  congr 1; funext a; apply Fin.ext
  match a with
  | ⟨0, _⟩ => rfl
  | ⟨1, _⟩ => show 0 + 1 * r.val = r.val; omega
  | ⟨2, _⟩ => show 0 + 1 * l.val = l.val; omega
theorem pl2_apply (x : Vec F S3x64x2048 .f32) (r : Fin 64) (l : Fin 2048) :
    pl2 x (ix3 (0 : Fin 1) r l) = x (ix3 (2 : Fin 3) r l) := by
  show x _ = x _
  congr 1; funext a; apply Fin.ext
  match a with
  | ⟨0, _⟩ => rfl
  | ⟨1, _⟩ => show 0 + 1 * r.val = r.val; omega
  | ⟨2, _⟩ => show 0 + 1 * l.val = l.val; omega

end Pieces

/-! ## The updates over the extended reals: previous entry plus the tile's sum -/

/-- One tile's sum of terms, over the point's four blocks. -/
def tileLoss (x0 x1 x2 : Vec Ideal S3x64x2048 .f32) (x3 : Vec Ideal S64x2048 .f32) : EReal :=
  ∑ r : Fin 64, ∑ l : Fin 2048,
    term (x0 (ix3 (0 : Fin 3) r l) - x1 (ix3 (0 : Fin 3) r l)) (x0 (ix3 (1 : Fin 3) r l) - x1 (ix3 (1 : Fin 3) r l))
      (x0 (ix3 (2 : Fin 3) r l) - x1 (ix3 (2 : Fin 3) r l))
      (x2 (ix3 (0 : Fin 3) r l)) (x2 (ix3 (1 : Fin 3) r l)) (x2 (ix3 (2 : Fin 3) r l)) (x3 (ix2 r l))
/-- One tile's sum of the mask block. -/
def tileCnt (x3 : Vec Ideal S64x2048 .f32) : EReal := ∑ r : Fin 64, ∑ l : Fin 2048, x3 (ix2 r l)

theorem upd11_value (x0 x1 x2 : Vec Ideal S3x64x2048 .f32) (x3 : Vec Ideal S64x2048 .f32) (a : Vec Ideal S1x1 .f32) :
    upd11 (F := Ideal) x0 x1 x2 x3 a = fun _ => a (ix2 (0 : Fin 1) (0 : Fin 1)) + tileLoss x0 x1 x2 x3 := by
  unfold upd11
  refine (Tile.pay11_value (pl0 x0) (pl0 x1) (pl1 x0) (pl1 x1) (pl2 x0) (pl2 x1) (pl0 x2) (pl1 x2) (pl2 x2) x3 a).trans ?_
  funext _
  unfold tileLoss
  simp only [pl0_apply, pl1_apply, pl2_apply]

theorem upd12_value (x3 : Vec Ideal S64x2048 .f32) (a : Vec Ideal S1x1 .f32) :
    k0_pay12 (F := Ideal) x3 a = fun _ => a (ix2 (0 : Fin 1) (0 : Fin 1)) + tileCnt x3 :=
  Tile.pay12_value x3 a

/-! ## Block `t` of an array is its tile `t` -/

/-- The four input blocks at a point and the four arrays the region was handed, named at their literal types. -/
abbrev blk0 (c : Dev nD) (t : Fin cfg0.N) : Vec Ideal S3x64x2048 .f32 := Gen.iblk m c 0 t
abbrev blk1 (c : Dev nD) (t : Fin cfg0.N) : Vec Ideal S3x64x2048 .f32 := Gen.iblk m c 1 t
abbrev blk2 (c : Dev nD) (t : Fin cfg0.N) : Vec Ideal S3x64x2048 .f32 := Gen.iblk m c 2 t
abbrev blk3 (c : Dev nD) (t : Fin cfg0.N) : Vec Ideal S64x2048 .f32 := Gen.iblk m c 3 t
abbrev arr0 (c : Dev nD) : Vec Ideal S3x64x301056 .f32 := Gen.V m c main_v22
abbrev arr1 (c : Dev nD) : Vec Ideal S3x64x301056 .f32 := Gen.V m c main_v23
abbrev arr2 (c : Dev nD) : Vec Ideal S3x64x301056 .f32 := Gen.V m c main_v24
abbrev arr3 (c : Dev nD) : Vec Ideal S64x301056 .f32 := Gen.V m c main_v25

/-- The block index of every input window at point `t`: zero on the plane and row axes, `t` on the column axis. -/
theorem block_index : ∀ t : Fin cfg0.N,
    (win0_0.index t (0 : Fin 3) = 0 ∧ win0_0.index t (1 : Fin 3) = 0 ∧ win0_0.index t (2 : Fin 3) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val)
    ∧ win0_3.index t (0 : Fin 2) = 0 ∧ win0_3.index t (1 : Fin 2) = t.val :=
  (by decide +kernel : ∀ t : Fin grid0.N, _)

/-- A block's entry `(k, r, l)` at point `t` is its array's entry `(k, r, 2048·t + l)`: on each axis the block
    index times the block's size plus the coordinate inside the block. -/
theorem blk0_apply (c : Dev nD) (t : Fin cfg0.N) (ht : t.val < 147) (k : Fin 3) (r : Fin 64) (l : Fin 2048) :
    blk0 m c t (ix3 k r l) = arr0 m c (ix3 k r (col ⟨t.val, ht⟩ l)) := by
  obtain ⟨e0, e1, e2⟩ := (block_index t).1
  show Gen.iblk m c 0 t (ix3 k r l) = Gen.V m c main_v22 _
  unfold Gen.iblk
  rw [View.read_apply]
  show Gen.V m c main_v22 _ = Gen.V m c main_v22 _
  congr 1; funext a; apply Fin.ext
  match a with
  | ⟨0, _⟩ => show win0_0.index t (0 : Fin 3) * 3 + 1 * k.val = k.val; rw [e0]; omega
  | ⟨1, _⟩ => show win0_0.index t (1 : Fin 3) * 64 + 1 * r.val = r.val; rw [e1]; omega
  | ⟨2, _⟩ => show win0_0.index t (2 : Fin 3) * 2048 + 1 * l.val = 2048 * t.val + l.val; rw [e2]; omega
theorem blk1_apply (c : Dev nD) (t : Fin cfg0.N) (ht : t.val < 147) (k : Fin 3) (r : Fin 64) (l : Fin 2048) :
    blk1 m c t (ix3 k r l) = arr1 m c (ix3 k r (col ⟨t.val, ht⟩ l)) := by
  obtain ⟨e0, e1, e2⟩ := (block_index t).2.1
  show Gen.iblk m c 1 t (ix3 k r l) = Gen.V m c main_v23 _
  unfold Gen.iblk
  rw [View.read_apply]
  show Gen.V m c main_v23 _ = Gen.V m c main_v23 _
  congr 1; funext a; apply Fin.ext
  match a with
  | ⟨0, _⟩ => show win0_1.index t (0 : Fin 3) * 3 + 1 * k.val = k.val; rw [e0]; omega
  | ⟨1, _⟩ => show win0_1.index t (1 : Fin 3) * 64 + 1 * r.val = r.val; rw [e1]; omega
  | ⟨2, _⟩ => show win0_1.index t (2 : Fin 3) * 2048 + 1 * l.val = 2048 * t.val + l.val; rw [e2]; omega
theorem blk2_apply (c : Dev nD) (t : Fin cfg0.N) (ht : t.val < 147) (k : Fin 3) (r : Fin 64) (l : Fin 2048) :
    blk2 m c t (ix3 k r l) = arr2 m c (ix3 k r (col ⟨t.val, ht⟩ l)) := by
  obtain ⟨e0, e1, e2⟩ := (block_index t).2.2.1
  show Gen.iblk m c 2 t (ix3 k r l) = Gen.V m c main_v24 _
  unfold Gen.iblk
  rw [View.read_apply]
  show Gen.V m c main_v24 _ = Gen.V m c main_v24 _
  congr 1; funext a; apply Fin.ext
  match a with
  | ⟨0, _⟩ => show win0_2.index t (0 : Fin 3) * 3 + 1 * k.val = k.val; rw [e0]; omega
  | ⟨1, _⟩ => show win0_2.index t (1 : Fin 3) * 64 + 1 * r.val = r.val; rw [e1]; omega
  | ⟨2, _⟩ => show win0_2.index t (2 : Fin 3) * 2048 + 1 * l.val = 2048 * t.val + l.val; rw [e2]; omega
theorem blk3_apply (c : Dev nD) (t : Fin cfg0.N) (ht : t.val < 147) (r : Fin 64) (l : Fin 2048) :
    blk3 m c t (ix2 r l) = arr3 m c (ix2 r (col ⟨t.val, ht⟩ l)) := by
  obtain ⟨e0, e1⟩ := (block_index t).2.2.2
  show Gen.iblk m c 3 t (ix2 r l) = Gen.V m c main_v25 _
  unfold Gen.iblk
  rw [View.read_apply]
  show Gen.V m c main_v25 _ = Gen.V m c main_v25 _
  congr 1; funext a; apply Fin.ext
  match a with
  | ⟨0, _⟩ => show win0_3.index t (0 : Fin 2) * 64 + 1 * r.val = r.val; rw [e0]; omega
  | ⟨1, _⟩ => show win0_3.index t (1 : Fin 2) * 2048 + 1 * l.val = 2048 * t.val + l.val; rw [e1]; omega

/-- Tile `t`'s sum of terms over the four arrays (nothing past the grid's last tile). -/
def tileL (c : Dev nD) (t : ℕ) : EReal :=
  if h : t < 147 then
    ∑ r : Fin 64, ∑ l : Fin 2048, cellTerm (arr0 m c) (arr1 m c) (arr2 m c) (arr3 m c) r (col ⟨t, h⟩ l)
  else 0
/-- Tile `t`'s sum of the mask array. -/
def tileC (c : Dev nD) (t : ℕ) : EReal :=
  if h : t < 147 then ∑ r : Fin 64, ∑ l : Fin 2048, arr3 m c (ix2 r (col ⟨t, h⟩ l)) else 0

/-- The tile sums over the blocks of point `t` are those over the arrays at tile `t`. -/
theorem tileLoss_blk (c : Dev nD) (t : Fin cfg0.N) :
    tileLoss (blk0 m c t) (blk1 m c t) (blk2 m c t) (blk3 m c t) = tileL m c t.val := by
  have ht : t.val < 147 := lt_of_lt_of_eq t.isLt N_0
  unfold tileLoss tileL cellTerm
  rw [dif_pos ht]
  simp only [blk0_apply m c t ht, blk1_apply m c t ht, blk2_apply m c t ht, blk3_apply m c t ht]
theorem tileCnt_blk (c : Dev nD) (t : Fin cfg0.N) : tileCnt (blk3 m c t) = tileC m c t.val := by
  have ht : t.val < 147 := lt_of_lt_of_eq t.isLt N_0
  unfold tileCnt tileC
  rw [dif_pos ht]
  simp only [blk3_apply m c t ht]

/-! ## One point -/

/-- The first point: both accumulators are zeroed and the point's tile added. -/
theorem step_A (c : Dev nD) (t : Fin cfg0.N) (h0 : t.val % 147 = 0) (h1 : ¬t.val % 147 = 146) :
    (Gen.outsAt0 m c t.val t.isLt).2.2.1 = (fun _ => 0 + tileL m c t.val)
    ∧ (Gen.outsAt0 m c t.val t.isLt).2.2.2 = (fun _ => 0 + tileC m c t.val) := by
  rw [outsAt0_A m c t h0 h1]; dsimp only
  constructor
  · refine (sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) ((hcond0_0 t).mpr h0) (fun h => h1 ((hcond0_1 t).mp h)) (blk0 m c t) (blk1 m c t) (blk2 m c t) (blk3 m c t)).trans ?_
    refine (upd11_value (blk0 m c t) (blk1 m c t) (blk2 m c t) (blk3 m c t) (k0_pay1 (F := Ideal))).trans ?_
    rw [tileLoss_blk m c t, Tile.pay1_value]
  · refine (sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) ((hcond0_0 t).mpr h0) (fun h => h1 ((hcond0_1 t).mp h)) (blk0 m c t) (blk1 m c t) (blk2 m c t) (blk3 m c t)).trans ?_
    refine (upd12_value (blk3 m c t) (k0_pay2 (F := Ideal))).trans ?_
    rw [tileCnt_blk m c t, Tile.pay2_value]

/-- A middle point: each accumulator gains the point's tile. -/
theorem step_B (c : Dev nD) (t : Fin cfg0.N) (h0 : ¬t.val % 147 = 0) (h1 : ¬t.val % 147 = 146) :
    (Gen.outsAt0 m c t.val t.isLt).2.2.1
        = (fun _ => (Gen.outsAt0 m c (t.val - 1) (Nat.lt_of_le_of_lt (Nat.sub_le _ _) t.isLt)).2.2.1 (ix2 (0 : Fin 1) (0 : Fin 1)) + tileL m c t.val)
    ∧ (Gen.outsAt0 m c t.val t.isLt).2.2.2
        = (fun _ => (Gen.outsAt0 m c (t.val - 1) (Nat.lt_of_le_of_lt (Nat.sub_le _ _) t.isLt)).2.2.2 (ix2 (0 : Fin 1) (0 : Fin 1)) + tileC m c t.val) := by
  rw [outsAt0_B m c t h0 h1]; dsimp only
  constructor
  · refine (sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) (blk0 m c t) (blk1 m c t) (blk2 m c t) (blk3 m c t) (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2).trans ?_
    refine (upd11_value (blk0 m c t) (blk1 m c t) (blk2 m c t) (blk3 m c t) (Gen.outsAt0 m c (t.val - 1) (Nat.lt_of_le_of_lt (Nat.sub_le _ _) t.isLt)).2.2.1).trans ?_
    rw [tileLoss_blk m c t]
  · refine (sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) (fun h => h1 ((hcond0_1 t).mp h)) (blk0 m c t) (blk1 m c t) (blk2 m c t) (blk3 m c t) (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2).trans ?_
    refine (upd12_value (blk3 m c t) (Gen.outsAt0 m c (t.val - 1) (Nat.lt_of_le_of_lt (Nat.sub_le _ _) t.isLt)).2.2.2).trans ?_
    rw [tileCnt_blk m c t]

/-- The last point: each accumulator gains the point's tile, and the two outputs are copies of the accumulators. -/
theorem step_C (c : Dev nD) (t : Fin cfg0.N) (h0 : ¬t.val % 147 = 0) (h1 : t.val % 147 = 146) :
    (Gen.outsAt0 m c t.val t.isLt).1
        = (fun _ => (Gen.outsAt0 m c (t.val - 1) (Nat.lt_of_le_of_lt (Nat.sub_le _ _) t.isLt)).2.2.1 (ix2 (0 : Fin 1) (0 : Fin 1)) + tileL m c t.val)
    ∧ (Gen.outsAt0 m c t.val t.isLt).2.1
        = (fun _ => (Gen.outsAt0 m c (t.val - 1) (Nat.lt_of_le_of_lt (Nat.sub_le _ _) t.isLt)).2.2.2 (ix2 (0 : Fin 1) (0 : Fin 1)) + tileC m c t.val) := by
  rw [outsAt0_C m c t h0 h1]; dsimp only
  constructor
  · refine (oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) ((hcond0_1 t).mpr h1) (blk0 m c t) (blk1 m c t) (blk2 m c t) (blk3 m c t) (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2).trans ?_
    refine (upd11_value (blk0 m c t) (blk1 m c t) (blk2 m c t) (blk3 m c t) (Gen.outsAt0 m c (t.val - 1) (Nat.lt_of_le_of_lt (Nat.sub_le _ _) t.isLt)).2.2.1).trans ?_
    rw [tileLoss_blk m c t]
  · refine (oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) (fun h => h0 ((hcond0_0 t).mp h)) ((hcond0_1 t).mpr h1) (blk0 m c t) (blk1 m c t) (blk2 m c t) (blk3 m c t) (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2).trans ?_
    refine (upd12_value (blk3 m c t) (Gen.outsAt0 m c (t.val - 1) (Nat.lt_of_le_of_lt (Nat.sub_le _ _) t.isLt)).2.2.2).trans ?_
    rw [tileCnt_blk m c t]

/-! ## All points -/

/-- After a point `n` before the last, the two accumulators hold the sums of the tiles `0 … n`. -/
theorem acc_inv (c : Dev nD) : ∀ (n : ℕ) (h : n < cfg0.N), n < 146 →
    (Gen.outsAt0 m c n h).2.2.1 = (fun _ => ∑ t ∈ Finset.range (n + 1), tileL m c t)
    ∧ (Gen.outsAt0 m c n h).2.2.2 = (fun _ => ∑ t ∈ Finset.range (n + 1), tileC m c t)
  | 0, h, _ => by
    obtain ⟨e0, e1⟩ := step_A m c ⟨0, h⟩ rfl (by dsimp only; omega)
    refine ⟨e0.trans ?_, e1.trans ?_⟩
    · funext _; rw [Finset.sum_range_one, zero_add]
    · funext _; rw [Finset.sum_range_one, zero_add]
  | n + 1, h, hl => by
    obtain ⟨ih0, ih1⟩ := acc_inv c n (Nat.lt_of_succ_lt h) (Nat.lt_of_succ_lt hl)
    have h0 : ¬(⟨n + 1, h⟩ : Fin cfg0.N).val % 147 = 0 := by dsimp only; omega
    have h1 : ¬(⟨n + 1, h⟩ : Fin cfg0.N).val % 147 = 146 := by dsimp only; omega
    obtain ⟨e0, e1⟩ := step_B m c ⟨n + 1, h⟩ h0 h1
    refine ⟨e0.trans ?_, e1.trans ?_⟩
    · show (fun _ => (Gen.outsAt0 m c n _).2.2.1 (ix2 (0 : Fin 1) (0 : Fin 1)) + tileL m c (n + 1)) = _
      rw [ih0, Finset.sum_range_succ _ (n + 1)]
    · show (fun _ => (Gen.outsAt0 m c n _).2.2.2 (ix2 (0 : Fin 1) (0 : Fin 1)) + tileC m c (n + 1)) = _
      rw [ih1, Finset.sum_range_succ _ (n + 1)]

/-- The tile sums over the whole grid are the tiled sums of the specification. -/
theorem sum_tileL (c : Dev nD) : ∑ t ∈ Finset.range 147, tileL m c t
    = tiledLoss (Gen.V m c main_v22) (Gen.V m c main_v23) (Gen.V m c main_v24) (Gen.V m c main_v25) := by
  unfold tiledLoss
  rw [Finset.sum_range]
  refine Finset.sum_congr rfl fun t _ => ?_
  unfold tileL
  rw [dif_pos t.isLt]
theorem sum_tileC (c : Dev nD) : ∑ t ∈ Finset.range 147, tileC m c t = tiledCnt (Gen.V m c main_v25) := by
  unfold tiledCnt
  rw [Finset.sum_range]
  refine Finset.sum_congr rfl fun t _ => ?_
  unfold tileC
  rw [dif_pos t.isLt]

/-- At the last point, `n = 146`, the two outputs hold the sums of all the tiles `0 … n`. -/
theorem out_last (c : Dev nD) (n : ℕ) (h : n < cfg0.N) (hn : n = 146) :
    (Gen.outsAt0 m c n h).1 = (fun _ => ∑ t ∈ Finset.range (n + 1), tileL m c t)
    ∧ (Gen.outsAt0 m c n h).2.1 = (fun _ => ∑ t ∈ Finset.range (n + 1), tileC m c t) := by
  have h0 : ¬(⟨n, h⟩ : Fin cfg0.N).val % 147 = 0 := by dsimp only; omega
  have h1 : (⟨n, h⟩ : Fin cfg0.N).val % 147 = 146 := by dsimp only; omega
  obtain ⟨e4, e5⟩ := step_C m c ⟨n, h⟩ h0 h1
  obtain ⟨i0, i1⟩ := acc_inv m c (n - 1) (Nat.lt_of_le_of_lt (Nat.sub_le _ _) h) (by omega)
  have hs : n - 1 + 1 = n := by omega
  refine ⟨e4.trans ?_, e5.trans ?_⟩
  · show (fun _ => (Gen.outsAt0 m c (n - 1) _).2.2.1 (ix2 (0 : Fin 1) (0 : Fin 1)) + tileL m c n) = _
    rw [i0, hs, Finset.sum_range_succ _ n]
  · show (fun _ => (Gen.outsAt0 m c (n - 1) _).2.2.2 (ix2 (0 : Fin 1) (0 : Fin 1)) + tileC m c n) = _
    rw [i1, hs, Finset.sum_range_succ _ n]

/-- What output 4's staging buffer holds after the last point: the tiled sum of the terms. -/
theorem out4_final (c : Dev nD) (h : 146 < cfg0.N) :
    (Gen.outsAt0 m c 146 h).1
      = fun _ => tiledLoss (Gen.V m c main_v22) (Gen.V m c main_v23) (Gen.V m c main_v24) (Gen.V m c main_v25) :=
  (out_last m c 146 h rfl).1.trans (funext fun _ => sum_tileL m c)

/-- What output 5's staging buffer holds after the last point: the tiled sum of the mask. -/
theorem out5_final (c : Dev nD) (h : 146 < cfg0.N) :
    (Gen.outsAt0 m c 146 h).2.1 = fun _ => tiledCnt (Gen.V m c main_v25) :=
  (out_last m c 146 h rfl).2.trans (funext fun _ => sum_tileC m c)

end Cert.KernelIdeal.Body

end
-- ==== Proof.KernelGatherF.lean ====
/-
  The region's three point arrays are gathered along the LAST axis of a [3, 64, 100000] array, the first two axes
  being batch axes of operand and indices alike: entry (d, b, e) of the result is the operand's entry (d, b, n) with
  n the start index at (d, b, e, 0), read as a signed number and clamped into the axis.
-/
import proofs.«105622_j89438398971910_1_alg».proof.KernelIdeal
import proofs.«105622_j89438398971910_1_alg».proof.Proof.Gen.KernelIdeal
import Idealize.ShloMosaic.Lib.ValueIdx

noncomputable section

open scoped BigOperators

namespace Cert.KernelIdeal.Windows

open Cert.KernelIdeal Idealize.ShloMosaic Idealize.ShloMosaic.ValueIdx

local notation "G" => gather_S3x64x100000_S3x64x300000x1_S3x64x300000_n_2_01_01_2_3_111

/-- The gather along the last axis with two batch axes, read at an index. On each operand axis the operand index
    is start + batching coordinate + offset coordinate. Axes 0 and 1 are batching axes: start and offset vanish and the
    batching coordinate is the result's coordinate on the paired axis. Axis 2 is collapsed and is the one axis of the
    start index map: batching and offset coordinates vanish, and the start is the start index at (d, b, e, 0) read
    signed and clamped to [0, 100000 - 1]. -/
theorem gatherF_apply {α : Type} (X : S3x64x100000.Idx → α) (I : IVec S3x64x300000x1 32) (d : Fin 3) (b : Fin 64) (e : Fin 300000) :
    Host.gather gather_S3x64x100000_S3x64x300000x1_S3x64x300000_n_2_01_01_2_3_111 X I (ix3 d b e)
      = X (ix3 d b ⟨min (I (ix4 d b e (0 : Fin 1))).toInt.toNat 99999, by omega⟩) := by
  have hb0 : (0 : Fin S3x64x100000.rank) ∈ GatherDims.operandBatchingDims G := by decide
  have hb1 : (1 : Fin S3x64x100000.rank) ∈ GatherDims.operandBatchingDims G := by decide
  have hnb : (2 : Fin S3x64x100000.rank) ∉ GatherDims.operandBatchingDims G := by decide
  have hc : (2 : Fin S3x64x100000.rank) ∈ GatherDims.collapsedSliceDims G := by decide
  have hm : (2 : Fin S3x64x100000.rank) ∈ GatherDims.startIndexMap G := by decide
  unfold Host.gather
  congr 1
  funext a
  refine Fin.ext ?_
  match a with
  | ⟨0, h0⟩ =>
    show GatherDims.start G (ix3 d b e) I 0 + GatherDims.batchCoord G (ix3 d b e) 0 + GatherDims.offCoord G (ix3 d b e) 0 = d.val
    rw [GatherDims.start_batching _ _ _ _ hb0,
      GatherDims.offCoord_eq_zero _ _ _ (fun h => ((GatherDims.mem_sKept _ _).mp h).2 hb0)]
    simp only [Nat.add_zero, Nat.zero_add]
    unfold GatherDims.batchCoord
    rw [dif_pos hb0]
    rfl
  | ⟨1, h1⟩ =>
    show GatherDims.start G (ix3 d b e) I 1 + GatherDims.batchCoord G (ix3 d b e) 1 + GatherDims.offCoord G (ix3 d b e) 1 = b.val
    rw [GatherDims.start_batching _ _ _ _ hb1,
      GatherDims.offCoord_eq_zero _ _ _ (fun h => ((GatherDims.mem_sKept _ _).mp h).2 hb1)]
    simp only [Nat.add_zero, Nat.zero_add]
    unfold GatherDims.batchCoord
    rw [dif_pos hb1]
    rfl
  | ⟨2, h2⟩ =>
    show GatherDims.start G (ix3 d b e) I 2 + GatherDims.batchCoord G (ix3 d b e) 2 + GatherDims.offCoord G (ix3 d b e) 2
      = min (I (ix4 d b e (0 : Fin 1))).toInt.toNat 99999
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    -- the start-indices index read for component 0 of the start index of result index (d, b, e) is (d, b, e, 0)
    have hsi : GatherDims.siIdx G (ix3 d b e) ⟨List.idxOf (2 : Fin S3x64x100000.rank) (GatherDims.startIndexMap G),
        List.idxOf_lt_length_iff.2 hm⟩ = ix4 d b e (0 : Fin 1) := by
      funext c; refine Fin.ext ?_
      match c with
      | ⟨0, _⟩ => rfl
      | ⟨1, _⟩ => rfl
      | ⟨2, _⟩ => rfl
      | ⟨3, _⟩ => rfl
    rw [hsi]
    rfl

end Cert.KernelIdeal.Windows

end
-- ==== Proof.KernelTakesP.lean ====
/-
  What the region is handed for the edges' endpoints, before padding: entry (d, b, e) of the gathered source-point
  array is coordinate d of the point the edge's source index names, or the fill; the same for the targets.
-/
import proofs.«105622_j89438398971910_1_alg».proof.Proof.Gen.KernelIdeal.Frame
import proofs.«105622_j89438398971910_1_alg».proof.Proof.Spec
import proofs.«105622_j89438398971910_1_alg».proof.Proof.KernelGatherF
import Idealize.ShloMosaic.Lib.ValueIdx
import Idealize.ShloMosaic.Lib.Pipeline.Value
import Idealize.ShloMosaic.Lib.StableHlo.Run
import Idealize.ShloMosaic.PureOps.Reduce

noncomputable section

open scoped BigOperators

namespace Cert.KernelIdeal.Windows

open Cert.KernelIdeal Cert.KernelIdeal.Gen Cert.NormalLoss Idealize.ShloMosaic Idealize.ShloMosaic.ValueIdx Idealize.ShloMosaic.TcCoe Idealize.SL.Sem

variable (m : (ℓ : Loc nD τ sig) → Buf (Elt Ideal) ℓ)

/-! ## The read along the last axis, as a function of its operand and its indices

The called function normalises each index (a negative one is moved up by the axis length 100000), appends a unit axis,
forms the bit "0 ≤ i' ∧ i' ≤ 99999" (an AND over that unit axis), gathers the operand at the normalised indices along
its last axis, and selects the gathered entry where the bit is set and the fill word elsewhere. -/

namespace TakesP

local notation "G" => gather_S3x64x100000_S3x64x300000x1_S3x64x300000_n_2_01_01_2_3_111

/-- The normalised indices with a trailing unit axis: a negative index moved up by the axis length. -/
def wrapV (I : IVec S3x64x300000 32) : IVec S3x64x300000x1 32 :=
  shapeCast S3x64x300000x1
    (select (cmpi .slt I (broadcastInDim S3x64x300000 ![] bcast_S_S3x64x300000 (constantI S_ 32 0#32)))
      (addi I (broadcastInDim S3x64x300000 ![] bcast_S_S3x64x300000 (constantI S_ 32 100000#32))) I)
    shapeCasts_S3x64x300000_S3x64x300000x1

/-- The range flag: the conjunction over the unit axis of 0 ≤ i' and i' ≤ 99999. -/
def flagV (J : IVec S3x64x300000x1 32) : IVec S3x64x300000 1 :=
  Host.reduce IntOp.andi
    (andi (cmpi .sge J (broadcastInDim S3x64x300000x1 ![] bcast_S_S3x64x300000x1 (constantI S_ 32 0#32)))
      (cmpi .sle J (broadcastInDim S3x64x300000x1 ![0, 1, 2, 3] bcast_S1x1x1x1_S3x64x300000x1_0_1_2_3
        (broadcastInDim S1x1x1x1 ![3] bcast_S1_S1x1x1x1_3 (constantI S1 32 99999#32)))))
    (constantI S_ 1 1#1) reducesTo_S3x64x300000x1_S3x64x300000_d3 h_S_

/-- The whole read along the last axis: the gather where the flag is set, the fill elsewhere. -/
def takeF (X : S3x64x100000.Idx → EReal) (I : IVec S3x64x300000 32) : S3x64x300000.Idx → EReal :=
  select (flagV (wrapV I)) (Host.gather G X (wrapV I))
    (broadcastInDim S3x64x300000 ![] bcast_S_S3x64x300000 (constant (F := Ideal) S_ .f32 0x7FC00000#32))

/-- The normalised index at (d, b, e, 0) is the normalisation of the index at (d, b, e). -/
theorem wrapV_apply (I : IVec S3x64x300000 32) (d : Fin 3) (b : Fin 64) (e : Fin 300000) :
    wrapV I (ix4 d b e (0 : Fin 1)) = wrap (I (ix3 d b e)) := by
  unfold wrapV
  refine (shapeCast_apply _ shapeCasts_S3x64x300000_S3x64x300000x1 (ix4 d b e (0 : Fin 1)) (ix3 d b e) ?_).trans ?_
  · rw [Shape.rowMajor_val_three, Shape.rowMajor_val_four]
    show ((d.val * 64 + b.val) * 300000 + e.val) = (((d.val * 64 + b.val) * 300000 + e.val) * 1 + 0)
    omega
  · rfl

/-- An AND over an axis of length one is the one word it meets. -/
theorem flagV_apply (J : IVec S3x64x300000x1 32) (d : Fin 3) (b : Fin 64) (e : Fin 300000) :
    flagV J (ix3 d b e)
      = IntOp.andi (IntOp.cmpi .sge (J (ix4 d b e (0 : Fin 1))) 0#32) (IntOp.cmpi .sle (J (ix4 d b e (0 : Fin 1))) 99999#32) := by
  unfold flagV
  rw [Host.reduce_eq_fold]
  have hset : (Finset.univ.filter fun i : S3x64x300000x1.Idx =>
      Shape.ReducesTo.drop reducesTo_S3x64x300000x1_S3x64x300000_d3 i = ix3 d b e) = {ix4 d b e (0 : Fin 1)} := by
    ext i
    simp only [Finset.mem_filter, Finset.mem_univ, true_and, Finset.mem_singleton]
    constructor
    · intro h
      have h0 := congrArg (fun j : S3x64x300000.Idx => (j 0).val) h
      have h1 := congrArg (fun j : S3x64x300000.Idx => (j 1).val) h
      have h2 := congrArg (fun j : S3x64x300000.Idx => (j 2).val) h
      have h3 : (i 3).val < 1 := (i 3).isLt
      have e0 : i 0 = d := Fin.ext h0
      have e1 : i 1 = b := Fin.ext h1
      have e2 : i 2 = e := Fin.ext h2
      have e3 : i 3 = (0 : Fin 1) := Fin.ext (Nat.lt_one_iff.mp h3)
      funext a
      match a with
      | ⟨0, _⟩ => exact e0
      | ⟨1, _⟩ => exact e1
      | ⟨2, _⟩ => exact e2
      | ⟨3, _⟩ => exact e3
    · intro h
      subst h
      funext a
      match a with
      | ⟨0, _⟩ => rfl
      | ⟨1, _⟩ => rfl
      | ⟨2, _⟩ => rfl
  rw [hset, Finset.fold_singleton]
  show IntOp.andi (IntOp.andi (IntOp.cmpi .sge (J (ix4 d b e (0 : Fin 1))) 0#32) (IntOp.cmpi .sle (J (ix4 d b e (0 : Fin 1))) 99999#32)) 1#1 = _
  generalize IntOp.andi (IntOp.cmpi .sge (J (ix4 d b e (0 : Fin 1))) 0#32) (IntOp.cmpi .sle (J (ix4 d b e (0 : Fin 1))) 99999#32) = w
  rcases BitVec.eq_zero_or_eq_one w with h | h <;> subst h <;> decide

/-- THE READ AT AN INDEX: coordinate-first entry (d, b, e) is the operand at the row the index names, or the fill. -/
theorem takeF_apply (X : S3x64x100000.Idx → EReal) (I : IVec S3x64x300000 32) (d : Fin 3) (b : Fin 64) (e : Fin 300000) :
    takeF X I (ix3 d b e)
      = Scalar.select (inb (I (ix3 d b e))) (X (ix3 d b (row (I (ix3 d b e))))) fillF := by
  unfold takeF
  rw [select_apply, flagV_apply, gatherF_apply]
  simp only [wrapV_apply]
  rfl

/-- A transport along an equation of a type with itself changes nothing. -/
theorem cast_drop {α : Sort _} (h : α = α) (a : α) : cast h a = a := (cast_eq h a).trans (Eq.refl a)

/-! ## What the region finds in the buffers on the way to the two reads

Each buffer's contents when the region is entered, as the operation that wrote it applied to the contents of the buffers
it read. -/

/-- The sources, as the region finds them: row 0 of the edge list, the unit axis dropped. -/
theorem V_v1_eq (c : Dev nD) :
    (Gen.V m c main_v1 : S64x300000.Idx → BitVec 32)
      = shapeCast S64x300000 (extractStridedSlice S64x1x300000 ![0, 0, 0] (m ((c.tc : Thread nD τ).loc main_arg3))
          slices_S64x2x300000_S64x1x300000_0_0_0) shapeCasts_S64x1x300000_S64x300000 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  rfl

/-- The targets: row 1 of the edge list. -/
theorem V_v3_eq (c : Dev nD) :
    (Gen.V m c main_v3 : S64x300000.Idx → BitVec 32)
      = shapeCast S64x300000 (extractStridedSlice S64x1x300000 ![0, 1, 0] (m ((c.tc : Thread nD τ).loc main_arg3))
          slices_S64x2x300000_S64x1x300000_0_1_0) shapeCasts_S64x1x300000_S64x300000 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  rfl

/-- The sources repeated along a new leading axis of length 3. -/
theorem V_v16_eq (c : Dev nD) :
    (Gen.V m c main_v16 : S3x64x300000.Idx → BitVec 32)
      = broadcastInDim S3x64x300000 ![0, 1, 2] bcast_S1x64x300000_S3x64x300000_0_1_2
          (broadcastInDim S1x64x300000 ![1, 2] bcast_S64x300000_S1x64x300000_1_2 (Gen.V m c main_v1 : S64x300000.Idx → BitVec 32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp

/-- The targets repeated along a new leading axis of length 3. -/
theorem V_v18_eq (c : Dev nD) :
    (Gen.V m c main_v18 : S3x64x300000.Idx → BitVec 32)
      = broadcastInDim S3x64x300000 ![0, 1, 2] bcast_S1x64x300000_S3x64x300000_0_1_2
          (broadcastInDim S1x64x300000 ![1, 2] bcast_S64x300000_S1x64x300000_1_2 (Gen.V m c main_v3 : S64x300000.Idx → BitVec 32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp

/-- The points with the coordinate axis moved to the front. -/
theorem V_v11_eq (c : Dev nD) :
    (Gen.V m c main_v11 : S3x64x100000.Idx → EReal)
      = transpose S3x64x100000 [2, 0, 1] (m ((c.tc : Thread nD τ).loc main_arg0)) transposes_S64x100000x3_S3x64x100000_2_0_1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp

/-- The normalised source indices of the read, with their trailing unit axis. -/
theorem V_call2_v5_eq (c : Dev nD) :
    (Gen.V m c main_call2_v5 : S3x64x300000x1.Idx → BitVec 32)
      = wrapV (Gen.V m c main_v16 : S3x64x300000.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  rfl

/-- Their range flag. -/
theorem V_call2_v12_eq (c : Dev nD) :
    (Gen.V m c main_call2_v12 : S3x64x300000.Idx → BitVec 1)
      = flagV (Gen.V m c main_call2_v5 : S3x64x300000x1.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  unfold flagV
  with_reducible rfl

/-- The gather of the moved points at them. -/
theorem V_call2_v13_eq (c : Dev nD) :
    (Gen.V m c main_call2_v13 : S3x64x300000.Idx → EReal)
      = Host.gather G (Gen.V m c main_v11 : S3x64x100000.Idx → EReal) (Gen.V m c main_call2_v5 : S3x64x300000x1.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  try with_reducible rfl

/-- The read's result: the gather where the flag is set, the fill elsewhere. -/
theorem V_v20_sel (c : Dev nD) :
    (Gen.V m c main_v20 : S3x64x300000.Idx → EReal)
      = select (Gen.V m c main_call2_v12 : S3x64x300000.Idx → BitVec 1) (Gen.V m c main_call2_v13 : S3x64x300000.Idx → EReal)
          (broadcastInDim S3x64x300000 ![] bcast_S_S3x64x300000 (constant (F := Ideal) S_ .f32 0x7FC00000#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  try with_reducible rfl

/-- The source read as one function of the moved points and the repeated source indices. -/
theorem V_v20_eq (c : Dev nD) :
    (Gen.V m c main_v20 : S3x64x300000.Idx → EReal)
      = takeF (Gen.V m c main_v11 : S3x64x100000.Idx → EReal) (Gen.V m c main_v16 : S3x64x300000.Idx → BitVec 32) := by
  rw [V_v20_sel, V_call2_v12_eq, V_call2_v13_eq, V_call2_v5_eq]
  unfold takeF
  rfl

/-- The normalised target indices of the read, with their trailing unit axis. -/
theorem V_call3_v5_eq (c : Dev nD) :
    (Gen.V m c main_call3_v5 : S3x64x300000x1.Idx → BitVec 32)
      = wrapV (Gen.V m c main_v18 : S3x64x300000.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  rfl

/-- Their range flag. -/
theorem V_call3_v12_eq (c : Dev nD) :
    (Gen.V m c main_call3_v12 : S3x64x300000.Idx → BitVec 1)
      = flagV (Gen.V m c main_call3_v5 : S3x64x300000x1.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  unfold flagV
  with_reducible rfl

/-- The gather of the moved points at them. -/
theorem V_call3_v13_eq (c : Dev nD) :
    (Gen.V m c main_call3_v13 : S3x64x300000.Idx → EReal)
      = Host.gather G (Gen.V m c main_v11 : S3x64x100000.Idx → EReal) (Gen.V m c main_call3_v5 : S3x64x300000x1.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  try with_reducible rfl

/-- The read's result: the gather where the flag is set, the fill elsewhere. -/
theorem V_v21_sel (c : Dev nD) :
    (Gen.V m c main_v21 : S3x64x300000.Idx → EReal)
      = select (Gen.V m c main_call3_v12 : S3x64x300000.Idx → BitVec 1) (Gen.V m c main_call3_v13 : S3x64x300000.Idx → EReal)
          (broadcastInDim S3x64x300000 ![] bcast_S_S3x64x300000 (constant (F := Ideal) S_ .f32 0x7FC00000#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [StableHlo.TRef.ofBuf, StableHlo.TRef.toBuf, cast_drop]
  try with_reducible rfl

/-- The target read as one function of the moved points and the repeated target indices. -/
theorem V_v21_eq (c : Dev nD) :
    (Gen.V m c main_v21 : S3x64x300000.Idx → EReal)
      = takeF (Gen.V m c main_v11 : S3x64x100000.Idx → EReal) (Gen.V m c main_v18 : S3x64x300000.Idx → BitVec 32) := by
  rw [V_v21_sel, V_call3_v12_eq, V_call3_v13_eq, V_call3_v5_eq]
  unfold takeF
  rfl

/-! ## The layout operations read at an index -/

/-- Entry (b, e) of the sources is the edge list at (b, 0, e). -/
theorem V_v1_apply (c : Dev nD) (b : Fin 64) (e : Fin 300000) :
    (Gen.V m c main_v1 : S64x300000.Idx → BitVec 32) (ix2 b e) = src (m ((c.tc : Thread nD τ).loc main_arg3)) b e := by
  rw [V_v1_eq]
  refine (shapeCast_apply _ shapeCasts_S64x1x300000_S64x300000 (ix2 b e) (ix3 b (0 : Fin 1) e) ?_).trans ?_
  · rw [Shape.rowMajor_val_three, Shape.rowMajor_val_two]
    show (b.val * 1 + 0) * 300000 + e.val = b.val * 300000 + e.val
    omega
  · exact extractStridedSlice_apply ![0, 0, 0] _ slices_S64x2x300000_S64x1x300000_0_0_0 (ix3 b (0 : Fin 1) e) (ix3 b (0 : Fin 2) e)
      (fun a => match a with
        | ⟨0, _⟩ => by show b.val = 0 + b.val; omega
        | ⟨1, _⟩ => by show (0 : Nat) = 0 + 0; rfl
        | ⟨2, _⟩ => by show e.val = 0 + e.val; omega)

/-- Entry (b, e) of the targets is the edge list at (b, 1, e). -/
theorem V_v3_apply (c : Dev nD) (b : Fin 64) (e : Fin 300000) :
    (Gen.V m c main_v3 : S64x300000.Idx → BitVec 32) (ix2 b e) = dst (m ((c.tc : Thread nD τ).loc main_arg3)) b e := by
  rw [V_v3_eq]
  refine (shapeCast_apply _ shapeCasts_S64x1x300000_S64x300000 (ix2 b e) (ix3 b (0 : Fin 1) e) ?_).trans ?_
  · rw [Shape.rowMajor_val_three, Shape.rowMajor_val_two]
    show (b.val * 1 + 0) * 300000 + e.val = b.val * 300000 + e.val
    omega
  · exact extractStridedSlice_apply ![0, 1, 0] _ slices_S64x2x300000_S64x1x300000_0_1_0 (ix3 b (0 : Fin 1) e) (ix3 b (1 : Fin 2) e)
      (fun a => match a with
        | ⟨0, _⟩ => by show b.val = 0 + b.val; omega
        | ⟨1, _⟩ => by show (1 : Nat) = 1 + 0; rfl
        | ⟨2, _⟩ => by show e.val = 0 + e.val; omega)

/-- A [64, 300000] array repeated along a new leading axis of length 3, read at (d, b, e), is the array at (b, e). -/
theorem bcast3_apply (x : S64x300000.Idx → BitVec 32) (d : Fin 3) (b : Fin 64) (e : Fin 300000) :
    broadcastInDim S3x64x300000 ![0, 1, 2] bcast_S1x64x300000_S3x64x300000_0_1_2
        (broadcastInDim S1x64x300000 ![1, 2] bcast_S64x300000_S1x64x300000_1_2 x) (ix3 d b e) = x (ix2 b e) := by
  refine (broadcastInDim_apply _ bcast_S1x64x300000_S3x64x300000_0_1_2 _ (ix3 d b e) (ix3 (0 : Fin 1) b e) (fun a => match a with
    | ⟨0, _⟩ => by show (0 : Nat) = if (1 : Nat) = 1 then 0 else d.val; rw [if_pos rfl]
    | ⟨1, _⟩ => by show b.val = if (64 : Nat) = 1 then 0 else b.val; rw [if_neg (by decide)]
    | ⟨2, _⟩ => by show e.val = if (300000 : Nat) = 1 then 0 else e.val; rw [if_neg (by decide)])).trans ?_
  exact broadcastInDim_apply _ bcast_S64x300000_S1x64x300000_1_2 x (ix3 (0 : Fin 1) b e) (ix2 b e) (fun a => match a with
    | ⟨0, _⟩ => by show b.val = if (64 : Nat) = 1 then 0 else b.val; rw [if_neg (by decide)]
    | ⟨1, _⟩ => by show e.val = if (300000 : Nat) = 1 then 0 else e.val; rw [if_neg (by decide)])

/-- Entry (d, b, n) of the moved points is the points at (b, n, d). -/
theorem V_v11_apply (c : Dev nD) (d : Fin 3) (b : Fin 64) (n : Fin 100000) :
    (Gen.V m c main_v11 : S3x64x100000.Idx → EReal) (ix3 d b n)
      = (m ((c.tc : Thread nD τ).loc main_arg0) : Pts) (ix3 b n d) := by
  rw [V_v11_eq]
  exact transpose_apply [2, 0, 1] _ transposes_S64x100000x3_S3x64x100000_2_0_1 (ix3 d b n) (ix3 b n d) (fun a => match a with
    | ⟨0, _⟩ => rfl
    | ⟨1, _⟩ => rfl
    | ⟨2, _⟩ => rfl)

end TakesP

open TakesP

/-! ## The two gathered point arrays at an index -/

/-- The gathered source points, coordinate axis first. -/
theorem v20_apply (c : Dev nD) (d : Fin 3) (b : Fin 64) (e : Fin 300000) :
    (Gen.V m c main_v20 : S3x64x300000.Idx → EReal) (ix3 d b e)
      = pSrc (m ((c.tc : Thread nD τ).loc main_arg0)) (m ((c.tc : Thread nD τ).loc main_arg3)) b e d := by
  rw [V_v20_eq, takeF_apply, V_v16_eq, bcast3_apply, V_v1_apply, V_v11_apply]
  rfl

/-- The gathered target points, coordinate axis first. -/
theorem v21_apply (c : Dev nD) (d : Fin 3) (b : Fin 64) (e : Fin 300000) :
    (Gen.V m c main_v21 : S3x64x300000.Idx → EReal) (ix3 d b e)
      = pDst (m ((c.tc : Thread nD τ).loc main_arg0)) (m ((c.tc : Thread nD τ).loc main_arg3)) b e d := by
  rw [V_v21_eq, takeF_apply, V_v18_eq, bcast3_apply, V_v3_apply, V_v11_apply]
  rfl

end Cert.KernelIdeal.Windows

end
-- ==== Proof.KernelTakesN.lean ====
/-
  What the region is handed for the ground-truth normals and the mask, before padding: entry (d, b, e) of the
  gathered normal array is coordinate d of the normal the COMBINED index names (the nearest ground-truth point of the
  edge's source, itself read through the source index), or the fill; entry (b, e) of the mask array is the mask.

  The host operations before the region run in stretches. Each stretch is read here from ANY contents of the core's
  buffers: what it leaves in the buffer it is asked about, at one entry, as a function of what the earlier buffers hold
  at the entries that one depends on. The two take-along-axis calls are each one stretch: the indices are normalised
  (a negative one counts from the end of the axis), tested against the axis (an `and` over the index vector's axis of
  length 1), the operand gathered at the clamped index, and the fill word selected where the test fails. The entry
  contents are then the stretches composed, the later stretches leaving the two arrays untouched.
-/
import proofs.«105622_j89438398971910_1_alg».proof.Proof.Gen.KernelIdeal.Frame
import proofs.«105622_j89438398971910_1_alg».proof.Proof.Spec
import proofs.«105622_j89438398971910_1_alg».proof.Proof.KernelGatherF
import Idealize.ShloMosaic.Lib.ValueIdx
import Idealize.ShloMosaic.Lib.Pipeline.Value
import Idealize.ShloMosaic.Lib.StableHlo.Run
import Idealize.ShloMosaic.PureOps.Reduce

noncomputable section

open scoped BigOperators

namespace Cert.KernelIdeal.Windows

open Cert.KernelIdeal Cert.KernelIdeal.Gen Cert.NormalLoss Idealize.ShloMosaic Idealize.ShloMosaic.ValueIdx Idealize.ShloMosaic.TcCoe Idealize.SL.Sem

/-! ## The integer gather along axis 1 with axis 0 a batch axis, read at an index -/

/-- Entry `(b, e)` of the gather of a `[64, 100000]` table at start indices `[64, 300000, 1]`, axis 0 of both a batch
    axis: the table's entry `(b, n)`, `n` the start index at `(b, e, 0)` read signed and clamped into the axis. -/
theorem gatherI_apply {α : Type} (X : S64x100000.Idx → α) (I : IVec S64x300000x1 32) (b : Fin 64) (e : Fin 300000) :
    Host.gather gather_S64x100000_S64x300000x1_S64x300000_n_1_0_0_1_2_11 X I (ix2 b e)
      = X (ix2 b ⟨min (I (ix3 b e (0 : Fin 1))).toInt.toNat 99999, by omega⟩) := by
  unfold Host.gather
  congr 1
  funext a
  refine Fin.ext ?_
  show gather_S64x100000_S64x300000x1_S64x300000_n_1_0_0_1_2_11.start (ix2 b e) I a
      + gather_S64x100000_S64x300000x1_S64x300000_n_1_0_0_1_2_11.batchCoord (ix2 b e) a
      + gather_S64x100000_S64x300000x1_S64x300000_n_1_0_0_1_2_11.offCoord (ix2 b e) a = _
  match a with
  | ⟨0, _⟩ =>
    have hb : (⟨0, by decide⟩ : Fin S64x100000.rank) ∈ gather_S64x100000_S64x300000x1_S64x300000_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    have hc : (⟨1, by decide⟩ : Fin S64x100000.rank) ∈ gather_S64x100000_S64x300000x1_S64x300000_n_1_0_0_1_2_11.collapsedSliceDims :=
      List.mem_singleton.mpr rfl
    have hm : (⟨1, by decide⟩ : Fin S64x100000.rank) ∈ gather_S64x100000_S64x300000x1_S64x300000_n_1_0_0_1_2_11.startIndexMap :=
      List.mem_singleton.mpr rfl
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 hc)]
    unfold GatherDims.start
    rw [dif_pos hm]
    have hsi : gather_S64x100000_S64x300000x1_S64x300000_n_1_0_0_1_2_11.siIdx (ix2 b e)
        ⟨List.idxOf (⟨1, by decide⟩ : Fin S64x100000.rank) gather_S64x100000_S64x300000x1_S64x300000_n_1_0_0_1_2_11.startIndexMap,
          List.idxOf_lt_length_iff.2 hm⟩ = ix3 b e (0 : Fin 1) := by
      funext k; refine Fin.ext ?_
      match k with
      | ⟨0, _⟩ => rfl
      | ⟨1, _⟩ => rfl
      | ⟨2, _⟩ => rfl
    rw [hsi]
    rfl

namespace TakesN

/-- A transport along an equation of a type with itself is the identity. -/
theorem cast_self {α : Sort _} (h : α = α) (a : α) : cast h a = a := by
  rw [cast_eq]

/-! ## An `and`-reduction over an axis of length 1 -/

/-- A fold over the coordinates of an axis of length 1 meets the one coordinate. -/
theorem fold_fin_one {α : Type} (op : α → α → α) [Std.Commutative op] [Std.Associative op] (init : α) (n : Nat) (hn : n = 1)
    (f : Fin n → α) : (Finset.univ : Finset (Fin n)).fold op init f = op (f ⟨0, by omega⟩) init := by
  subst hn
  rw [Finset.univ_unique, Finset.fold_singleton]
  rfl

/-- Entry `(b, e)` of the `and`-reduction of a `[64, 300000, 1]` array of bits over its last axis, from the bit 1: the one
    bit at `(b, e, 0)`. -/
theorem reduceAndI_apply (x : S64x300000x1.Idx → BitVec 1) (b : Fin 64) (e : Fin 300000) :
    Host.reduce IntOp.andi x (constantI S_ 1 1#1) reducesTo_S64x300000x1_S64x300000_d2 h_S_ (ix2 b e) = x (ix3 b e (0 : Fin 1)) := by
  have hR : S64x300000x1.Reduces [2] S64x300000 := by decide
  rw [Host.reduce_eq_fold_single IntOp.andi x _ reducesTo_S64x300000x1_S64x300000_d2 hR h_S_ (ix2 b e)]
  refine (fold_fin_one IntOp.andi _ _ rfl _).trans ?_
  have hl : hR.lift (ix2 b e) ⟨0, by decide⟩ = ix3 b e (0 : Fin 1) := by
    funext k; refine Fin.ext ?_
    match k with
    | ⟨0, _⟩ => rfl
    | ⟨1, _⟩ => rfl
    | ⟨2, _⟩ => rfl
  show IntOp.andi (x (hR.lift (ix2 b e) ⟨0, _⟩)) 1#1 = _
  rw [hl]
  rcases BitVec.eq_zero_or_eq_one (x (ix3 b e (0 : Fin 1))) with h | h <;> rw [h] <;> rfl

/-! ## The integer take along axis 1, as one function of the table and the indices -/

/-- The indices normalised (a negative one counts from the end of the axis), the index vector's axis of length 1 appended. -/
def normI (I : IVec S64x300000 32) : IVec S64x300000x1 32 :=
  shapeCast S64x300000x1
    (select (cmpi .slt I (broadcastInDim S64x300000 ![] bcast_S_S64x300000 (constantI S_ 32 0#32)))
      (addi I (broadcastInDim S64x300000 ![] bcast_S_S64x300000 (constantI S_ 32 100000#32))) I)
    shapeCasts_S64x300000_S64x300000x1

/-- Its entry `(b, e, 0)` is the normalised index of entry `(b, e)`. -/
theorem normI_apply (I : IVec S64x300000 32) (b : Fin 64) (e : Fin 300000) :
    normI I (ix3 b e (0 : Fin 1)) = wrap (I (ix2 b e)) := by
  unfold normI
  refine (shapeCast_apply _ shapeCasts_S64x300000_S64x300000x1 (ix3 b e (0 : Fin 1)) (ix2 b e) ?_).trans rfl
  rewrite [Shape.rowMajor_val_two, Shape.rowMajor_val_three]
  show b.val * 300000 + e.val = (b.val * 300000 + e.val) * 1 + 0
  omega

/-- The take along axis 1 of a `[64, 100000]` table of words at `[64, 300000]` indices: the range test on the
    normalised indices, reduced over the index vector's axis; the gather; the select against the fill word. -/
def takeI (K : IVec S64x100000 32) (I : IVec S64x300000 32) : IVec S64x300000 32 :=
  select
    (Host.reduce IntOp.andi
      (andi (cmpi .sge (normI I) (broadcastInDim S64x300000x1 ![] bcast_S_S64x300000x1 (constantI S_ 32 0#32)))
        (cmpi .sle (normI I) (broadcastInDim S64x300000x1 ![0, 1, 2] bcast_S1x1x1_S64x300000x1_0_1_2
          (broadcastInDim S1x1x1 ![2] bcast_S1_S1x1x1_2 (constantI S1 32 99999#32)))))
      (constantI S_ 1 1#1) reducesTo_S64x300000x1_S64x300000_d2 h_S_)
    (Host.gather gather_S64x100000_S64x300000x1_S64x300000_n_1_0_0_1_2_11 K (normI I))
    (broadcastInDim S64x300000 ![] bcast_S_S64x300000 (constantI S_ 32 2147483648#32))

/-- Entry `(b, e)` of the take: the table's entry at the row the index names, or the fill word when the index fails
    the range test. -/
theorem takeI_apply (K : IVec S64x100000 32) (I : IVec S64x300000 32) (b : Fin 64) (e : Fin 300000) :
    takeI K I (ix2 b e) = Scalar.select (inb (I (ix2 b e))) (K (ix2 b (row (I (ix2 b e))))) fillI := by
  unfold takeI
  rw [select_apply, reduceAndI_apply, gatherI_apply]
  show Scalar.select (IntOp.andi (IntOp.cmpi .sge (normI I (ix3 b e (0 : Fin 1))) 0#32)
      (IntOp.cmpi .sle (normI I (ix3 b e (0 : Fin 1))) 99999#32)) _ 2147483648#32 = _
  simp only [normI_apply]
  rfl

/-! ## The float take along the last axis of a `[3, 64, 100000]` array, as one function of the array and the indices -/

/-- Entry `(d, b, e)` of the `and`-reduction of a `[3, 64, 300000, 1]` array of bits over its last axis, from the bit 1:
    the one bit at `(d, b, e, 0)`. -/
theorem reduceAndF_apply (x : S3x64x300000x1.Idx → BitVec 1) (d : Fin 3) (b : Fin 64) (e : Fin 300000) :
    Host.reduce IntOp.andi x (constantI S_ 1 1#1) reducesTo_S3x64x300000x1_S3x64x300000_d3 h_S_ (ix3 d b e)
      = x (ix4 d b e (0 : Fin 1)) := by
  have hR : S3x64x300000x1.Reduces [3] S3x64x300000 := by decide
  rw [Host.reduce_eq_fold_single IntOp.andi x _ reducesTo_S3x64x300000x1_S3x64x300000_d3 hR h_S_ (ix3 d b e)]
  refine (fold_fin_one IntOp.andi _ _ rfl _).trans ?_
  have hl : hR.lift (ix3 d b e) ⟨0, by decide⟩ = ix4 d b e (0 : Fin 1) := by
    funext k; refine Fin.ext ?_
    match k with
    | ⟨0, _⟩ => rfl
    | ⟨1, _⟩ => rfl
    | ⟨2, _⟩ => rfl
    | ⟨3, _⟩ => rfl
  show IntOp.andi (x (hR.lift (ix3 d b e) ⟨0, _⟩)) 1#1 = _
  rw [hl]
  rcases BitVec.eq_zero_or_eq_one (x (ix4 d b e (0 : Fin 1))) with h | h <;> rw [h] <;> rfl

/-- The indices normalised, the index vector's axis of length 1 appended. -/
def normF (I : IVec S3x64x300000 32) : IVec S3x64x300000x1 32 :=
  shapeCast S3x64x300000x1
    (select (cmpi .slt I (broadcastInDim S3x64x300000 ![] bcast_S_S3x64x300000 (constantI S_ 32 0#32)))
      (addi I (broadcastInDim S3x64x300000 ![] bcast_S_S3x64x300000 (constantI S_ 32 100000#32))) I)
    shapeCasts_S3x64x300000_S3x64x300000x1

/-- Its entry `(d, b, e, 0)` is the normalised index of entry `(d, b, e)`. -/
theorem normF_apply (I : IVec S3x64x300000 32) (d : Fin 3) (b : Fin 64) (e : Fin 300000) :
    normF I (ix4 d b e (0 : Fin 1)) = wrap (I (ix3 d b e)) := by
  unfold normF
  refine (shapeCast_apply _ shapeCasts_S3x64x300000_S3x64x300000x1 (ix4 d b e (0 : Fin 1)) (ix3 d b e) ?_).trans rfl
  rewrite [Shape.rowMajor_val_three, Shape.rowMajor_val_four]
  show (d.val * 64 + b.val) * 300000 + e.val = ((d.val * 64 + b.val) * 300000 + e.val) * 1 + 0
  omega

/-- The take along the last axis of a `[3, 64, 100000]` array of numbers at `[3, 64, 300000]` indices: the range test
    on the normalised indices, reduced over the index vector's axis; the gather; the select against the fill word. -/
def takeF (X : S3x64x100000.Idx → EReal) (I : IVec S3x64x300000 32) : S3x64x300000.Idx → EReal :=
  select
    (Host.reduce IntOp.andi
      (andi (cmpi .sge (normF I) (broadcastInDim S3x64x300000x1 ![] bcast_S_S3x64x300000x1 (constantI S_ 32 0#32)))
        (cmpi .sle (normF I) (broadcastInDim S3x64x300000x1 ![0, 1, 2, 3] bcast_S1x1x1x1_S3x64x300000x1_0_1_2_3
          (broadcastInDim S1x1x1x1 ![3] bcast_S1_S1x1x1x1_3 (constantI S1 32 99999#32)))))
      (constantI S_ 1 1#1) reducesTo_S3x64x300000x1_S3x64x300000_d3 h_S_)
    (Host.gather gather_S3x64x100000_S3x64x300000x1_S3x64x300000_n_2_01_01_2_3_111 X (normF I))
    (broadcastInDim S3x64x300000 ![] bcast_S_S3x64x300000 (constant (F := Ideal) S_ .f32 0x7FC00000#32))

/-- Entry `(d, b, e)` of the take: the array's entry at the row the index names, or the fill word when the index fails
    the range test. -/
theorem takeF_apply (X : S3x64x100000.Idx → EReal) (I : IVec S3x64x300000 32) (d : Fin 3) (b : Fin 64) (e : Fin 300000) :
    takeF X I (ix3 d b e) = Scalar.select (inb (I (ix3 d b e))) (X (ix3 d b (row (I (ix3 d b e))))) fillF := by
  unfold takeF
  rw [select_apply, reduceAndF_apply, gatherF_apply]
  show Scalar.select (IntOp.andi (IntOp.cmpi .sge (normF I (ix4 d b e (0 : Fin 1))) 0#32)
      (IntOp.cmpi .sle (normF I (ix4 d b e (0 : Fin 1))) 99999#32)) _ (Ideal.ofBits .f32 0x7FC00000#32) = _
  simp only [normF_apply]
  rfl

/-! ## The stretches of host operations, each from ANY contents `W` of the core's buffers -/

section Stretches
variable (W : Valuation τ sig (Elt Ideal))

/-- Stretch 0 leaves the sources, `[64, 300000]`: row 0 of the edge list. -/
theorem s0_v1 (b : Fin 64) (e : Fin 300000) :
    (StableHlo.after Gen.hostOps0 W (Proc.devRef .tc main_v1) : IVec S64x300000 32) (ix2 b e)
      = (W (Proc.devRef .tc main_arg3) : IVec S64x2x300000 32) (ix3 b (0 : Fin 2) e) := by
  simp only [Gen.hostOps0]
  after_results_simp
  refine (shapeCast_apply _ shapeCasts_S64x1x300000_S64x300000 (ix2 b e) (ix3 b (0 : Fin 1) e) ?_).trans ?_
  · rewrite [Shape.rowMajor_val_two, Shape.rowMajor_val_three]
    show (b.val * 1 + 0) * 300000 + e.val = b.val * 300000 + e.val
    omega
  exact extractStridedSlice_apply ![0, 0, 0] _ slices_S64x2x300000_S64x1x300000_0_0_0 (ix3 b (0 : Fin 1) e)
    (ix3 b (0 : Fin 2) e) (fun a => match a with
      | ⟨0, _⟩ => by show b.val = 0 + b.val; omega
      | ⟨1, _⟩ => by show 0 = 0 + 0; omega
      | ⟨2, _⟩ => by show e.val = 0 + e.val; omega)

/-- Stretch 0 leaves the targets, `[64, 300000]`: row 1 of the edge list. -/
theorem s0_v3 (b : Fin 64) (e : Fin 300000) :
    (StableHlo.after Gen.hostOps0 W (Proc.devRef .tc main_v3) : IVec S64x300000 32) (ix2 b e)
      = (W (Proc.devRef .tc main_arg3) : IVec S64x2x300000 32) (ix3 b (1 : Fin 2) e) := by
  simp only [Gen.hostOps0]
  after_results_simp
  refine (shapeCast_apply _ shapeCasts_S64x1x300000_S64x300000 (ix2 b e) (ix3 b (0 : Fin 1) e) ?_).trans ?_
  · rewrite [Shape.rowMajor_val_two, Shape.rowMajor_val_three]
    show (b.val * 1 + 0) * 300000 + e.val = b.val * 300000 + e.val
    omega
  exact extractStridedSlice_apply ![0, 1, 0] _ slices_S64x2x300000_S64x1x300000_0_1_0 (ix3 b (0 : Fin 1) e)
    (ix3 b (1 : Fin 2) e) (fun a => match a with
      | ⟨0, _⟩ => by show b.val = 0 + b.val; omega
      | ⟨1, _⟩ => by show 1 = 1 + 0; omega
      | ⟨2, _⟩ => by show e.val = 0 + e.val; omega)

/-- Stretch 0 leaves the mask as numbers. -/
theorem s0_v9 (b : Fin 64) (e : Fin 300000) :
    (StableHlo.after Gen.hostOps0 W (Proc.devRef .tc main_v9) : S64x300000.Idx → EReal) (ix2 b e)
      = maskW (W (Proc.devRef .tc main_arg3)) b e := by
  have h1 := s0_v1 W b e
  have h3 := s0_v3 W b e
  simp only [Gen.hostOps0] at h1 h3 ⊢
  simp (disch := decide) only [StableHlo.after_cons, StableHlo.after_nil, StableHlo.nullary_result', StableHlo.unary_result', StableHlo.binary_result', StableHlo.ternary_result', StableHlo.quaternary_result', StableHlo.reshape_result', StableHlo.nullary_result_ne', StableHlo.unary_result_ne', StableHlo.binary_result_ne', StableHlo.ternary_result_ne', StableHlo.quaternary_result_ne', StableHlo.reshape_result_ne'] at h1 h3 ⊢
  exact congrArg₂ (fun x y : BitVec 32 => FloatOps.uitofp (F := Ideal) .f32 (IntOp.ori (IntOp.cmpi .ne x 0#32) (IntOp.cmpi .ne y 0#32))) h1 h3

/-- Stretch 0 writes neither the nearest-point table … -/
theorem s0_arg1 : StableHlo.after Gen.hostOps0 W (Proc.devRef .tc main_arg1) = W (Proc.devRef .tc main_arg1) := by
  simp only [Gen.hostOps0]
  after_results_simp

/-- … nor the ground-truth normals. -/
theorem s0_arg2 : StableHlo.after Gen.hostOps0 W (Proc.devRef .tc main_arg2) = W (Proc.devRef .tc main_arg2) := by
  simp only [Gen.hostOps0]
  after_results_simp

/-- Stretch 1 (the integer take) leaves the combined index: the nearest-point table read at the sources. -/
theorem s1_v10 (b : Fin 64) (e : Fin 300000) :
    (StableHlo.after Gen.hostOps0_1 W (Proc.devRef .tc main_v10) : IVec S64x300000 32) (ix2 b e)
      = Scalar.select (inb ((W (Proc.devRef .tc main_v1) : IVec S64x300000 32) (ix2 b e)))
          ((W (Proc.devRef .tc main_arg1) : IVec S64x100000 32) (ix2 b (row ((W (Proc.devRef .tc main_v1) : IVec S64x300000 32) (ix2 b e)))))
          fillI := by
  refine Eq.trans ?_ (takeI_apply (W (Proc.devRef .tc main_arg1)) (W (Proc.devRef .tc main_v1)) b e)
  unfold takeI normI
  simp only [Gen.hostOps0_1]
  after_results_simp
  simp only [StableHlo.TRef.ofBuf, StableHlo.TRef.toBuf, cast_self]
  rfl

/-- Stretch 1 does not write the ground-truth normals. -/
theorem s1_arg2 : StableHlo.after Gen.hostOps0_1 W (Proc.devRef .tc main_arg2) = W (Proc.devRef .tc main_arg2) := by
  simp only [Gen.hostOps0_1]
  after_results_simp

/-- Stretch 2 leaves the ground-truth normals with the coordinate axis first, `[3, 64, 100000]` … -/
theorem s2_v12 (d : Fin 3) (b : Fin 64) (n : Fin 100000) :
    (StableHlo.after Gen.hostOps0_2 W (Proc.devRef .tc main_v12) : S3x64x100000.Idx → EReal) (ix3 d b n)
      = (W (Proc.devRef .tc main_arg2) : S64x100000x3.Idx → EReal) (ix3 b n d) := by
  simp only [Gen.hostOps0_2]
  after_results_simp
  exact transpose_apply [2, 0, 1] _ transposes_S64x100000x3_S3x64x100000_2_0_1 (ix3 d b n) (ix3 b n d) (fun a => match a with
    | ⟨0, _⟩ => rfl
    | ⟨1, _⟩ => rfl
    | ⟨2, _⟩ => rfl)

/-- … and the combined index repeated along a new leading axis of length 3, `[3, 64, 300000]`. -/
theorem s2_v14 (d : Fin 3) (b : Fin 64) (e : Fin 300000) :
    (StableHlo.after Gen.hostOps0_2 W (Proc.devRef .tc main_v14) : IVec S3x64x300000 32) (ix3 d b e)
      = (W (Proc.devRef .tc main_v10) : IVec S64x300000 32) (ix2 b e) := by
  simp only [Gen.hostOps0_2]
  after_results_simp
  refine (broadcastInDim_apply _ bcast_S1x64x300000_S3x64x300000_0_1_2 _ (ix3 d b e) (ix3 (0 : Fin 1) b e) (fun a => match a with
    | ⟨0, _⟩ => by show 0 = if (1 : Nat) = 1 then 0 else d.val; rw [if_pos rfl]
    | ⟨1, _⟩ => by show b.val = if (64 : Nat) = 1 then 0 else b.val; rw [if_neg (by decide)]
    | ⟨2, _⟩ => by show e.val = if (300000 : Nat) = 1 then 0 else e.val; rw [if_neg (by decide)])).trans ?_
  exact broadcastInDim_apply _ bcast_S64x300000_S1x64x300000_1_2 _ (ix3 (0 : Fin 1) b e) (ix2 b e) (fun a => match a with
    | ⟨0, _⟩ => by show b.val = if (64 : Nat) = 1 then 0 else b.val; rw [if_neg (by decide)]
    | ⟨1, _⟩ => by show e.val = if (300000 : Nat) = 1 then 0 else e.val; rw [if_neg (by decide)])

/-- Stretch 3 (the float take) leaves the gathered normals: the coordinate-first normals read at the repeated combined
    index. -/
theorem s3_v19 (d : Fin 3) (b : Fin 64) (e : Fin 300000) :
    (StableHlo.after Gen.hostOps0_3 W (Proc.devRef .tc main_v19) : S3x64x300000.Idx → EReal) (ix3 d b e)
      = Scalar.select (inb ((W (Proc.devRef .tc main_v14) : IVec S3x64x300000 32) (ix3 d b e)))
          ((W (Proc.devRef .tc main_v12) : S3x64x100000.Idx → EReal)
            (ix3 d b (row ((W (Proc.devRef .tc main_v14) : IVec S3x64x300000 32) (ix3 d b e)))))
          fillF := by
  refine Eq.trans ?_ (takeF_apply (W (Proc.devRef .tc main_v12)) (W (Proc.devRef .tc main_v14)) d b e)
  unfold takeF normF
  simp only [Gen.hostOps0_3]
  after_results_simp
  simp only [StableHlo.TRef.ofBuf, StableHlo.TRef.toBuf, cast_self]
  rfl

/-- The stretches after the float take (the two other takes and the four paddings) do not write the gathered normals. -/
theorem tail_v19 :
    StableHlo.after Gen.hostOps0_13 (StableHlo.after Gen.hostOps0_12 (StableHlo.after Gen.hostOps0_11 (StableHlo.after Gen.hostOps0_10 (StableHlo.after Gen.hostOps0_9 (StableHlo.after Gen.hostOps0_8 (StableHlo.after Gen.hostOps0_7 (StableHlo.after Gen.hostOps0_6 (StableHlo.after Gen.hostOps0_5 (StableHlo.after Gen.hostOps0_4 (W)))))))))) (Proc.devRef .tc main_v19)
      = W (Proc.devRef .tc main_v19) := by
  simp only [Gen.hostOps0_4, Gen.hostOps0_5, Gen.hostOps0_6, Gen.hostOps0_7, Gen.hostOps0_8, Gen.hostOps0_9, Gen.hostOps0_10, Gen.hostOps0_11, Gen.hostOps0_12, Gen.hostOps0_13]
  after_results_simp

/-- The stretches after stretch 0 do not write the mask. -/
theorem tail_v9 :
    StableHlo.after Gen.hostOps0_13 (StableHlo.after Gen.hostOps0_12 (StableHlo.after Gen.hostOps0_11 (StableHlo.after Gen.hostOps0_10 (StableHlo.after Gen.hostOps0_9 (StableHlo.after Gen.hostOps0_8 (StableHlo.after Gen.hostOps0_7 (StableHlo.after Gen.hostOps0_6 (StableHlo.after Gen.hostOps0_5 (StableHlo.after Gen.hostOps0_4 (StableHlo.after Gen.hostOps0_3 (StableHlo.after Gen.hostOps0_2 (StableHlo.after Gen.hostOps0_1 (W))))))))))))) (Proc.devRef .tc main_v9)
      = W (Proc.devRef .tc main_v9) := by
  simp only [Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13]
  after_results_simp

end Stretches

/-! ## The contents when the region is entered -/

variable (m : (ℓ : Loc nD τ sig) → Buf (Elt Ideal) ℓ)

/-- The contents when the region is entered: the fourteen stretches run one after the other from the launch contents. -/
theorem V0_nested (c : Dev nD) :
    Gen.V0 m c = StableHlo.after Gen.hostOps0_13 (StableHlo.after Gen.hostOps0_12 (StableHlo.after Gen.hostOps0_11 (StableHlo.after Gen.hostOps0_10 (StableHlo.after Gen.hostOps0_9 (StableHlo.after Gen.hostOps0_8 (StableHlo.after Gen.hostOps0_7 (StableHlo.after Gen.hostOps0_6 (StableHlo.after Gen.hostOps0_5 (StableHlo.after Gen.hostOps0_4 (StableHlo.after Gen.hostOps0_3 (StableHlo.after Gen.hostOps0_2 (StableHlo.after Gen.hostOps0_1 (StableHlo.after Gen.hostOps0 (fun b => m (c, b))))))))))))))) := by
  dsimp only [Gen.V0]
  simp only [List.flatten_cons, List.flatten_nil, List.append_nil, StableHlo.after_append]

end TakesN

open TakesN

variable (m : (ℓ : Loc nD τ sig) → Buf (Elt Ideal) ℓ)

/-- The gathered ground-truth normals, coordinate axis first. -/
theorem v19_apply (c : Dev nD) (d : Fin 3) (b : Fin 64) (e : Fin 300000) :
    (Gen.V m c main_v19 : S3x64x300000.Idx → EReal) (ix3 d b e)
      = gNrm (m ((c.tc : Thread nD τ).loc main_arg2)) (m ((c.tc : Thread nD τ).loc main_arg1))
          (m ((c.tc : Thread nD τ).loc main_arg3)) b e d := by
  dsimp only [Gen.V]
  rw [V0_nested, tail_v19, s3_v19, s2_v14, s2_v12, s1_v10, s1_arg2, s0_v1, s0_arg1, s0_arg2]
  rfl

/-- The mask as numbers. -/
theorem v9_apply (c : Dev nD) (b : Fin 64) (e : Fin 300000) :
    (Gen.V m c main_v9 : S64x300000.Idx → EReal) (ix2 b e) = maskW (m ((c.tc : Thread nD τ).loc main_arg3)) b e := by
  dsimp only [Gen.V]
  rw [V0_nested, tail_v9, s0_v9]

end Cert.KernelIdeal.Windows

end
-- ==== Proof.KernelWindows.lean ====
/-
  The four arrays the region is handed: each gathered array, padded with the pad word along the edge axis from
  300000 to 301056 columns, is the specification's window array.
-/
import proofs.«105622_j89438398971910_1_alg».proof.Proof.Gen.KernelIdeal.Frame
import proofs.«105622_j89438398971910_1_alg».proof.Proof.Spec
import proofs.«105622_j89438398971910_1_alg».proof.Proof.KernelTakesP
import proofs.«105622_j89438398971910_1_alg».proof.Proof.KernelTakesN
import Idealize.ShloMosaic.Lib.ValueIdx
import Idealize.ShloMosaic.Lib.Pipeline.Value
import Idealize.ShloMosaic.Lib.StableHlo.Run
import Idealize.ShloMosaic.Lib.KernelVsHost

noncomputable section

open scoped BigOperators

namespace Cert.KernelIdeal.Windows

open Cert.KernelIdeal Cert.KernelIdeal.Gen Cert.NormalLoss Idealize.ShloMosaic Idealize.ShloMosaic.ValueIdx Idealize.ShloMosaic.TcCoe Idealize.SL.Sem

variable (m : (ℓ : Loc nD τ sig) → Buf (Elt Ideal) ℓ)

/-! ## The pad value -/

/-- The integer 0 converted, read at the one index of a rank-0 array, is the pad word. -/
theorem padValue_first :
    (sitofp (F := Ideal) .f32 (constantI S_ 32 0#32)) (Shape.Idx.first h_S_) = padW := rfl

/-! ## A padded array read at an index -/

/-- A [3, 64, 300000] array padded by 1056 columns at the end of its last axis is the specification's padding of the
    family of its entries. -/
theorem pad_eq_pad3 (x : S3x64x300000.Idx → EReal) (f : Fin 3 → Fin 64 → Fin 300000 → EReal)
    (hx : ∀ d b e, x (ix3 d b e) = f d b e) :
    pad S3x64x301056 ![0, 0, 0] ![0, 0, 1056] ![0, 0, 0] x (sitofp (F := Ideal) .f32 (constantI S_ 32 0#32))
        pads_S3x64x300000_S3x64x301056_000_000_010560 h_S_
      = pad3 f := by
  funext j
  obtain ⟨d, b, q, rfl⟩ : ∃ (d : Fin 3) (b : Fin 64) (q : Fin 301056), j = ix3 d b q := ⟨j 0, j 1, j 2, eq_ix3 j⟩
  by_cases h : q.val < 300000
  · refine (pad_apply_of_inside _ _ _ x _ _ _ (ix3 d b q) (ix3 d b (⟨q.val, h⟩ : Fin 300000)) ?_).trans ?_
    · intro a
      match a with
      | ⟨0, _⟩ => show d.val = 0 + d.val * (0 + 1); omega
      | ⟨1, _⟩ => show b.val = 0 + b.val * (0 + 1); omega
      | ⟨2, _⟩ => show q.val = 0 + q.val * (0 + 1); omega
    · rw [hx]
      symm
      unfold pad3
      exact dif_pos h
  · refine (pad_apply_of_not_inside _ _ _ x _ _ _ (ix3 d b q) (2 : Fin 3) ?_).trans ?_
    · show ¬(0 ≤ q.val ∧ (q.val - 0) % (0 + 1) = 0 ∧ (q.val - 0) / (0 + 1) < 300000)
      omega
    · rw [padValue_first]
      symm
      unfold pad3
      exact dif_neg h

/-- A [64, 300000] array padded by 1056 columns at the end of its last axis is the specification's padding of the
    family of its entries. -/
theorem pad_eq_pad2 (x : S64x300000.Idx → EReal) (f : Fin 64 → Fin 300000 → EReal)
    (hx : ∀ b e, x (ix2 b e) = f b e) :
    pad S64x301056 ![0, 0] ![0, 1056] ![0, 0] x (sitofp (F := Ideal) .f32 (constantI S_ 32 0#32))
        pads_S64x300000_S64x301056_000_010560 h_S_
      = pad2 f := by
  funext j
  obtain ⟨b, q, rfl⟩ : ∃ (b : Fin 64) (q : Fin 301056), j = ix2 b q := ⟨j 0, j 1, eq_ix2 j⟩
  by_cases h : q.val < 300000
  · refine (pad_apply_of_inside _ _ _ x _ _ _ (ix2 b q) (ix2 b (⟨q.val, h⟩ : Fin 300000)) ?_).trans ?_
    · intro a
      match a with
      | ⟨0, _⟩ => show b.val = 0 + b.val * (0 + 1); omega
      | ⟨1, _⟩ => show q.val = 0 + q.val * (0 + 1); omega
    · rw [hx]
      symm
      unfold pad2
      exact dif_pos h
  · refine (pad_apply_of_not_inside _ _ _ x _ _ _ (ix2 b q) (1 : Fin 2) ?_).trans ?_
    · show ¬(0 ≤ q.val ∧ (q.val - 0) % (0 + 1) = 0 ∧ (q.val - 0) / (0 + 1) < 300000)
      omega
    · rw [padValue_first]
      symm
      unfold pad2
      exact dif_neg h

/-! ## Each window's array is the padding of a gathered array

The operations from the first pad constant on write none of the gathered arrays, so whatever the contents are when
they begin, the padded array afterwards is the pad of the gathered array found afterwards. -/

/-- Window 0's array is the padded array of gathered source points. -/
theorem v22_eq (c : Dev nD) :
    (Gen.V m c main_v22 : S3x64x301056.Idx → EReal)
      = pad S3x64x301056 ![0, 0, 0] ![0, 0, 1056] ![0, 0, 0] (Gen.V m c main_v20 : S3x64x300000.Idx → EReal)
          (sitofp (F := Ideal) .f32 (constantI S_ 32 0#32)) pads_S3x64x300000_S3x64x301056_000_000_010560 h_S_ := by
  dsimp only [Gen.V, Gen.V0]
  simp only [List.flatten_cons, List.flatten_nil, List.append_nil, StableHlo.after_append]
  generalize StableHlo.after (Gen.hostOps0_5 (F := Ideal)) _ = W
  simp only [Gen.hostOps0_6, Gen.hostOps0_7, Gen.hostOps0_8, Gen.hostOps0_9, Gen.hostOps0_10, Gen.hostOps0_11,
    Gen.hostOps0_12, Gen.hostOps0_13]
  after_results
  rfl

/-- Window 1's array is the padded array of gathered target points. -/
theorem v23_eq (c : Dev nD) :
    (Gen.V m c main_v23 : S3x64x301056.Idx → EReal)
      = pad S3x64x301056 ![0, 0, 0] ![0, 0, 1056] ![0, 0, 0] (Gen.V m c main_v21 : S3x64x300000.Idx → EReal)
          (sitofp (F := Ideal) .f32 (constantI S_ 32 0#32)) pads_S3x64x300000_S3x64x301056_000_000_010560 h_S_ := by
  dsimp only [Gen.V, Gen.V0]
  simp only [List.flatten_cons, List.flatten_nil, List.append_nil, StableHlo.after_append]
  generalize StableHlo.after (Gen.hostOps0_5 (F := Ideal)) _ = W
  simp only [Gen.hostOps0_6, Gen.hostOps0_7, Gen.hostOps0_8, Gen.hostOps0_9, Gen.hostOps0_10, Gen.hostOps0_11,
    Gen.hostOps0_12, Gen.hostOps0_13]
  after_results
  rfl

/-- Window 2's array is the padded array of gathered normals. -/
theorem v24_eq (c : Dev nD) :
    (Gen.V m c main_v24 : S3x64x301056.Idx → EReal)
      = pad S3x64x301056 ![0, 0, 0] ![0, 0, 1056] ![0, 0, 0] (Gen.V m c main_v19 : S3x64x300000.Idx → EReal)
          (sitofp (F := Ideal) .f32 (constantI S_ 32 0#32)) pads_S3x64x300000_S3x64x301056_000_000_010560 h_S_ := by
  dsimp only [Gen.V, Gen.V0]
  simp only [List.flatten_cons, List.flatten_nil, List.append_nil, StableHlo.after_append]
  generalize StableHlo.after (Gen.hostOps0_5 (F := Ideal)) _ = W
  simp only [Gen.hostOps0_6, Gen.hostOps0_7, Gen.hostOps0_8, Gen.hostOps0_9, Gen.hostOps0_10, Gen.hostOps0_11,
    Gen.hostOps0_12, Gen.hostOps0_13]
  after_results
  rfl

/-- Window 3's array is the padded mask array. -/
theorem v25_eq (c : Dev nD) :
    (Gen.V m c main_v25 : S64x301056.Idx → EReal)
      = pad S64x301056 ![0, 0] ![0, 1056] ![0, 0] (Gen.V m c main_v9 : S64x300000.Idx → EReal)
          (sitofp (F := Ideal) .f32 (constantI S_ 32 0#32)) pads_S64x300000_S64x301056_000_010560 h_S_ := by
  dsimp only [Gen.V, Gen.V0]
  simp only [List.flatten_cons, List.flatten_nil, List.append_nil, StableHlo.after_append]
  generalize StableHlo.after (Gen.hostOps0_5 (F := Ideal)) _ = W
  simp only [Gen.hostOps0_6, Gen.hostOps0_7, Gen.hostOps0_8, Gen.hostOps0_9, Gen.hostOps0_10, Gen.hostOps0_11,
    Gen.hostOps0_12, Gen.hostOps0_13]
  after_results
  rfl

/-! ## The four windows -/

/-- Window 0's array: the padded source points. -/
theorem win_src (c : Dev nD) :
    (Gen.V m c main_v22 : S3x64x301056.Idx → EReal)
      = winSrc (m ((c.tc : Thread nD τ).loc main_arg0)) (m ((c.tc : Thread nD τ).loc main_arg3)) := by
  exact (v22_eq m c).trans (pad_eq_pad3 (Gen.V m c main_v20)
    (fun d b e => pSrc (m ((c.tc : Thread nD τ).loc main_arg0)) (m ((c.tc : Thread nD τ).loc main_arg3)) b e d)
    (fun d b e => v20_apply m c d b e))

/-- Window 1's array: the padded target points. -/
theorem win_dst (c : Dev nD) :
    (Gen.V m c main_v23 : S3x64x301056.Idx → EReal)
      = winDst (m ((c.tc : Thread nD τ).loc main_arg0)) (m ((c.tc : Thread nD τ).loc main_arg3)) := by
  exact (v23_eq m c).trans (pad_eq_pad3 (Gen.V m c main_v21)
    (fun d b e => pDst (m ((c.tc : Thread nD τ).loc main_arg0)) (m ((c.tc : Thread nD τ).loc main_arg3)) b e d)
    (fun d b e => v21_apply m c d b e))

/-- Window 2's array: the padded ground-truth normals. -/
theorem win_nrm (c : Dev nD) :
    (Gen.V m c main_v24 : S3x64x301056.Idx → EReal)
      = winNrm (m ((c.tc : Thread nD τ).loc main_arg2)) (m ((c.tc : Thread nD τ).loc main_arg1))
          (m ((c.tc : Thread nD τ).loc main_arg3)) := by
  exact (v24_eq m c).trans (pad_eq_pad3 (Gen.V m c main_v19)
    (fun d b e => gNrm (m ((c.tc : Thread nD τ).loc main_arg2)) (m ((c.tc : Thread nD τ).loc main_arg1)) (m ((c.tc : Thread nD τ).loc main_arg3)) b e d)
    (fun d b e => v19_apply m c d b e))

/-- Window 3's array: the padded mask. -/
theorem win_msk (c : Dev nD) :
    (Gen.V m c main_v25 : S64x301056.Idx → EReal) = winMsk (m ((c.tc : Thread nD τ).loc main_arg3)) := by
  exact (v25_eq m c).trans (pad_eq_pad2 (Gen.V m c main_v9)
    (fun b e => maskW (m ((c.tc : Thread nD τ).loc main_arg3)) b e)
    (fun b e => v9_apply m c b e))

end Cert.KernelIdeal.Windows

end
-- ==== Proof.KernelValue.lean ====
/-
  The kernel program's result.  Outputs 4 and 5 are written back at the last grid point only, where their staging
  buffers hold the two accumulators: the sum of all edges' terms and the number of unmasked edges.  Each output is a
  1×1 array which that one block covers.  After the region the host reshapes both to scalars and divides.
-/
import proofs.«105622_j89438398971910_1_alg».proof.Proof.Gen.KernelIdeal.Frame
import proofs.«105622_j89438398971910_1_alg».proof.Proof.Spec
import proofs.«105622_j89438398971910_1_alg».proof.Proof.Bridge
import proofs.«105622_j89438398971910_1_alg».proof.Proof.KernelBody
import proofs.«105622_j89438398971910_1_alg».proof.Proof.KernelWindows
import Idealize.ShloMosaic.Lib.ValueIdx
import Idealize.ShloMosaic.Lib.Pipeline.Value
import Idealize.ShloMosaic.Lib.StableHlo.Run

noncomputable section

open scoped BigOperators

namespace Cert.KernelIdeal.KValue

open Cert.KernelIdeal Cert.KernelIdeal.Gen Cert.NormalLoss Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The grid has 147 points. -/
theorem N_eq : cfg0.N = 147 := N_0

/-- The last grid point. -/
abbrev tLast : Fin cfg0.N := ⟨146, by rw [N_eq]; decide⟩

/-- The sum of all edges' terms, of core `c`'s arguments … -/
abbrev lossOf (c : Dev nD) : EReal :=
  lossSum (m ((c.tc : Thread nD τ).loc main_arg0)) (m ((c.tc : Thread nD τ).loc main_arg2))
    (m ((c.tc : Thread nD τ).loc main_arg1)) (m ((c.tc : Thread nD τ).loc main_arg3))
/-- … and the number of unmasked edges. -/
abbrev cntOf (c : Dev nD) : EReal := cntSum (m ((c.tc : Thread nD τ).loc main_arg3))

/-- After the last point output 4's staging buffer holds the sum of the edges' terms: the tiled sum over the four
    window arrays, which are the padded per-edge arrays, regrouped. -/
theorem out4_value (c : Dev nD) : (Gen.outsAt0 m c 146 (tLast).isLt).1 = fun _ => lossOf m c := by
  rw [Body.out4_final m c, Windows.win_src m c, Windows.win_dst m c, Windows.win_nrm m c, Windows.win_msk m c,
    tiledLoss_windows]

/-- After the last point output 5's staging buffer holds the number of unmasked edges. -/
theorem out5_value (c : Dev nD) : (Gen.outsAt0 m c 146 (tLast).isLt).2.1 = fun _ => cntOf m c := by
  rw [Body.out5_final m c, Windows.win_msk m c, tiledCnt_windows]

/-- The one write-back of output 4, at the last point, writes the sum of the edges' terms (the sum is kept as one
    opaque number throughout: nothing here looks inside it). -/
theorem flushed4 (c : Dev nD) (t : Fin cfg0.N) (hf : (cfg0.win 4).flush t = true) :
    (dats m 0 c).flushed 4 t = ((cfg0.win 4).blk t).view.read (Elt Ideal) (fun _ => lossOf m c) := by
  have hN : cfg0.N = 147 := N_eq
  have h146 : t.val = 146 := by have := (flush0_4 t).mp hf; have := t.isLt; omega
  obtain rfl : t = tLast := Fin.ext h146
  have hafter : (dats m 0 c).after 4 tLast = fun _ => lossOf m c := (after0_4 m c tLast).trans (out4_value m c)
  generalize lossOf m c = v at hafter ⊢
  show (cfg0.win 4).cut (grid0.coords tLast) ((dats m 0 c).after 4 tLast) = _
  rw [hafter]
  have hz' : (fun a => win0_4.index tLast a * main_v26_0.ty.shape.size a) = fun _ => 0 :=
    funext fun a => by fin_cases a <;> decide +kernel
  exact (Memref.read_access_unit_zero (Elt Ideal) main_v26_0 hz' (fun a => by rw [congrFun hz' a]; simp) (fun _ => v)).symm

/-- The one write-back of output 5 writes the number of unmasked edges. -/
theorem flushed5 (c : Dev nD) (t : Fin cfg0.N) (hf : (cfg0.win 5).flush t = true) :
    (dats m 0 c).flushed 5 t = ((cfg0.win 5).blk t).view.read (Elt Ideal) (fun _ => cntOf m c) := by
  have hN : cfg0.N = 147 := N_eq
  have h146 : t.val = 146 := by have := (flush0_5 t).mp hf; have := t.isLt; omega
  obtain rfl : t = tLast := Fin.ext h146
  have hafter : (dats m 0 c).after 5 tLast = fun _ => cntOf m c := (after0_5 m c tLast).trans (out5_value m c)
  generalize cntOf m c = v at hafter ⊢
  show (cfg0.win 5).cut (grid0.coords tLast) ((dats m 0 c).after 5 tLast) = _
  rw [hafter]
  have hz' : (fun a => win0_5.index tLast a * main_v26_1.ty.shape.size a) = fun _ => 0 :=
    funext fun a => by fin_cases a <;> decide +kernel
  exact (Memref.read_access_unit_zero (Elt Ideal) main_v26_1 hz' (fun a => by rw [congrFun hz' a]; simp) (fun _ => v)).symm

/-- The one index of a 1×1 array lies in the block the last point writes back (block (0, 0), of size 1×1). -/
theorem covered4 (i : S1x1.Idx) : i ∈ ((cfg0.win 4).blk tLast).view.set := by
  show i ∈ ((View.whole main_v26_0).slice (win0_4.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_4.index tLast 0 * win0_4.size 0 ≤ (i 0 : Nat) ∧ (i 0 : Nat) < win0_4.index tLast 0 * win0_4.size 0 + win0_4.xsize (grid0.coords tLast) 0
    rw [show win0_4.index tLast 0 * win0_4.size 0 = 0 from by decide +kernel, show win0_4.xsize (grid0.coords tLast) 0 = 1 from by decide +kernel]
    omega
  | ⟨1, _⟩ =>
    show win0_4.index tLast 1 * win0_4.size 1 ≤ (i 1 : Nat) ∧ (i 1 : Nat) < win0_4.index tLast 1 * win0_4.size 1 + win0_4.xsize (grid0.coords tLast) 1
    rw [show win0_4.index tLast 1 * win0_4.size 1 = 0 from by decide +kernel, show win0_4.xsize (grid0.coords tLast) 1 = 1 from by decide +kernel]
    omega

/-- The same for output 5. -/
theorem covered5 (i : S1x1.Idx) : i ∈ ((cfg0.win 5).blk tLast).view.set := by
  show i ∈ ((View.whole main_v26_1).slice (win0_5.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_5.index tLast 0 * win0_5.size 0 ≤ (i 0 : Nat) ∧ (i 0 : Nat) < win0_5.index tLast 0 * win0_5.size 0 + win0_5.xsize (grid0.coords tLast) 0
    rw [show win0_5.index tLast 0 * win0_5.size 0 = 0 from by decide +kernel, show win0_5.xsize (grid0.coords tLast) 0 = 1 from by decide +kernel]
    omega
  | ⟨1, _⟩ =>
    show win0_5.index tLast 1 * win0_5.size 1 ≤ (i 1 : Nat) ∧ (i 1 : Nat) < win0_5.index tLast 1 * win0_5.size 1 + win0_5.xsize (grid0.coords tLast) 1
    rw [show win0_5.index tLast 1 * win0_5.size 1 = 0 from by decide +kernel, show win0_5.xsize (grid0.coords tLast) 1 = 1 from by decide +kernel]
    omega

/-- The last point writes back. -/
theorem flush_last4 : (cfg0.win 4).flush tLast = true := (flush0_4 tLast).mpr (by decide)
theorem flush_last5 : (cfg0.win 5).flush tLast = true := (flush0_5 tLast).mpr (by decide)

/-- After the run output 4's array holds the sum of the edges' terms … -/
theorem final4 (c : Dev nD) : (dats m 0 c).arrAt 4 cfg0.N = fun _ => lossOf m c :=
  (dats m 0 c).arrAt_eq_of_cover 4 (fun _ => lossOf m c) (flushed4 m c) fun i => ⟨tLast, flush_last4, covered4 i⟩

/-- … and output 5's the number of unmasked edges. -/
theorem final5 (c : Dev nD) : (dats m 0 c).arrAt 5 cfg0.N = fun _ => cntOf m c :=
  (dats m 0 c).arrAt_eq_of_cover 5 (fun _ => cntOf m c) (flushed5 m c) fun i => ⟨tLast, flush_last5, covered5 i⟩

/-- Output 4's array as the region leaves it, read out of the core's contents after the region … -/
abbrev outArr4 (c : Dev nD) : S1x1.Idx → Ideal .f32 :=
  Pipeline.withArrays (cfgs 0).spec c (V0 m c) (fun w => (dats m 0 c).arrAt w (cfgs 0).N) (Proc.devRef .tc main_v26_0)
/-- … and output 5's. -/
abbrev outArr5 (c : Dev nD) : S1x1.Idx → Ideal .f32 :=
  Pipeline.withArrays (cfgs 0).spec c (V0 m c) (fun w => (dats m 0 c).arrAt w (cfgs 0).N) (Proc.devRef .tc main_v26_1)

/-- Reshaping two constant 1×1 arrays to scalars and dividing gives the quotient of the constants. -/
theorem divide_consts (L C : EReal) :
    Host.divf (F := Ideal) (φ := .f32) (shapeCast S_ (fun _ : S1x1.Idx => (L : Ideal .f32)) shapeCasts_S1x1_S_)
        (shapeCast S_ (fun _ : S1x1.Idx => (C : Ideal .f32)) shapeCasts_S1x1_S_)
      = fun _ => Ideal.div L C := by
  funext x
  rfl

/-- The host tail: the two output arrays reshaped to scalars, then divided. -/
theorem tail_term (c : Dev nD) :
    Pipeline.afterTail₀ cfgs (dats m) 0 (V0 m) [hostOps1] c main_v29
      = Host.divf (F := Ideal) (φ := .f32) (shapeCast S_ (outArr4 m c) shapeCasts_S1x1_S_)
          (shapeCast S_ (outArr5 m c) shapeCasts_S1x1_S_) := by
  unfold Pipeline.afterTail₀
  show StableHlo.after hostOps1 _ (Proc.devRef .tc main_v29) = _
  after_results
  rfl

/-- The result is the quotient of the two sums, by definition. -/
theorem result_eq (P G : Pts) (K : Near) (L : Edges) : result P G K L = Ideal.div (lossSum P G K L) (cntSum L) := rfl

/-- The value the host tail leaves in the result buffer: the specification's result of the core's arguments. -/
theorem tail_value (c : Dev nD) :
    Pipeline.afterTail₀ cfgs (dats m) 0 (V0 m) [hostOps1] c main_v29
      = fun _ => result (m ((c.tc : Thread nD τ).loc main_arg0)) (m ((c.tc : Thread nD τ).loc main_arg2))
          (m ((c.tc : Thread nD τ).loc main_arg1)) (m ((c.tc : Thread nD τ).loc main_arg3)) := by
  have e4 : outArr4 m c = fun _ => lossOf m c :=
    (Pipeline.withArrays_arr spec0 launch0.win.arr_inj c _ _ 4).trans (final4 m c)
  have e5 : outArr5 m c = fun _ => cntOf m c :=
    (Pipeline.withArrays_arr spec0 launch0.win.arr_inj c _ _ 5).trans (final5 m c)
  rw [tail_term, e4, e5, divide_consts]
  funext _
  exact (result_eq _ _ _ _).symm

/-- THE KERNEL PROGRAM'S RUN, READ: every weakly fair execution terminates with the result buffer at the
    specification's result of the arguments, and the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v29)
          = (fun _ => result (m ((c.tc : Thread nD τ).loc main_arg0)) (m ((c.tc : Thread nD τ).loc main_arg2))
              (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v29 (Pipeline.mem_restRefs_of main_v29 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  The certificate of the five claims.

  Both programs compute, from the predicted points `P`, the nearest-ground-truth indices `K`, the ground-truth
  normals `G` and the edge list `L`, the masked mean over all edges of the squared cosine between the edge's
  direction `P[src] − P[dst]` and the ground-truth normal at the edge's source `G[K[src]]`, every index read being
  a take that fills out-of-range reads.  The kernel program gathers the three point arrays coordinate axis first
  (the normals through ONE combined index), pads them and the mask to a whole number of 2048-column tiles, sums the
  terms tile by tile into two accumulators and divides on the host; it forms each cosine as one quotient by the product
  of the two guarded norms.  The reference normalises each vector by its own guarded norm first, and gathers the
  normals in two steps.  On the extended reals the two agree for every input: the per-edge law (one quotient = dot
  product of the two quotients) holds for all extended reals because the guarded norms are positive; the two-step
  gather is the one-step gather through the combined index; the padding contributes zeros; and a sum of extended reals
  may be regrouped freely.

  The three frames: the kernel's two are the generated frame certificates; the reference's is its run with the
  result dropped.  `preserves` has no conjunct.  `algebraic`: the kernel's run with its result named, and the
  reference's run whose last stage is the same number.
-/
import proofs.«105622_j89438398971910_1_alg».proof.Defs
import proofs.«105622_j89438398971910_1_alg».proof.Proof.Gen.Kernel
import proofs.«105622_j89438398971910_1_alg».proof.Proof.Gen.Kernel.Frame
import proofs.«105622_j89438398971910_1_alg».proof.Proof.Gen.KernelIdeal
import proofs.«105622_j89438398971910_1_alg».proof.Proof.Gen.KernelIdeal.Frame
import proofs.«105622_j89438398971910_1_alg».proof.Proof.Gen.ReferenceIdeal
import proofs.«105622_j89438398971910_1_alg».proof.Proof.Gen.Pre_finite_inputs
import proofs.«105622_j89438398971910_1_alg».proof.Proof.RefRun
import proofs.«105622_j89438398971910_1_alg».proof.Proof.RefRead
import proofs.«105622_j89438398971910_1_alg».proof.Proof.RefResult
import proofs.«105622_j89438398971910_1_alg».proof.Proof.KernelValue
import Idealize.ShloMosaic.Adequacy
import Idealize.ShloMosaic.Init

noncomputable section

namespace Cert.Proof

open Idealize.ShloMosaic Idealize.SL.Sem Cert.NormalLoss

/-- The word-level kernel program runs and keeps its arguments: the generated frame certificate. -/
theorem frame_kernel : Cert.frame_Kernel := fun m ρ _ => Cert.Kernel.Gen.frame m ρ

/-- The idealized kernel program runs and keeps its arguments: the generated frame certificate. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The two idealized programs, from memories that agree on the arguments, end with the same number: the
    specification's result of those arguments. -/
theorem algebraic : Cert.algebraic_KernelIdeal_ReferenceIdeal := by
  intro m ρ m' ρ' _ hagree
  refine ⟨fun c => fun _ => result (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.KValue.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v41_eq, Cert.ReferenceIdeal.RefValue.ref_result,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
